-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256x1 : Shape := ⟨2, ![256, 1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn_part2 {F : FTy → Type} [FloatOps F] (main_arg7 : FVec F S256x1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  main_v38

def fn_part1 {F : FTy → Type} [FloatOps F] (main_arg4 : FVec F S256x1 .f32) (main_arg5 : FVec F S256x256 .f32) (main_arg6 : FVec F S256x1 .f32) (main_arg7 : FVec F S256x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S4096x256 .f32) (main_arg1 : FVec F S4096x4096 .f32) (main_arg2 : FVec F S256x256 .f32) (main_arg3 : FVec F S256x1 .f32) (main_arg4 : FVec F S256x1 .f32) (main_arg5 : FVec F S256x256 .f32) (main_arg6 : FVec F S256x1 .f32) (main_arg7 : FVec F S256x1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_arg7 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256x1 : Shape := ⟨2, ![256, 1]⟩
abbrev S256x4096 : Shape := ⟨2, ![256, 4096]⟩
abbrev S1x4096 : Shape := ⟨2, ![1, 4096]⟩
abbrev S256 : Shape := ⟨1, ![256]⟩

abbrev nBuf : Space → Nat
  | .hbm => 10
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256x1, .f32⟩
  | .hbm, ⟨4, _⟩ => ⟨S256x1, .f32⟩
  | .hbm, ⟨5, _⟩ => ⟨S256x256, .f32⟩
  | .hbm, ⟨6, _⟩ => ⟨S256x1, .f32⟩
  | .hbm, ⟨7, _⟩ => ⟨S256x1, .f32⟩
  | .hbm, ⟨8, _⟩ => ⟨S4096x256, .f32⟩
  | .hbm, ⟨9, _⟩ => ⟨S4096x256, .f32⟩
  | .local _ .vmem, ⟨0, _⟩ => ⟨S4096x256, .f32⟩
  | .local _ .vmem, ⟨1, _⟩ => ⟨S256x256, .f32⟩
  | .local _ .vmem, ⟨2, _⟩ => ⟨S256x1, .f32⟩
  | .local _ .vmem, ⟨3, _⟩ => ⟨S256x1, .f32⟩
  | .local _ .vmem, ⟨4, _⟩ => ⟨S256x4096, .f32⟩
  | .local _ .vmem, ⟨5, _⟩ => ⟨S256x4096, .f32⟩
  | .local _ .vmem, ⟨6, _⟩ => ⟨S256x256, .f32⟩
  | .local _ .vmem, ⟨7, _⟩ => ⟨S256x256, .f32⟩
  | .local _ .vmem, ⟨8, _⟩ => ⟨S4096x256, .f32⟩
  | .local _ .vmem, ⟨9, _⟩ => ⟨S4096x256, .f32⟩
  | .local _ .vmem, ⟨10, _⟩ => ⟨S256x256, .f32⟩
  | .local _ .vmem, ⟨11, _⟩ => ⟨S256x1, .f32⟩
  | .local _ .vmem, ⟨12, _⟩ => ⟨S256x1, .f32⟩
  | .local _ .vmem, ⟨13, _⟩ => ⟨S256x4096, .f32⟩
  | .local _ .vmem, ⟨14, _⟩ => ⟨S256x4096, .f32⟩
  | .local _ .vmem, ⟨15, _⟩ => ⟨S256x256, .f32⟩
  | .local _ .vmem, ⟨16, _⟩ => ⟨S256x256, .f32⟩
  | .local _ .vmem, ⟨17, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v4 : BitVec 32 := Scalar.muli arg0 c256_i32
  let v5 : Index := Scalar.indexCast v4
  let c0_2 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def k1_off1 (i : grid1.Coords) : Fin 2 → Nat :=
  let arg0 : BitVec 32 := BitVec.ofNat 32 (i 0).val
  let c256_i32 : BitVec 32 := 256#32
  let v4 : BitVec 32 := Scalar.muli arg0 c256_i32
  let v5 : Index := Scalar.indexCast v4
  let c0_2 : Index := 0#32
  ![v5.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  inb_S256x1_S256x1_0_0 : ∀ a, (![0, 0] : Fin 2 → Nat) a + S256x1.size a ≤ S256x1.size a
  h_S256x1 : 0 < S256x1.numel
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x256 : S256x1.Broadcasts S256x256
  dot_S4096x256_S256x256_S4096x256_1_0_0_1_n_n_wf : DotDims.WF S4096x256 S256x256 S4096x256 [1] [0] [0] [1] [] []
  dot_S256x256_S256x1_S256x1_1_0_0_1_n_n_wf : DotDims.WF S256x256 S256x1 S256x1 [1] [0] [0] [1] [] []
  dot_S256x1_S4096x256_S1x4096_0_1_1_0_n_n_wf : DotDims.WF S256x1 S4096x256 S1x4096 [0] [1] [1] [0] [] []
  dot_S256x4096_S4096x256_S256x256_1_0_0_1_n_n_wf : DotDims.WF S256x4096 S4096x256 S256x256 [1] [0] [0] [1] [] []
  hrank0 : 0 < grid0.rank
  k0_off1_inb : ∀ i : grid0.Coords, ∀ a, (k0_off1 i) a + S256x256.size a ≤ S4096x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S4096x256.size a
  hwx0_5 : ∀ i : grid0.Coords, EltTy.bits .f32 = 32 ∨ (Rect.block (s := S4096x256) S256x256.size (cc0_transform_5 i) (hinb0_5 i)).WholeWords (EltTy.packing .f32)
  hrank1 : 0 < grid1.rank
  k1_off1_inb : ∀ i : grid1.Coords, ∀ a, (k1_off1 i) a + S256x256.size a ≤ S4096x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x256.size a
  hwx1_0 : ∀ i : grid1.Coords, EltTy.bits .f32 = 32 ∨ (Rect.block (s := S4096x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S4096x4096.size a
  hwx1_4 : ∀ i : grid1.Coords, EltTy.bits .f32 = 32 ∨ (Rect.block (s := S4096x4096) S256x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S4096x256.size a
  hwx1_5 : ∀ i : grid1.Coords, EltTy.bits .f32 = 32 ∨ (Rect.block (s := S4096x256) S256x256.size (cc1_transform_5 i) (hinb1_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x1_S4096x256_S1x4096_0_1_1_0_n_n : DotDims S256x1 S4096x256 S1x4096 where
  lhsContracting := [0]
  rhsContracting := [1]
  lhsNonContracting := [1]
  rhsNonContracting := [0]
  lhsBatch := []
  rhsBatch := []
  wf := dot_S256x1_S4096x256_S1x4096_0_1_1_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v0) S4096x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S256x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256x1 : Shape := ⟨2, ![256, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩

abbrev nBuf : Space → Nat
  | .hbm => 110
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256x1, .f32⟩
  | .hbm, ⟨4, _⟩ => ⟨S256x1, .f32⟩
  | .hbm, ⟨5, _⟩ => ⟨S256x256, .f32⟩
  | .hbm, ⟨6, _⟩ => ⟨S256x1, .f32⟩
  | .hbm, ⟨7, _⟩ => ⟨S256x1, .f32⟩
  | .hbm, ⟨8, _⟩ => ⟨S4096x256, .f32⟩
  | .hbm, ⟨9, _⟩ => ⟨S4096x1, .f32⟩
  | .hbm, ⟨10, _⟩ => ⟨S4096x1, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x256, .f32⟩
  | .hbm, ⟨44, _⟩ => ⟨S_, .f32⟩
  | .hbm, ⟨45, _⟩ => ⟨S4096x256, .f32⟩
  | .hbm, ⟨46, _⟩ => ⟨S4096x256, .i1⟩
  | .hbm, ⟨47, _⟩ => ⟨S_, .f32⟩
  | .hbm, ⟨48, _⟩ => ⟨S4096x256, .f32⟩
  | .hbm, ⟨49, _⟩ => ⟨S4096x256, .i1⟩
  | .hbm, ⟨50, _⟩ => ⟨S_, .f32⟩
  | .hbm, ⟨51, _⟩ => ⟨S_, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x1, .f32⟩
  | .hbm, ⟨61, _⟩ => ⟨S4096x1, .f32⟩
  | .hbm, ⟨62, _⟩ => ⟨S1x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S_, .f32⟩
  | .hbm, ⟨68, _⟩ => ⟨S4096x4096, .f32⟩
  | .hbm, ⟨69, _⟩ => ⟨S4096x4096, .i1⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .i1⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096x1, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x4096, .f32⟩
  | .hbm, ⟨93, _⟩ => ⟨S4096x4096, .f32⟩
  | .hbm, ⟨94, _⟩ => ⟨S4096x256, .f32⟩
  | .hbm, ⟨95, _⟩ => ⟨S_, .f32⟩
  | .hbm, ⟨96, _⟩ => ⟨S4096x256, .f32⟩
  | .hbm, ⟨97, _⟩ => ⟨S4096x256, .i1⟩
  | .hbm, ⟨98, _⟩ => ⟨S_, .f32⟩
  | .hbm, ⟨99, _⟩ => ⟨S4096x256, .f32⟩
  | .hbm, ⟨100, _⟩ => ⟨S4096x256, .i1⟩
  | .hbm, ⟨101, _⟩ => ⟨S_, .f32⟩
  | .hbm, ⟨102, _⟩ => ⟨S_, .f32⟩
  | .hbm, ⟨103, _⟩ => ⟨S4096x256, .f32⟩
  | .hbm, ⟨104, _⟩ => ⟨S4096x256, .f32⟩
  | .hbm, ⟨105, _⟩ => ⟨S4096x256, .f32⟩
  | .hbm, ⟨106, _⟩ => ⟨S_, .f32⟩
  | .hbm, ⟨107, _⟩ => ⟨S4096x256, .f32⟩
  | .hbm, ⟨108, _⟩ => ⟨S4096x256, .f32⟩
  | .hbm, ⟨109, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_call1_v0 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_cst_0 : Ref sig .tc := ⟨.hbm, 47, rfl⟩
abbrev main_call2_v2 : Ref sig .tc := ⟨.hbm, 48, rfl⟩
abbrev main_call2_v3 : Ref sig .tc := ⟨.hbm, 49, rfl⟩
abbrev main_call2_cst_1 : Ref sig .tc := ⟨.hbm, 50, rfl⟩
abbrev main_call2_call0_v0 : Ref sig .tc := ⟨.hbm, 51, rfl⟩
abbrev main_call2_call0_v1 : Ref sig .tc := ⟨.hbm, 52, rfl⟩
abbrev main_call2_v4 : Ref sig .tc := ⟨.hbm, 53, rfl⟩
abbrev main_call2_v5 : Ref sig .tc := ⟨.hbm, 54, rfl⟩
abbrev main_call2_cst_2 : Ref sig .tc := ⟨.hbm, 55, rfl⟩
abbrev main_call2_v6 : Ref sig .tc := ⟨.hbm, 56, rfl⟩
abbrev main_call2_v7 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_5 : Ref sig .tc := ⟨.hbm, 66, rfl⟩
abbrev main_call3_cst : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v31 : Ref sig .tc := ⟨.hbm, 73, rfl⟩
abbrev main_cst_6 : Ref sig .tc := ⟨.hbm, 74, rfl⟩
abbrev main_v32 : Ref sig .tc := ⟨.hbm, 75, rfl⟩
abbrev main_v33 : Ref sig .tc := ⟨.hbm, 76, rfl⟩
abbrev main_cst_7 : Ref sig .tc := ⟨.hbm, 77, rfl⟩
abbrev main_call4_v0 : Ref sig .tc := ⟨.hbm, 78, rfl⟩
abbrev main_v34 : Ref sig .tc := ⟨.hbm, 79, rfl⟩
abbrev main_cst_8 : Ref sig .tc := ⟨.hbm, 80, rfl⟩
abbrev main_v35 : Ref sig .tc := ⟨.hbm, 81, rfl⟩
abbrev main_cst_9 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_10 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_call5_cst : Ref sig .tc := ⟨.hbm, 95, rfl⟩
abbrev main_call5_v0 : Ref sig .tc := ⟨.hbm, 96, rfl⟩
abbrev main_call5_v1 : Ref sig .tc := ⟨.hbm, 97, rfl⟩
abbrev main_call5_cst_0 : Ref sig .tc := ⟨.hbm, 98, rfl⟩
abbrev main_call5_v2 : Ref sig .tc := ⟨.hbm, 99, rfl⟩
abbrev main_call5_v3 : Ref sig .tc := ⟨.hbm, 100, rfl⟩
abbrev main_call5_cst_1 : Ref sig .tc := ⟨.hbm, 101, rfl⟩
abbrev main_call5_call0_v0 : Ref sig .tc := ⟨.hbm, 102, rfl⟩
abbrev main_call5_call0_v1 : Ref sig .tc := ⟨.hbm, 103, rfl⟩
abbrev main_call5_v4 : Ref sig .tc := ⟨.hbm, 104, rfl⟩
abbrev main_call5_v5 : Ref sig .tc := ⟨.hbm, 105, rfl⟩
abbrev main_call5_cst_2 : Ref sig .tc := ⟨.hbm, 106, rfl⟩
abbrev main_call5_v6 : Ref sig .tc := ⟨.hbm, 107, rfl⟩
abbrev main_call5_v7 : Ref sig .tc := ⟨.hbm, 108, rfl⟩
abbrev main_v47 : Ref sig .tc := ⟨.hbm, 109, rfl⟩

abbrev nD : Nat := 1
abbrev τ : Topo := Topo.v7x

variable {F : FTy → Type} [FloatOps F]

class Facts₀ : Prop where
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.KBody0Bits.lean ====
/-
  The body of one layer's kernel at one grid point, as a triple over its seven memrefs.
  At the grid's first point the body multiplies the staged input by the staged weights and stores the product H whole
  into the scratch; at every point it then reads H back whole, reads the 256 rows of H that belong to the point's block,
  the two attention vectors and the block's adjacency rows, and stores one value — the attention aggregate of those rows,
  through elu — whole into the result's staging buffer. So after any point the scratch holds H (computed there, or found),
  and the result buffer holds `body0` of the point, H and the three staged operands; the five inputs are left as found.
-/
import proofs.«172533_g75539884802175_cont_sun_m_1234_3_alg».proof.Proof.Gen.Kernel.Launch
import proofs.«172533_g75539884802175_cont_sun_m_1234_3_alg».proof.Proof.Gen.Kernel.Skeleton
import proofs.«172533_g75539884802175_cont_sun_m_1234_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access of a rank-2 buffer. -/
theorem hz2_0 : (![0, 0] : Fin 2 → Nat) = fun _ => 0 := by funext a; fin_cases a <;> rfl

/-- One store through the whole 4096 × 256 rectangle covers the buffer. -/
theorem coverH0 (w : S4096x256.Idx → Elt F .f32) (y : S4096x256.Idx) :
    ∃ p ∈ ([⟨Rect.unit (s := S4096x256) ![0, 0] S4096x256.size inb_S4096x256_S4096x256_0_0, w⟩] : List (View.Piece (Elt F) S4096x256 .f32)), y ∈ p.1.set :=
  ⟨_, List.mem_singleton_self _, View.mem_set_unit_zero hz2_0 inb_S4096x256_S4096x256_0_0 y⟩

/-- One store through the whole 256 × 256 rectangle covers the buffer. -/
theorem coverO0 (w : S256x256.Idx → Elt F .f32) (y : S256x256.Idx) :
    ∃ p ∈ ([⟨Rect.unit (s := S256x256) ![0, 0] S256x256.size inb_S256x256_S256x256_0_0, w⟩] : List (View.Piece (Elt F) S256x256 .f32)), y ∈ p.1.set :=
  ⟨_, List.mem_singleton_self _, View.mem_set_unit_zero hz2_0 inb_S256x256_S256x256_0_0 y⟩

/-- The body's one branch: taken at the grid's first point only. -/
abbrev cond0 (i : grid0.Coords) : Prop :=
  (Scalar.cmpi .ne (Scalar.extui (Scalar.cmpi .eq (BitVec.ofNat 32 (i 0).val) 0#32)) 0#32) = 1#1

/-- It holds at the first point only — decided over the grid's sixteen points. -/
theorem hcond0 : ∀ t : Fin cfg0.N, cond0 (grid0.coords t) ↔ t.val = 0 :=
  (by decide +kernel : ∀ t : Fin grid0.N, cond0 (grid0.coords t) ↔ t.val = 0)

/-- The rows of the scratch the body reads for its block: 256 rows from row 256·(point). -/
abbrev blockRect0 (i : grid0.Coords) : Rect S4096x256 := Rect.unit (s := S4096x256) (k0_off1 i) S256x256.size (k0_off1_inb i)

/-- What the body stores in the result's staging buffer, over the scratch contents `S` and the three operands staged per
    point (the two attention vectors and the block's adjacency rows). -/
def body0 (i : grid0.Coords) (S : Vec F S4096x256 .f32) (x3 x4 : Vec F S256x1 .f32) (x5 : Vec F S256x4096 .f32) : Vec F S256x256 .f32 :=
  k0_pay1 (k0_pay3 S (View.ld S (blockRect0 i)) x3 x4 x5) (k0_pay4 S (View.ld S (blockRect0 i)) x3 x4 x5)

set_option maxHeartbeats 4000000 in
/-- AT THE FIRST POINT: from the five inputs at their contents and the result buffer and the scratch at anything, the body
    runs to its return with the inputs as they were, the scratch at the product H of the first two, and the result at
    `body0` over H. -/
theorem sound_first0 (c : Dev nD) (E : Set ℕ) (i : grid0.Coords) (hc : cond0 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole)
    (x1 : Vec F S4096x256 .f32) (x2 : Vec F S256x256 .f32) (x3 x4 : Vec F S256x1 .f32) (x5 : Vec F S256x4096 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (body0 i (k0_pay2 x1 x2) x3 x4 x5) ∗ owns (c : Thread nD τ) arg7 fullShare (k0_pay2 x1 x2)) -∗ K ⟨⟩))
      ⊢ wp frame (wpE (defs₀ (F := F)) Variants.none c none) E (cc0__gat_layer_kernel i arg1 harg1 arg2 harg2 arg3 harg3 arg4 harg4 arg5 harg5 arg6 harg6 arg7 harg7) K := by
  simp only [cc0__gat_layer_kernel_eq_skeleton]; unfold cc0__gat_layer_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (coverO0 _), View.canon_unit_zero hz2_0]
    sl_unfold_run_names
    simp only [View.readAt_eq_ld, hf1, hf2, hf3, hf4, hf5, View.ld_unit_zero (S := S4096x256) hz2_0, View.ld_unit_zero (S := S256x256) hz2_0, View.ld_unit_zero (S := S256x1) hz2_0, View.ld_unit_zero (S := S256x4096) hz2_0,
      View.readCov_unit_zero (S := S4096x256) _ hz2_0, View.read_writes_eq_canon arg7.view _ _ (coverH0 _), View.canon_unit_zero (S := S4096x256) hz2_0 inb_S4096x256_S4096x256_0_0]
    rfl
  iexists _; isplitr
  swap; · iexact H7
  ipureintro
  sl_unfold_run_names
  rw [View.read_writes_eq_canon _ _ _ (coverH0 _), View.canon_unit_zero hz2_0]
  simp only [View.readAt_eq_ld, hf1, hf2, View.ld_unit_zero (S := S4096x256) hz2_0, View.ld_unit_zero (S := S256x256) hz2_0]

set_option maxHeartbeats 4000000 in
/-- AT A LATER POINT: from the five inputs at their contents, the result buffer at anything and the scratch at contents
    `S`, the body runs to its return with the inputs and the scratch as they were and the result at `body0` over `S`. -/
theorem sound_later0 (c : Dev nD) (E : Set ℕ) (i : grid0.Coords) (hc : ¬cond0 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole)
    (x1 : Vec F S4096x256 .f32) (x2 : Vec F S256x256 .f32) (x3 x4 : Vec F S256x1 .f32) (x5 : Vec F S256x4096 .f32) (S : Vec F S4096x256 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ owns (c : Thread nD τ) arg7 fullShare S
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (body0 i S x3 x4 x5) ∗ owns (c : Thread nD τ) arg7 fullShare S) -∗ K ⟨⟩))
      ⊢ wp frame (wpE (defs₀ (F := F)) Variants.none c none) E (cc0__gat_layer_kernel i arg1 harg1 arg2 harg2 arg3 harg3 arg4 harg4 arg5 harg5 arg6 harg6 arg7 harg7) K := by
  simp only [cc0__gat_layer_kernel_eq_skeleton]; unfold cc0__gat_layer_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (coverO0 _), View.canon_unit_zero hz2_0]
    sl_unfold_run_names
    simp only [View.readAt_eq_ld, hf1, hf2, hf3, hf4, hf5, hf7, View.ld_unit_zero (S := S4096x256) hz2_0, View.ld_unit_zero (S := S256x256) hz2_0, View.ld_unit_zero (S := S256x1) hz2_0, View.ld_unit_zero (S := S256x4096) hz2_0]
    rfl
  iexists _; isplitr; · ipureintro; exact harg7.read_unread _
  iexact H7

end Cert.Kernel.Hand

end
-- ==== Proof.KRegion0Bits.lean ====
/-
  One layer's pallas_call as a pipeline run from any contents `V` of the core's buffers: the proof data (what each
  window's staging buffer holds after the body at each of the sixteen grid points), the invariant between points — the
  scratch holds anything before the first point and the projected features H = (input)·(weights) after it, the other
  calls' scoped buffers and the generator register ride along —, and the body obligation at every point from the body's
  two triples. The five inputs' buffers hold their blocks at every point, fetched there or not; the result's buffer is
  written whole at every point and written back.
-/
import proofs.«172533_g75539884802175_cont_sun_m_1234_3_alg».proof.Proof.Gen.Kernel.Launch
import proofs.«172533_g75539884802175_cont_sun_m_1234_3_alg».proof.Proof.Gen.Kernel.Skeleton
import proofs.«172533_g75539884802175_cont_sun_m_1234_3_alg».proof.Proof.Gen.Kernel.Points
import proofs.«172533_g75539884802175_cont_sun_m_1234_3_alg».proof.Proof.KBody0Bits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The kernel's scratch: a whole scoped buffer of its own. -/
abbrev scM0 : Memref sig .tc .vmem S4096x256 .f32 := Memref.whole cc0_scratch0

/-- The core's other scoped buffers that this call does not stage (the other call's staging buffers and scratch), each
    whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The core's scoped buffers that are no staging buffer of this call: the scratch first, then the others. -/
theorem scoped0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) := by
  unfold others0
  exact Pipeline.scopedRest_eq_of_list spec0 c [cc0_scratch0, cc1_stg0_0, cc1_stg1_0, cc1_stg2_0, cc1_stg3_0, cc1_stg4_0, cc1_stg4_1, cc1_stg5_0, cc1_stg5_1, cc1_scratch0] (by decide) (by decide)

/-- The class invariant with the scratch as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scoped0_eq]; simp only [scM0, owns_whole]; rfl

/-- The projected features H: the body's product of the input and the weights as the first point finds them staged. -/
def feat0 (c : Dev nD) : Vec F S4096x256 .f32 := k0_pay2 (iblk0 V c 0 t0_0) (iblk0 V c 1 t0_0)

/-- The invariant before position `n`: before the first point the scratch holds anything; afterwards it holds H. -/
def Phi0 (c : Dev nD) : ℕ → sProp 𝕄
  | 0 => Pipeline.ΦA spec0 c
  | _ + 1 => iprop(iprop(owns (c : Thread nD τ) scM0 fullShare (feat0 V c) ∗ others0 c) ∗ (∃ r, prngReg c r))

theorem Phi0_zero (c : Dev nD) (n : ℕ) (hz : n = 0) : Phi0 V c n = Pipeline.ΦA spec0 c := by subst hz; rfl
theorem Phi0_succ (c : Dev nD) (n : ℕ) :
    Phi0 V c (n + 1) = iprop(iprop(owns (c : Thread nD τ) scM0 fullShare (feat0 V c) ∗ others0 c) ∗ (∃ r, prngReg c r)) := rfl
theorem Phi0_pos (c : Dev nD) (n : ℕ) (hz : n ≠ 0) :
    Phi0 V c n = iprop(iprop(owns (c : Thread nD τ) scM0 fullShare (feat0 V c) ∗ others0 c) ∗ (∃ r, prngReg c r)) := by
  cases n with
  | zero => exact absurd rfl hz
  | succ n => rfl

/-- The proof data: the arrays as the region finds them; after the body at point `t` each input's buffer at its block and
    the result's at the body's value over H and the point's staged operands; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => body0 (grid0.coords t) (feat0 V c) (iblk0 V c 2 t) (iblk0 V c 3 t) (iblk0 V c 4 t)
  Φ t := Phi0 V c t.val
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) : (dat0 V c).Φ t.castSucc = Phi0 V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = body0 (grid0.coords t) (feat0 V c) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' buffers hold their blocks; at the first point the scratch is handed over at
    anything and taken back at H, at a later point handed over at H and taken back unchanged; the other scoped buffers,
    the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = Phi0 V c (t.val + 1) from rfl, Phi0_succ,
    after0_0, after0_1, after0_2, after0_3, after0_4, after0_5, Phi0_castSucc]
  by_cases hz : t.val = 0
  · obtain rfl : t = t0_0 := Fin.ext hz
    rw [Phi0_zero V c _ hz, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_first0 c Set.univ (grid0.coords t0_0) ((hcond0 t0_0).mpr hz) _ _ _ _ _ _ _ _ _ _ _ _ _ _
      (iblk0 V c 0 t0_0) (iblk0 V c 1 t0_0) (iblk0 V c 2 t0_0) (iblk0 V c 3 t0_0) (iblk0 V c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi0_pos V c _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_later0 c Set.univ (grid0.coords t) (fun h => hz ((hcond0 t).mp h)) _ _ _ _ _ _ _ _ _ _ _ _ _ _
      (iblk0 V c 0 t) (iblk0 V c 1 t) (iblk0 V c 2 t) (iblk0 V c 3 t) (iblk0 V c 4 t) (feat0 V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, Phi0_zero V c 0 rfl]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 16 := N_0; omega), PhiA0_eq]
  iintro ⟨⟨HS, Hoth⟩, Hg⟩
  isplitl [HS Hoth]
  · isplitl [HS]; · iexists _; iexact HS
    iexact Hoth
  iexact Hg

/-- The generator register, anything, and the scoped rest make the class invariant; -/
theorem toPhiA0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp

/-- and the class invariant gives them back. -/
theorem ofPhiA0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

end Region

end Cert.Kernel.Hand

end
-- ==== Proof.KBody1Bits.lean ====
/-
  The body of one layer's kernel at one grid point, as a triple over its seven memrefs.
  At the grid's first point the body multiplies the staged input by the staged weights and stores the product H whole
  into the scratch; at every point it then reads H back whole, reads the 256 rows of H that belong to the point's block,
  the two attention vectors and the block's adjacency rows, and stores one value — the attention aggregate of those rows,
  through elu — whole into the result's staging buffer. So after any point the scratch holds H (computed there, or found),
  and the result buffer holds `body1` of the point, H and the three staged operands; the five inputs are left as found.
-/
import proofs.«172533_g75539884802175_cont_sun_m_1234_3_alg».proof.Proof.Gen.Kernel.Launch
import proofs.«172533_g75539884802175_cont_sun_m_1234_3_alg».proof.Proof.Gen.Kernel.Skeleton
import proofs.«172533_g75539884802175_cont_sun_m_1234_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access of a rank-2 buffer. -/
theorem hz2_1 : (![0, 0] : Fin 2 → Nat) = fun _ => 0 := by funext a; fin_cases a <;> rfl

/-- One store through the whole 4096 × 256 rectangle covers the buffer. -/
theorem coverH1 (w : S4096x256.Idx → Elt F .f32) (y : S4096x256.Idx) :
    ∃ p ∈ ([⟨Rect.unit (s := S4096x256) ![0, 0] S4096x256.size inb_S4096x256_S4096x256_0_0, w⟩] : List (View.Piece (Elt F) S4096x256 .f32)), y ∈ p.1.set :=
  ⟨_, List.mem_singleton_self _, View.mem_set_unit_zero hz2_1 inb_S4096x256_S4096x256_0_0 y⟩

/-- One store through the whole 256 × 256 rectangle covers the buffer. -/
theorem coverO1 (w : S256x256.Idx → Elt F .f32) (y : S256x256.Idx) :
    ∃ p ∈ ([⟨Rect.unit (s := S256x256) ![0, 0] S256x256.size inb_S256x256_S256x256_0_0, w⟩] : List (View.Piece (Elt F) S256x256 .f32)), y ∈ p.1.set :=
  ⟨_, List.mem_singleton_self _, View.mem_set_unit_zero hz2_1 inb_S256x256_S256x256_0_0 y⟩

/-- The body's one branch: taken at the grid's first point only. -/
abbrev cond1 (i : grid1.Coords) : Prop :=
  (Scalar.cmpi .ne (Scalar.extui (Scalar.cmpi .eq (BitVec.ofNat 32 (i 0).val) 0#32)) 0#32) = 1#1

/-- It holds at the first point only — decided over the grid's sixteen points. -/
theorem hcond1 : ∀ t : Fin cfg1.N, cond1 (grid1.coords t) ↔ t.val = 0 :=
  (by decide +kernel : ∀ t : Fin grid1.N, cond1 (grid1.coords t) ↔ t.val = 0)

/-- The rows of the scratch the body reads for its block: 256 rows from row 256·(point). -/
abbrev blockRect1 (i : grid1.Coords) : Rect S4096x256 := Rect.unit (s := S4096x256) (k1_off1 i) S256x256.size (k1_off1_inb i)

/-- What the body stores in the result's staging buffer, over the scratch contents `S` and the three operands staged per
    point (the two attention vectors and the block's adjacency rows). -/
def body1 (i : grid1.Coords) (S : Vec F S4096x256 .f32) (x3 x4 : Vec F S256x1 .f32) (x5 : Vec F S256x4096 .f32) : Vec F S256x256 .f32 :=
  k1_pay1 (k1_pay3 S (View.ld S (blockRect1 i)) x3 x4 x5) (k1_pay4 S (View.ld S (blockRect1 i)) x3 x4 x5)

set_option maxHeartbeats 4000000 in
/-- AT THE FIRST POINT: from the five inputs at their contents and the result buffer and the scratch at anything, the body
    runs to its return with the inputs as they were, the scratch at the product H of the first two, and the result at
    `body1` over H. -/
theorem sound_first1 (c : Dev nD) (E : Set ℕ) (i : grid1.Coords) (hc : cond1 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole)
    (x1 : Vec F S4096x256 .f32) (x2 : Vec F S256x256 .f32) (x3 x4 : Vec F S256x1 .f32) (x5 : Vec F S256x4096 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (body1 i (k1_pay2 x1 x2) x3 x4 x5) ∗ owns (c : Thread nD τ) arg7 fullShare (k1_pay2 x1 x2)) -∗ K ⟨⟩))
      ⊢ wp frame (wpE (defs₀ (F := F)) Variants.none c none) E (cc1__gat_layer_kernel i arg1 harg1 arg2 harg2 arg3 harg3 arg4 harg4 arg5 harg5 arg6 harg6 arg7 harg7) K := by
  simp only [cc1__gat_layer_kernel_eq_skeleton]; unfold cc1__gat_layer_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (coverO1 _), View.canon_unit_zero hz2_1]
    sl_unfold_run_names
    simp only [View.readAt_eq_ld, hf1, hf2, hf3, hf4, hf5, View.ld_unit_zero (S := S4096x256) hz2_1, View.ld_unit_zero (S := S256x256) hz2_1, View.ld_unit_zero (S := S256x1) hz2_1, View.ld_unit_zero (S := S256x4096) hz2_1,
      View.readCov_unit_zero (S := S4096x256) _ hz2_1, View.read_writes_eq_canon arg7.view _ _ (coverH1 _), View.canon_unit_zero (S := S4096x256) hz2_1 inb_S4096x256_S4096x256_0_0]
    rfl
  iexists _; isplitr
  swap; · iexact H7
  ipureintro
  sl_unfold_run_names
  rw [View.read_writes_eq_canon _ _ _ (coverH1 _), View.canon_unit_zero hz2_1]
  simp only [View.readAt_eq_ld, hf1, hf2, View.ld_unit_zero (S := S4096x256) hz2_1, View.ld_unit_zero (S := S256x256) hz2_1]

set_option maxHeartbeats 4000000 in
/-- AT A LATER POINT: from the five inputs at their contents, the result buffer at anything and the scratch at contents
    `S`, the body runs to its return with the inputs and the scratch as they were and the result at `body1` over `S`. -/
theorem sound_later1 (c : Dev nD) (E : Set ℕ) (i : grid1.Coords) (hc : ¬cond1 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole)
    (x1 : Vec F S4096x256 .f32) (x2 : Vec F S256x256 .f32) (x3 x4 : Vec F S256x1 .f32) (x5 : Vec F S256x4096 .f32) (S : Vec F S4096x256 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ owns (c : Thread nD τ) arg7 fullShare S
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (body1 i S x3 x4 x5) ∗ owns (c : Thread nD τ) arg7 fullShare S) -∗ K ⟨⟩))
      ⊢ wp frame (wpE (defs₀ (F := F)) Variants.none c none) E (cc1__gat_layer_kernel i arg1 harg1 arg2 harg2 arg3 harg3 arg4 harg4 arg5 harg5 arg6 harg6 arg7 harg7) K := by
  simp only [cc1__gat_layer_kernel_eq_skeleton]; unfold cc1__gat_layer_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (coverO1 _), View.canon_unit_zero hz2_1]
    sl_unfold_run_names
    simp only [View.readAt_eq_ld, hf1, hf2, hf3, hf4, hf5, hf7, View.ld_unit_zero (S := S4096x256) hz2_1, View.ld_unit_zero (S := S256x256) hz2_1, View.ld_unit_zero (S := S256x1) hz2_1, View.ld_unit_zero (S := S256x4096) hz2_1]
    rfl
  iexists _; isplitr; · ipureintro; exact harg7.read_unread _
  iexact H7

end Cert.Kernel.Hand

end
-- ==== Proof.KRegion1Bits.lean ====
/-
  One layer's pallas_call as a pipeline run from any contents `V` of the core's buffers: the proof data (what each
  window's staging buffer holds after the body at each of the sixteen grid points), the invariant between points — the
  scratch holds anything before the first point and the projected features H = (input)·(weights) after it, the other
  calls' scoped buffers and the generator register ride along —, and the body obligation at every point from the body's
  two triples. The five inputs' buffers hold their blocks at every point, fetched there or not; the result's buffer is
  written whole at every point and written back.
-/
import proofs.«172533_g75539884802175_cont_sun_m_1234_3_alg».proof.Proof.Gen.Kernel.Launch
import proofs.«172533_g75539884802175_cont_sun_m_1234_3_alg».proof.Proof.Gen.Kernel.Skeleton
import proofs.«172533_g75539884802175_cont_sun_m_1234_3_alg».proof.Proof.Gen.Kernel.Points
import proofs.«172533_g75539884802175_cont_sun_m_1234_3_alg».proof.Proof.KBody1Bits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The kernel's scratch: a whole scoped buffer of its own. -/
abbrev scM1 : Memref sig .tc .vmem S4096x256 .f32 := Memref.whole cc1_scratch0

/-- The core's other scoped buffers that this call does not stage (the other call's staging buffers and scratch), each
    whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The core's scoped buffers that are no staging buffer of this call: the scratch first, then the others. -/
theorem scoped1_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 c) := by
  unfold others1
  exact Pipeline.scopedRest_eq_of_list spec1 c [cc1_scratch0, cc0_stg0_0, cc0_stg1_0, cc0_stg2_0, cc0_stg3_0, cc0_stg4_0, cc0_stg4_1, cc0_stg5_0, cc0_stg5_1, cc0_scratch0] (by decide) (by decide)

/-- The class invariant with the scratch as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA; rw [scoped1_eq]; simp only [scM1, owns_whole]; rfl

/-- The projected features H: the body's product of the input and the weights as the first point finds them staged. -/
def feat1 (c : Dev nD) : Vec F S4096x256 .f32 := k1_pay2 (iblk1 V c 0 t1_0) (iblk1 V c 1 t1_0)

/-- The invariant before position `n`: before the first point the scratch holds anything; afterwards it holds H. -/
def Phi1 (c : Dev nD) : ℕ → sProp 𝕄
  | 0 => Pipeline.ΦA spec1 c
  | _ + 1 => iprop(iprop(owns (c : Thread nD τ) scM1 fullShare (feat1 V c) ∗ others1 c) ∗ (∃ r, prngReg c r))

theorem Phi1_zero (c : Dev nD) (n : ℕ) (hz : n = 0) : Phi1 V c n = Pipeline.ΦA spec1 c := by subst hz; rfl
theorem Phi1_succ (c : Dev nD) (n : ℕ) :
    Phi1 V c (n + 1) = iprop(iprop(owns (c : Thread nD τ) scM1 fullShare (feat1 V c) ∗ others1 c) ∗ (∃ r, prngReg c r)) := rfl
theorem Phi1_pos (c : Dev nD) (n : ℕ) (hz : n ≠ 0) :
    Phi1 V c n = iprop(iprop(owns (c : Thread nD τ) scM1 fullShare (feat1 V c) ∗ others1 c) ∗ (∃ r, prngReg c r)) := by
  cases n with
  | zero => exact absurd rfl hz
  | succ n => rfl

/-- The proof data: the arrays as the region finds them; after the body at point `t` each input's buffer at its block and
    the result's at the body's value over H and the point's staged operands; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => body1 (grid1.coords t) (feat1 V c) (iblk1 V c 2 t) (iblk1 V c 3 t) (iblk1 V c 4 t)
  Φ t := Phi1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = body1 (grid1.coords t) (feat1 V c) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' buffers hold their blocks; at the first point the scratch is handed over at
    anything and taken back at H, at a later point handed over at H and taken back unchanged; the other scoped buffers,
    the generator register and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = Phi1 V c (t.val + 1) from rfl, Phi1_succ,
    after1_0, after1_1, after1_2, after1_3, after1_4, after1_5, Phi1_castSucc]
  by_cases hz : t.val = 0
  · obtain rfl : t = t1_0 := Fin.ext hz
    rw [Phi1_zero V c _ hz, PhiA1_eq]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_first1 c Set.univ (grid1.coords t1_0) ((hcond1 t1_0).mpr hz) _ _ _ _ _ _ _ _ _ _ _ _ _ _
      (iblk1 V c 0 t1_0) (iblk1 V c 1 t1_0) (iblk1 V c 2 t1_0) (iblk1 V c 3 t1_0) (iblk1 V c 4 t1_0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi1_pos V c _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_later1 c Set.univ (grid1.coords t) (fun h => hz ((hcond1 t).mp h)) _ _ _ _ _ _ _ _ _ _ _ _ _ _
      (iblk1 V c 0 t) (iblk1 V c 1 t) (iblk1 V c 2 t) (iblk1 V c 3 t) (iblk1 V c 4 t) (feat1 V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl, Phi1_zero V c 0 rfl]

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl,
    Phi1_pos V c _ (by rw [Fin.val_last]; have : cfg1.N = 16 := N_1; omega), PhiA1_eq]
  iintro ⟨⟨HS, Hoth⟩, Hg⟩
  isplitl [HS Hoth]
  · isplitl [HS]; · iexists _; iexact HS
    iexact Hoth
  iexact Hg

/-- The generator register, anything, and the scoped rest make the class invariant; -/
theorem toPhiA1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp

/-- and the class invariant gives them back. -/
theorem ofPhiA1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

end Region

end Cert.Kernel.Hand

end
-- ==== Proof.KRunBits.lean ====
/-
  The whole program as a run: its @main is the two layers' pallas_calls one after the other, with no host operation
  between. The buffers' contents at the three boundaries are a fold from the launch memory — each region leaves its own
  arrays at what its write-backs make of them and every other buffer as it found it —; each region is entered from the
  contents the one before left, and the run ends with every unscoped buffer at the last boundary's contents.
-/
import proofs.«172533_g75539884802175_cont_sun_m_1234_3_alg».proof.Proof.Gen.Kernel.Launch
import proofs.«172533_g75539884802175_cont_sun_m_1234_3_alg».proof.Proof.Gen.Kernel.Skeleton
import proofs.«172533_g75539884802175_cont_sun_m_1234_3_alg».proof.Proof.Gen.Kernel.Points
import proofs.«172533_g75539884802175_cont_sun_m_1234_3_alg».proof.Proof.KRegion0Bits
import proofs.«172533_g75539884802175_cont_sun_m_1234_3_alg».proof.Proof.KRegion1Bits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At the first region's exit (the second's entry): its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W2 m ρ c) ∗ ∃ r, prngReg c r)

/-! ## The regions as segments -/

-- a library lemma stated over the pinned configuration unifies with the printed one only when unification may unfold plain
-- definitions in a metavariable's type
set_option backward.isDefEq.respectTransparency.types false in
/-- Layer one's region over the thread state: entered from every unscoped buffer at `W0`, left at `W1`. Its
    arrays are split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA0 c _).trans (hin0 (V0 m ρ) c)
  hout c := by
    rw [Pipeline.ownSems0_none]
    exact (hout0 (V0 m ρ) c).trans (ofPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Layer two's region over the thread state: entered from every unscoped buffer at `W1`, left at `W2`. Its
    arrays are split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c _).trans (hin1 (V1 m ρ) c)
  hout c := by
    rw [Pipeline.ownSems0_none]
    exact (hout1 (V1 m ρ) c).trans (ofPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]

/-- @main is the run of the two regions. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer of every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-! ## The arguments end as launched: a region reads an argument through an input window or passes it by -/

theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg1 (c : Dev nD) : W1 m ρ c (Proc.devRef .tc main_arg1) = m ((c : Thread nD τ).loc main_arg1) :=
  (W1_arr m ρ c 4).trans (((dat0 (V0 m ρ) c).arrAt_in 4 rfl _).trans (A_eq0 (V0 m ρ) c 4))
theorem W1_main_arg2 (c : Dev nD) : W1 m ρ c (Proc.devRef .tc main_arg2) = m ((c : Thread nD τ).loc main_arg2) :=
  (W1_arr m ρ c 1).trans (((dat0 (V0 m ρ) c).arrAt_in 1 rfl _).trans (A_eq0 (V0 m ρ) c 1))
theorem W1_main_arg3 (c : Dev nD) : W1 m ρ c (Proc.devRef .tc main_arg3) = m ((c : Thread nD τ).loc main_arg3) :=
  (W1_arr m ρ c 2).trans (((dat0 (V0 m ρ) c).arrAt_in 2 rfl _).trans (A_eq0 (V0 m ρ) c 2))
theorem W1_main_arg4 (c : Dev nD) : W1 m ρ c (Proc.devRef .tc main_arg4) = m ((c : Thread nD τ).loc main_arg4) :=
  (W1_arr m ρ c 3).trans (((dat0 (V0 m ρ) c).arrAt_in 3 rfl _).trans (A_eq0 (V0 m ρ) c 3))
theorem W1_main_arg5 (c : Dev nD) : W1 m ρ c (Proc.devRef .tc main_arg5) = m ((c : Thread nD τ).loc main_arg5) :=
  W1_of_ne m ρ c main_arg5 (by decide)
theorem W1_main_arg6 (c : Dev nD) : W1 m ρ c (Proc.devRef .tc main_arg6) = m ((c : Thread nD τ).loc main_arg6) :=
  W1_of_ne m ρ c main_arg6 (by decide)
theorem W1_main_arg7 (c : Dev nD) : W1 m ρ c (Proc.devRef .tc main_arg7) = m ((c : Thread nD τ).loc main_arg7) :=
  W1_of_ne m ρ c main_arg7 (by decide)
theorem W2_main_arg0 (c : Dev nD) : W2 m ρ c (Proc.devRef .tc main_arg0) = m ((c : Thread nD τ).loc main_arg0) :=
  (W2_of_ne m ρ c main_arg0 (by decide)).trans (W1_main_arg0 m ρ c)
theorem W2_main_arg1 (c : Dev nD) : W2 m ρ c (Proc.devRef .tc main_arg1) = m ((c : Thread nD τ).loc main_arg1) :=
  (W2_arr m ρ c 4).trans (((dat1 (V1 m ρ) c).arrAt_in 4 rfl _).trans ((A_eq1 (V1 m ρ) c 4).trans (W1_main_arg1 m ρ c)))
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_arr m ρ c 1).trans (((dat1 (V1 m ρ) c).arrAt_in 1 rfl _).trans ((A_eq1 (V1 m ρ) c 1).trans (W1_main_arg5 m ρ c)))
theorem W2_main_arg6 (c : Dev nD) : W2 m ρ c (Proc.devRef .tc main_arg6) = m ((c : Thread nD τ).loc main_arg6) :=
  (W2_arr m ρ c 2).trans (((dat1 (V1 m ρ) c).arrAt_in 2 rfl _).trans ((A_eq1 (V1 m ρ) c 2).trans (W1_main_arg6 m ρ c)))
theorem W2_main_arg7 (c : Dev nD) : W2 m ρ c (Proc.devRef .tc main_arg7) = m ((c : Thread nD τ).loc main_arg7) :=
  (W2_arr m ρ c 3).trans (((dat1 (V1 m ρ) c).arrAt_in 3 rfl _).trans ((A_eq1 (V1 m ρ) c 3).trans (W1_main_arg7 m ρ c)))

/-- The first layer's result, as the second region finds it, is what the first region's write-backs leave. -/
theorem V1_main_call0_v0 (c : Dev nD) : V1 m ρ c main_call0_v0 = (dat0 (V0 m ρ) c).arrAt 5 cfg0.N := W1_arr m ρ c 5
/-- The program's result is what the second region's write-backs leave. -/
theorem W2_main_v0 (c : Dev nD) : W2 m ρ c (Proc.devRef .tc main_v0) = (dat1 (V1 m ρ) c).arrAt 5 cfg1.N := W2_arr m ρ c 5

/-- THE FRAME: every weakly fair execution terminates, nothing faulting, with the eight argument arrays as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c),
    (h c _ (mem_uc main_arg7 (by decide))).trans (W2_main_arg7 m ρ c)⟩) (run_all m ρ)

end Cert.Kernel.Hand

end
-- ==== Proof.KBody0Ideal.lean ====
/-
  The body of one layer's kernel at one grid point, as a triple over its seven memrefs.
  At the grid's first point the body multiplies the staged input by the staged weights and stores the product H whole
  into the scratch; at every point it then reads H back whole, reads the 256 rows of H that belong to the point's block,
  the two attention vectors and the block's adjacency rows, and stores one value — the attention aggregate of those rows,
  through elu — whole into the result's staging buffer. So after any point the scratch holds H (computed there, or found),
  and the result buffer holds `body0` of the point, H and the three staged operands; the five inputs are left as found.
-/
import proofs.«172533_g75539884802175_cont_sun_m_1234_3_alg».proof.Proof.Gen.KernelIdeal.Launch
import proofs.«172533_g75539884802175_cont_sun_m_1234_3_alg».proof.Proof.Gen.KernelIdeal.Skeleton
import proofs.«172533_g75539884802175_cont_sun_m_1234_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access of a rank-2 buffer. -/
theorem hz2_0 : (![0, 0] : Fin 2 → Nat) = fun _ => 0 := by funext a; fin_cases a <;> rfl

/-- One store through the whole 4096 × 256 rectangle covers the buffer. -/
theorem coverH0 (w : S4096x256.Idx → Elt F .f32) (y : S4096x256.Idx) :
    ∃ p ∈ ([⟨Rect.unit (s := S4096x256) ![0, 0] S4096x256.size inb_S4096x256_S4096x256_0_0, w⟩] : List (View.Piece (Elt F) S4096x256 .f32)), y ∈ p.1.set :=
  ⟨_, List.mem_singleton_self _, View.mem_set_unit_zero hz2_0 inb_S4096x256_S4096x256_0_0 y⟩

/-- One store through the whole 256 × 256 rectangle covers the buffer. -/
theorem coverO0 (w : S256x256.Idx → Elt F .f32) (y : S256x256.Idx) :
    ∃ p ∈ ([⟨Rect.unit (s := S256x256) ![0, 0] S256x256.size inb_S256x256_S256x256_0_0, w⟩] : List (View.Piece (Elt F) S256x256 .f32)), y ∈ p.1.set :=
  ⟨_, List.mem_singleton_self _, View.mem_set_unit_zero hz2_0 inb_S256x256_S256x256_0_0 y⟩

/-- The body's one branch: taken at the grid's first point only. -/
abbrev cond0 (i : grid0.Coords) : Prop :=
  (Scalar.cmpi .ne (Scalar.extui (Scalar.cmpi .eq (BitVec.ofNat 32 (i 0).val) 0#32)) 0#32) = 1#1

/-- It holds at the first point only — decided over the grid's sixteen points. -/
theorem hcond0 : ∀ t : Fin cfg0.N, cond0 (grid0.coords t) ↔ t.val = 0 :=
  (by decide +kernel : ∀ t : Fin grid0.N, cond0 (grid0.coords t) ↔ t.val = 0)

/-- The rows of the scratch the body reads for its block: 256 rows from row 256·(point). -/
abbrev blockRect0 (i : grid0.Coords) : Rect S4096x256 := Rect.unit (s := S4096x256) (k0_off1 i) S256x256.size (k0_off1_inb i)

/-- What the body stores in the result's staging buffer, over the scratch contents `S` and the three operands staged per
    point (the two attention vectors and the block's adjacency rows). -/
def body0 (i : grid0.Coords) (S : Vec F S4096x256 .f32) (x3 x4 : Vec F S256x1 .f32) (x5 : Vec F S256x4096 .f32) : Vec F S256x256 .f32 :=
  k0_pay1 (k0_pay3 S (View.ld S (blockRect0 i)) x3 x4 x5) (k0_pay4 S (View.ld S (blockRect0 i)) x3 x4 x5)

set_option maxHeartbeats 4000000 in
/-- AT THE FIRST POINT: from the five inputs at their contents and the result buffer and the scratch at anything, the body
    runs to its return with the inputs as they were, the scratch at the product H of the first two, and the result at
    `body0` over H. -/
theorem sound_first0 (c : Dev nD) (E : Set ℕ) (i : grid0.Coords) (hc : cond0 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole)
    (x1 : Vec F S4096x256 .f32) (x2 : Vec F S256x256 .f32) (x3 x4 : Vec F S256x1 .f32) (x5 : Vec F S256x4096 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (body0 i (k0_pay2 x1 x2) x3 x4 x5) ∗ owns (c : Thread nD τ) arg7 fullShare (k0_pay2 x1 x2)) -∗ K ⟨⟩))
      ⊢ wp frame (wpE (defs₀ (F := F)) Variants.none c none) E (cc0__gat_layer_kernel i arg1 harg1 arg2 harg2 arg3 harg3 arg4 harg4 arg5 harg5 arg6 harg6 arg7 harg7) K := by
  simp only [cc0__gat_layer_kernel_eq_skeleton]; unfold cc0__gat_layer_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (coverO0 _), View.canon_unit_zero hz2_0]
    sl_unfold_run_names
    simp only [View.readAt_eq_ld, hf1, hf2, hf3, hf4, hf5, View.ld_unit_zero (S := S4096x256) hz2_0, View.ld_unit_zero (S := S256x256) hz2_0, View.ld_unit_zero (S := S256x1) hz2_0, View.ld_unit_zero (S := S256x4096) hz2_0,
      View.readCov_unit_zero (S := S4096x256) _ hz2_0, View.read_writes_eq_canon arg7.view _ _ (coverH0 _), View.canon_unit_zero (S := S4096x256) hz2_0 inb_S4096x256_S4096x256_0_0]
    rfl
  iexists _; isplitr
  swap; · iexact H7
  ipureintro
  sl_unfold_run_names
  rw [View.read_writes_eq_canon _ _ _ (coverH0 _), View.canon_unit_zero hz2_0]
  simp only [View.readAt_eq_ld, hf1, hf2, View.ld_unit_zero (S := S4096x256) hz2_0, View.ld_unit_zero (S := S256x256) hz2_0]

set_option maxHeartbeats 4000000 in
/-- AT A LATER POINT: from the five inputs at their contents, the result buffer at anything and the scratch at contents
    `S`, the body runs to its return with the inputs and the scratch as they were and the result at `body0` over `S`. -/
theorem sound_later0 (c : Dev nD) (E : Set ℕ) (i : grid0.Coords) (hc : ¬cond0 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole)
    (x1 : Vec F S4096x256 .f32) (x2 : Vec F S256x256 .f32) (x3 x4 : Vec F S256x1 .f32) (x5 : Vec F S256x4096 .f32) (S : Vec F S4096x256 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ owns (c : Thread nD τ) arg7 fullShare S
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (body0 i S x3 x4 x5) ∗ owns (c : Thread nD τ) arg7 fullShare S) -∗ K ⟨⟩))
      ⊢ wp frame (wpE (defs₀ (F := F)) Variants.none c none) E (cc0__gat_layer_kernel i arg1 harg1 arg2 harg2 arg3 harg3 arg4 harg4 arg5 harg5 arg6 harg6 arg7 harg7) K := by
  simp only [cc0__gat_layer_kernel_eq_skeleton]; unfold cc0__gat_layer_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (coverO0 _), View.canon_unit_zero hz2_0]
    sl_unfold_run_names
    simp only [View.readAt_eq_ld, hf1, hf2, hf3, hf4, hf5, hf7, View.ld_unit_zero (S := S4096x256) hz2_0, View.ld_unit_zero (S := S256x256) hz2_0, View.ld_unit_zero (S := S256x1) hz2_0, View.ld_unit_zero (S := S256x4096) hz2_0]
    rfl
  iexists _; isplitr; · ipureintro; exact harg7.read_unread _
  iexact H7

end Cert.KernelIdeal.Hand

end
-- ==== Proof.KRegion0Ideal.lean ====
/-
  One layer's pallas_call as a pipeline run from any contents `V` of the core's buffers: the proof data (what each
  window's staging buffer holds after the body at each of the sixteen grid points), the invariant between points — the
  scratch holds anything before the first point and the projected features H = (input)·(weights) after it, the other
  calls' scoped buffers and the generator register ride along —, and the body obligation at every point from the body's
  two triples. The five inputs' buffers hold their blocks at every point, fetched there or not; the result's buffer is
  written whole at every point and written back.
-/
import proofs.«172533_g75539884802175_cont_sun_m_1234_3_alg».proof.Proof.Gen.KernelIdeal.Launch
import proofs.«172533_g75539884802175_cont_sun_m_1234_3_alg».proof.Proof.Gen.KernelIdeal.Skeleton
import proofs.«172533_g75539884802175_cont_sun_m_1234_3_alg».proof.Proof.Gen.KernelIdeal.Points
import proofs.«172533_g75539884802175_cont_sun_m_1234_3_alg».proof.Proof.KBody0Ideal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The kernel's scratch: a whole scoped buffer of its own. -/
abbrev scM0 : Memref sig .tc .vmem S4096x256 .f32 := Memref.whole cc0_scratch0

/-- The core's other scoped buffers that this call does not stage (the other call's staging buffers and scratch), each
    whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The core's scoped buffers that are no staging buffer of this call: the scratch first, then the others. -/
theorem scoped0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) := by
  unfold others0
  exact Pipeline.scopedRest_eq_of_list spec0 c [cc0_scratch0, cc1_stg0_0, cc1_stg1_0, cc1_stg2_0, cc1_stg3_0, cc1_stg4_0, cc1_stg4_1, cc1_stg5_0, cc1_stg5_1, cc1_scratch0] (by decide) (by decide)

/-- The class invariant with the scratch as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scoped0_eq]; simp only [scM0, owns_whole]; rfl

/-- The projected features H: the body's product of the input and the weights as the first point finds them staged. -/
def feat0 (c : Dev nD) : Vec F S4096x256 .f32 := k0_pay2 (iblk0 V c 0 t0_0) (iblk0 V c 1 t0_0)

/-- The invariant before position `n`: before the first point the scratch holds anything; afterwards it holds H. -/
def Phi0 (c : Dev nD) : ℕ → sProp 𝕄
  | 0 => Pipeline.ΦA spec0 c
  | _ + 1 => iprop(iprop(owns (c : Thread nD τ) scM0 fullShare (feat0 V c) ∗ others0 c) ∗ (∃ r, prngReg c r))

theorem Phi0_zero (c : Dev nD) (n : ℕ) (hz : n = 0) : Phi0 V c n = Pipeline.ΦA spec0 c := by subst hz; rfl
theorem Phi0_succ (c : Dev nD) (n : ℕ) :
    Phi0 V c (n + 1) = iprop(iprop(owns (c : Thread nD τ) scM0 fullShare (feat0 V c) ∗ others0 c) ∗ (∃ r, prngReg c r)) := rfl
theorem Phi0_pos (c : Dev nD) (n : ℕ) (hz : n ≠ 0) :
    Phi0 V c n = iprop(iprop(owns (c : Thread nD τ) scM0 fullShare (feat0 V c) ∗ others0 c) ∗ (∃ r, prngReg c r)) := by
  cases n with
  | zero => exact absurd rfl hz
  | succ n => rfl

/-- The proof data: the arrays as the region finds them; after the body at point `t` each input's buffer at its block and
    the result's at the body's value over H and the point's staged operands; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => body0 (grid0.coords t) (feat0 V c) (iblk0 V c 2 t) (iblk0 V c 3 t) (iblk0 V c 4 t)
  Φ t := Phi0 V c t.val
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) : (dat0 V c).Φ t.castSucc = Phi0 V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = body0 (grid0.coords t) (feat0 V c) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' buffers hold their blocks; at the first point the scratch is handed over at
    anything and taken back at H, at a later point handed over at H and taken back unchanged; the other scoped buffers,
    the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = Phi0 V c (t.val + 1) from rfl, Phi0_succ,
    after0_0, after0_1, after0_2, after0_3, after0_4, after0_5, Phi0_castSucc]
  by_cases hz : t.val = 0
  · obtain rfl : t = t0_0 := Fin.ext hz
    rw [Phi0_zero V c _ hz, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_first0 c Set.univ (grid0.coords t0_0) ((hcond0 t0_0).mpr hz) _ _ _ _ _ _ _ _ _ _ _ _ _ _
      (iblk0 V c 0 t0_0) (iblk0 V c 1 t0_0) (iblk0 V c 2 t0_0) (iblk0 V c 3 t0_0) (iblk0 V c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi0_pos V c _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_later0 c Set.univ (grid0.coords t) (fun h => hz ((hcond0 t).mp h)) _ _ _ _ _ _ _ _ _ _ _ _ _ _
      (iblk0 V c 0 t) (iblk0 V c 1 t) (iblk0 V c 2 t) (iblk0 V c 3 t) (iblk0 V c 4 t) (feat0 V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, Phi0_zero V c 0 rfl]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 16 := N_0; omega), PhiA0_eq]
  iintro ⟨⟨HS, Hoth⟩, Hg⟩
  isplitl [HS Hoth]
  · isplitl [HS]; · iexists _; iexact HS
    iexact Hoth
  iexact Hg

/-- The generator register, anything, and the scoped rest make the class invariant; -/
theorem toPhiA0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp

/-- and the class invariant gives them back. -/
theorem ofPhiA0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

end Region

end Cert.KernelIdeal.Hand

end
-- ==== Proof.KBody1Ideal.lean ====
/-
  The body of one layer's kernel at one grid point, as a triple over its seven memrefs.
  At the grid's first point the body multiplies the staged input by the staged weights and stores the product H whole
  into the scratch; at every point it then reads H back whole, reads the 256 rows of H that belong to the point's block,
  the two attention vectors and the block's adjacency rows, and stores one value — the attention aggregate of those rows,
  through elu — whole into the result's staging buffer. So after any point the scratch holds H (computed there, or found),
  and the result buffer holds `body1` of the point, H and the three staged operands; the five inputs are left as found.
-/
import proofs.«172533_g75539884802175_cont_sun_m_1234_3_alg».proof.Proof.Gen.KernelIdeal.Launch
import proofs.«172533_g75539884802175_cont_sun_m_1234_3_alg».proof.Proof.Gen.KernelIdeal.Skeleton
import proofs.«172533_g75539884802175_cont_sun_m_1234_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access of a rank-2 buffer. -/
theorem hz2_1 : (![0, 0] : Fin 2 → Nat) = fun _ => 0 := by funext a; fin_cases a <;> rfl

/-- One store through the whole 4096 × 256 rectangle covers the buffer. -/
theorem coverH1 (w : S4096x256.Idx → Elt F .f32) (y : S4096x256.Idx) :
    ∃ p ∈ ([⟨Rect.unit (s := S4096x256) ![0, 0] S4096x256.size inb_S4096x256_S4096x256_0_0, w⟩] : List (View.Piece (Elt F) S4096x256 .f32)), y ∈ p.1.set :=
  ⟨_, List.mem_singleton_self _, View.mem_set_unit_zero hz2_1 inb_S4096x256_S4096x256_0_0 y⟩

/-- One store through the whole 256 × 256 rectangle covers the buffer. -/
theorem coverO1 (w : S256x256.Idx → Elt F .f32) (y : S256x256.Idx) :
    ∃ p ∈ ([⟨Rect.unit (s := S256x256) ![0, 0] S256x256.size inb_S256x256_S256x256_0_0, w⟩] : List (View.Piece (Elt F) S256x256 .f32)), y ∈ p.1.set :=
  ⟨_, List.mem_singleton_self _, View.mem_set_unit_zero hz2_1 inb_S256x256_S256x256_0_0 y⟩

/-- The body's one branch: taken at the grid's first point only. -/
abbrev cond1 (i : grid1.Coords) : Prop :=
  (Scalar.cmpi .ne (Scalar.extui (Scalar.cmpi .eq (BitVec.ofNat 32 (i 0).val) 0#32)) 0#32) = 1#1

/-- It holds at the first point only — decided over the grid's sixteen points. -/
theorem hcond1 : ∀ t : Fin cfg1.N, cond1 (grid1.coords t) ↔ t.val = 0 :=
  (by decide +kernel : ∀ t : Fin grid1.N, cond1 (grid1.coords t) ↔ t.val = 0)

/-- The rows of the scratch the body reads for its block: 256 rows from row 256·(point). -/
abbrev blockRect1 (i : grid1.Coords) : Rect S4096x256 := Rect.unit (s := S4096x256) (k1_off1 i) S256x256.size (k1_off1_inb i)

/-- What the body stores in the result's staging buffer, over the scratch contents `S` and the three operands staged per
    point (the two attention vectors and the block's adjacency rows). -/
def body1 (i : grid1.Coords) (S : Vec F S4096x256 .f32) (x3 x4 : Vec F S256x1 .f32) (x5 : Vec F S256x4096 .f32) : Vec F S256x256 .f32 :=
  k1_pay1 (k1_pay3 S (View.ld S (blockRect1 i)) x3 x4 x5) (k1_pay4 S (View.ld S (blockRect1 i)) x3 x4 x5)

set_option maxHeartbeats 4000000 in
/-- AT THE FIRST POINT: from the five inputs at their contents and the result buffer and the scratch at anything, the body
    runs to its return with the inputs as they were, the scratch at the product H of the first two, and the result at
    `body1` over H. -/
theorem sound_first1 (c : Dev nD) (E : Set ℕ) (i : grid1.Coords) (hc : cond1 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole)
    (x1 : Vec F S4096x256 .f32) (x2 : Vec F S256x256 .f32) (x3 x4 : Vec F S256x1 .f32) (x5 : Vec F S256x4096 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (body1 i (k1_pay2 x1 x2) x3 x4 x5) ∗ owns (c : Thread nD τ) arg7 fullShare (k1_pay2 x1 x2)) -∗ K ⟨⟩))
      ⊢ wp frame (wpE (defs₀ (F := F)) Variants.none c none) E (cc1__gat_layer_kernel i arg1 harg1 arg2 harg2 arg3 harg3 arg4 harg4 arg5 harg5 arg6 harg6 arg7 harg7) K := by
  simp only [cc1__gat_layer_kernel_eq_skeleton]; unfold cc1__gat_layer_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (coverO1 _), View.canon_unit_zero hz2_1]
    sl_unfold_run_names
    simp only [View.readAt_eq_ld, hf1, hf2, hf3, hf4, hf5, View.ld_unit_zero (S := S4096x256) hz2_1, View.ld_unit_zero (S := S256x256) hz2_1, View.ld_unit_zero (S := S256x1) hz2_1, View.ld_unit_zero (S := S256x4096) hz2_1,
      View.readCov_unit_zero (S := S4096x256) _ hz2_1, View.read_writes_eq_canon arg7.view _ _ (coverH1 _), View.canon_unit_zero (S := S4096x256) hz2_1 inb_S4096x256_S4096x256_0_0]
    rfl
  iexists _; isplitr
  swap; · iexact H7
  ipureintro
  sl_unfold_run_names
  rw [View.read_writes_eq_canon _ _ _ (coverH1 _), View.canon_unit_zero hz2_1]
  simp only [View.readAt_eq_ld, hf1, hf2, View.ld_unit_zero (S := S4096x256) hz2_1, View.ld_unit_zero (S := S256x256) hz2_1]

set_option maxHeartbeats 4000000 in
/-- AT A LATER POINT: from the five inputs at their contents, the result buffer at anything and the scratch at contents
    `S`, the body runs to its return with the inputs and the scratch as they were and the result at `body1` over `S`. -/
theorem sound_later1 (c : Dev nD) (E : Set ℕ) (i : grid1.Coords) (hc : ¬cond1 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole)
    (x1 : Vec F S4096x256 .f32) (x2 : Vec F S256x256 .f32) (x3 x4 : Vec F S256x1 .f32) (x5 : Vec F S256x4096 .f32) (S : Vec F S4096x256 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ owns (c : Thread nD τ) arg7 fullShare S
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (body1 i S x3 x4 x5) ∗ owns (c : Thread nD τ) arg7 fullShare S) -∗ K ⟨⟩))
      ⊢ wp frame (wpE (defs₀ (F := F)) Variants.none c none) E (cc1__gat_layer_kernel i arg1 harg1 arg2 harg2 arg3 harg3 arg4 harg4 arg5 harg5 arg6 harg6 arg7 harg7) K := by
  simp only [cc1__gat_layer_kernel_eq_skeleton]; unfold cc1__gat_layer_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (coverO1 _), View.canon_unit_zero hz2_1]
    sl_unfold_run_names
    simp only [View.readAt_eq_ld, hf1, hf2, hf3, hf4, hf5, hf7, View.ld_unit_zero (S := S4096x256) hz2_1, View.ld_unit_zero (S := S256x256) hz2_1, View.ld_unit_zero (S := S256x1) hz2_1, View.ld_unit_zero (S := S256x4096) hz2_1]
    rfl
  iexists _; isplitr; · ipureintro; exact harg7.read_unread _
  iexact H7

end Cert.KernelIdeal.Hand

end
-- ==== Proof.KRegion1Ideal.lean ====
/-
  One layer's pallas_call as a pipeline run from any contents `V` of the core's buffers: the proof data (what each
  window's staging buffer holds after the body at each of the sixteen grid points), the invariant between points — the
  scratch holds anything before the first point and the projected features H = (input)·(weights) after it, the other
  calls' scoped buffers and the generator register ride along —, and the body obligation at every point from the body's
  two triples. The five inputs' buffers hold their blocks at every point, fetched there or not; the result's buffer is
  written whole at every point and written back.
-/
import proofs.«172533_g75539884802175_cont_sun_m_1234_3_alg».proof.Proof.Gen.KernelIdeal.Launch
import proofs.«172533_g75539884802175_cont_sun_m_1234_3_alg».proof.Proof.Gen.KernelIdeal.Skeleton
import proofs.«172533_g75539884802175_cont_sun_m_1234_3_alg».proof.Proof.Gen.KernelIdeal.Points
import proofs.«172533_g75539884802175_cont_sun_m_1234_3_alg».proof.Proof.KBody1Ideal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The kernel's scratch: a whole scoped buffer of its own. -/
abbrev scM1 : Memref sig .tc .vmem S4096x256 .f32 := Memref.whole cc1_scratch0

/-- The core's other scoped buffers that this call does not stage (the other call's staging buffers and scratch), each
    whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The core's scoped buffers that are no staging buffer of this call: the scratch first, then the others. -/
theorem scoped1_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 c) := by
  unfold others1
  exact Pipeline.scopedRest_eq_of_list spec1 c [cc1_scratch0, cc0_stg0_0, cc0_stg1_0, cc0_stg2_0, cc0_stg3_0, cc0_stg4_0, cc0_stg4_1, cc0_stg5_0, cc0_stg5_1, cc0_scratch0] (by decide) (by decide)

/-- The class invariant with the scratch as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA; rw [scoped1_eq]; simp only [scM1, owns_whole]; rfl

/-- The projected features H: the body's product of the input and the weights as the first point finds them staged. -/
def feat1 (c : Dev nD) : Vec F S4096x256 .f32 := k1_pay2 (iblk1 V c 0 t1_0) (iblk1 V c 1 t1_0)

/-- The invariant before position `n`: before the first point the scratch holds anything; afterwards it holds H. -/
def Phi1 (c : Dev nD) : ℕ → sProp 𝕄
  | 0 => Pipeline.ΦA spec1 c
  | _ + 1 => iprop(iprop(owns (c : Thread nD τ) scM1 fullShare (feat1 V c) ∗ others1 c) ∗ (∃ r, prngReg c r))

theorem Phi1_zero (c : Dev nD) (n : ℕ) (hz : n = 0) : Phi1 V c n = Pipeline.ΦA spec1 c := by subst hz; rfl
theorem Phi1_succ (c : Dev nD) (n : ℕ) :
    Phi1 V c (n + 1) = iprop(iprop(owns (c : Thread nD τ) scM1 fullShare (feat1 V c) ∗ others1 c) ∗ (∃ r, prngReg c r)) := rfl
theorem Phi1_pos (c : Dev nD) (n : ℕ) (hz : n ≠ 0) :
    Phi1 V c n = iprop(iprop(owns (c : Thread nD τ) scM1 fullShare (feat1 V c) ∗ others1 c) ∗ (∃ r, prngReg c r)) := by
  cases n with
  | zero => exact absurd rfl hz
  | succ n => rfl

/-- The proof data: the arrays as the region finds them; after the body at point `t` each input's buffer at its block and
    the result's at the body's value over H and the point's staged operands; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => body1 (grid1.coords t) (feat1 V c) (iblk1 V c 2 t) (iblk1 V c 3 t) (iblk1 V c 4 t)
  Φ t := Phi1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = body1 (grid1.coords t) (feat1 V c) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' buffers hold their blocks; at the first point the scratch is handed over at
    anything and taken back at H, at a later point handed over at H and taken back unchanged; the other scoped buffers,
    the generator register and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = Phi1 V c (t.val + 1) from rfl, Phi1_succ,
    after1_0, after1_1, after1_2, after1_3, after1_4, after1_5, Phi1_castSucc]
  by_cases hz : t.val = 0
  · obtain rfl : t = t1_0 := Fin.ext hz
    rw [Phi1_zero V c _ hz, PhiA1_eq]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_first1 c Set.univ (grid1.coords t1_0) ((hcond1 t1_0).mpr hz) _ _ _ _ _ _ _ _ _ _ _ _ _ _
      (iblk1 V c 0 t1_0) (iblk1 V c 1 t1_0) (iblk1 V c 2 t1_0) (iblk1 V c 3 t1_0) (iblk1 V c 4 t1_0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi1_pos V c _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_later1 c Set.univ (grid1.coords t) (fun h => hz ((hcond1 t).mp h)) _ _ _ _ _ _ _ _ _ _ _ _ _ _
      (iblk1 V c 0 t) (iblk1 V c 1 t) (iblk1 V c 2 t) (iblk1 V c 3 t) (iblk1 V c 4 t) (feat1 V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl, Phi1_zero V c 0 rfl]

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl,
    Phi1_pos V c _ (by rw [Fin.val_last]; have : cfg1.N = 16 := N_1; omega), PhiA1_eq]
  iintro ⟨⟨HS, Hoth⟩, Hg⟩
  isplitl [HS Hoth]
  · isplitl [HS]; · iexists _; iexact HS
    iexact Hoth
  iexact Hg

/-- The generator register, anything, and the scoped rest make the class invariant; -/
theorem toPhiA1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp

/-- and the class invariant gives them back. -/
theorem ofPhiA1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

end Region

end Cert.KernelIdeal.Hand

end
-- ==== Proof.KRunIdeal.lean ====
/-
  The whole program as a run: its @main is the two layers' pallas_calls one after the other, with no host operation
  between. The buffers' contents at the three boundaries are a fold from the launch memory — each region leaves its own
  arrays at what its write-backs make of them and every other buffer as it found it —; each region is entered from the
  contents the one before left, and the run ends with every unscoped buffer at the last boundary's contents.
-/
import proofs.«172533_g75539884802175_cont_sun_m_1234_3_alg».proof.Proof.Gen.KernelIdeal.Launch
import proofs.«172533_g75539884802175_cont_sun_m_1234_3_alg».proof.Proof.Gen.KernelIdeal.Skeleton
import proofs.«172533_g75539884802175_cont_sun_m_1234_3_alg».proof.Proof.Gen.KernelIdeal.Points
import proofs.«172533_g75539884802175_cont_sun_m_1234_3_alg».proof.Proof.KRegion0Ideal
import proofs.«172533_g75539884802175_cont_sun_m_1234_3_alg».proof.Proof.KRegion1Ideal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At the first region's exit (the second's entry): its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W2 m ρ c) ∗ ∃ r, prngReg c r)

/-! ## The regions as segments -/

-- a library lemma stated over the pinned configuration unifies with the printed one only when unification may unfold plain
-- definitions in a metavariable's type
set_option backward.isDefEq.respectTransparency.types false in
/-- Layer one's region over the thread state: entered from every unscoped buffer at `W0`, left at `W1`. Its
    arrays are split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA0 c _).trans (hin0 (V0 m ρ) c)
  hout c := by
    rw [Pipeline.ownSems0_none]
    exact (hout0 (V0 m ρ) c).trans (ofPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Layer two's region over the thread state: entered from every unscoped buffer at `W1`, left at `W2`. Its
    arrays are split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c _).trans (hin1 (V1 m ρ) c)
  hout c := by
    rw [Pipeline.ownSems0_none]
    exact (hout1 (V1 m ρ) c).trans (ofPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]

/-- @main is the run of the two regions. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer of every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-! ## The arguments end as launched: a region reads an argument through an input window or passes it by -/

theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg1 (c : Dev nD) : W1 m ρ c (Proc.devRef .tc main_arg1) = m ((c : Thread nD τ).loc main_arg1) :=
  (W1_arr m ρ c 4).trans (((dat0 (V0 m ρ) c).arrAt_in 4 rfl _).trans (A_eq0 (V0 m ρ) c 4))
theorem W1_main_arg2 (c : Dev nD) : W1 m ρ c (Proc.devRef .tc main_arg2) = m ((c : Thread nD τ).loc main_arg2) :=
  (W1_arr m ρ c 1).trans (((dat0 (V0 m ρ) c).arrAt_in 1 rfl _).trans (A_eq0 (V0 m ρ) c 1))
theorem W1_main_arg3 (c : Dev nD) : W1 m ρ c (Proc.devRef .tc main_arg3) = m ((c : Thread nD τ).loc main_arg3) :=
  (W1_arr m ρ c 2).trans (((dat0 (V0 m ρ) c).arrAt_in 2 rfl _).trans (A_eq0 (V0 m ρ) c 2))
theorem W1_main_arg4 (c : Dev nD) : W1 m ρ c (Proc.devRef .tc main_arg4) = m ((c : Thread nD τ).loc main_arg4) :=
  (W1_arr m ρ c 3).trans (((dat0 (V0 m ρ) c).arrAt_in 3 rfl _).trans (A_eq0 (V0 m ρ) c 3))
theorem W1_main_arg5 (c : Dev nD) : W1 m ρ c (Proc.devRef .tc main_arg5) = m ((c : Thread nD τ).loc main_arg5) :=
  W1_of_ne m ρ c main_arg5 (by decide)
theorem W1_main_arg6 (c : Dev nD) : W1 m ρ c (Proc.devRef .tc main_arg6) = m ((c : Thread nD τ).loc main_arg6) :=
  W1_of_ne m ρ c main_arg6 (by decide)
theorem W1_main_arg7 (c : Dev nD) : W1 m ρ c (Proc.devRef .tc main_arg7) = m ((c : Thread nD τ).loc main_arg7) :=
  W1_of_ne m ρ c main_arg7 (by decide)
theorem W2_main_arg0 (c : Dev nD) : W2 m ρ c (Proc.devRef .tc main_arg0) = m ((c : Thread nD τ).loc main_arg0) :=
  (W2_of_ne m ρ c main_arg0 (by decide)).trans (W1_main_arg0 m ρ c)
theorem W2_main_arg1 (c : Dev nD) : W2 m ρ c (Proc.devRef .tc main_arg1) = m ((c : Thread nD τ).loc main_arg1) :=
  (W2_arr m ρ c 4).trans (((dat1 (V1 m ρ) c).arrAt_in 4 rfl _).trans ((A_eq1 (V1 m ρ) c 4).trans (W1_main_arg1 m ρ c)))
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_arr m ρ c 1).trans (((dat1 (V1 m ρ) c).arrAt_in 1 rfl _).trans ((A_eq1 (V1 m ρ) c 1).trans (W1_main_arg5 m ρ c)))
theorem W2_main_arg6 (c : Dev nD) : W2 m ρ c (Proc.devRef .tc main_arg6) = m ((c : Thread nD τ).loc main_arg6) :=
  (W2_arr m ρ c 2).trans (((dat1 (V1 m ρ) c).arrAt_in 2 rfl _).trans ((A_eq1 (V1 m ρ) c 2).trans (W1_main_arg6 m ρ c)))
theorem W2_main_arg7 (c : Dev nD) : W2 m ρ c (Proc.devRef .tc main_arg7) = m ((c : Thread nD τ).loc main_arg7) :=
  (W2_arr m ρ c 3).trans (((dat1 (V1 m ρ) c).arrAt_in 3 rfl _).trans ((A_eq1 (V1 m ρ) c 3).trans (W1_main_arg7 m ρ c)))

/-- The first layer's result, as the second region finds it, is what the first region's write-backs leave. -/
theorem V1_main_call0_v0 (c : Dev nD) : V1 m ρ c main_call0_v0 = (dat0 (V0 m ρ) c).arrAt 5 cfg0.N := W1_arr m ρ c 5
/-- The program's result is what the second region's write-backs leave. -/
theorem W2_main_v0 (c : Dev nD) : W2 m ρ c (Proc.devRef .tc main_v0) = (dat1 (V1 m ρ) c).arrAt 5 cfg1.N := W2_arr m ρ c 5

/-- THE FRAME: every weakly fair execution terminates, nothing faulting, with the eight argument arrays as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c),
    (h c _ (mem_uc main_arg7 (by decide))).trans (W2_main_arg7 m ρ c)⟩) (run_all m ρ)

end Cert.KernelIdeal.Hand

end
-- ==== Proof.KLayerIdeal.lean ====
/-
  One layer of the kernel as a whole-array function of its five operand arrays, over the payloads the body
  computes: the projected features H (one matrix product, kept in scratch from the grid's first point on), and
  per block of 256 destination rows the attention aggregate of those rows against all of H and the rows'
  adjacency entries. Entry (n, k) of the result is entry (n mod 256, k) of block n / 256.
-/
import proofs.«172533_g75539884802175_cont_sun_m_1234_3_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

/-- Rows 256·t … 256·t + 255 of an array of 4096 rows. -/
def rowsOf {α : Type} {C : Nat} (A : (⟨2, ![4096, C]⟩ : Shape).Idx → α) (t : Fin 16) : (⟨2, ![256, C]⟩ : Shape).Idx → α :=
  fun y => A (ix2 (⟨256 * t.val + (y 0).val, by have := (y 0).isLt; have := t.isLt; simp only [Matrix.cons_val_zero] at *; omega⟩ : Fin 4096) (y 1))

/-- The first layer's projected features, as the first grid point leaves them in scratch. -/
def feats0 (x : Vec F S4096x256 .f32) (W : Vec F S256x256 .f32) : Vec F S4096x256 .f32 := k0_pay2 x W
/-- The second layer's. -/
def feats1 (x : Vec F S4096x256 .f32) (W : Vec F S256x256 .f32) : Vec F S4096x256 .f32 := k1_pay2 x W

/-- Block t of the first layer's result: the body's stored value over the scratch contents H, H's rows of the block,
    the two attention vectors and the block's adjacency rows. -/
def block0 (H : Vec F S4096x256 .f32) (s d : Vec F S256x1 .f32) (adj : Vec F S4096x4096 .f32) (t : Fin 16) : Vec F S256x256 .f32 :=
  k0_pay1 (k0_pay3 H (rowsOf H t) s d (rowsOf adj t)) (k0_pay4 H (rowsOf H t) s d (rowsOf adj t))
/-- Block t of the second layer's result. -/
def block1 (H : Vec F S4096x256 .f32) (s d : Vec F S256x1 .f32) (adj : Vec F S4096x4096 .f32) (t : Fin 16) : Vec F S256x256 .f32 :=
  k1_pay1 (k1_pay3 H (rowsOf H t) s d (rowsOf adj t)) (k1_pay4 H (rowsOf H t) s d (rowsOf adj t))

/-- The first layer's result array. -/
def klayer0 (x : Vec F S4096x256 .f32) (adj : Vec F S4096x4096 .f32) (W : Vec F S256x256 .f32) (s d : Vec F S256x1 .f32) : Vec F S4096x256 .f32 :=
  fun i => block0 (feats0 x W) s d adj (⟨(i 0).val / 256, by have := (i 0).isLt; simp only [Matrix.cons_val_zero] at *; omega⟩ : Fin 16)
    (ix2 (⟨(i 0).val % 256, Nat.mod_lt _ (by decide)⟩ : Fin 256) (i 1))
/-- The second layer's result array. -/
def klayer1 (x : Vec F S4096x256 .f32) (adj : Vec F S4096x4096 .f32) (W : Vec F S256x256 .f32) (s d : Vec F S256x1 .f32) : Vec F S4096x256 .f32 :=
  fun i => block1 (feats1 x W) s d adj (⟨(i 0).val / 256, by have := (i 0).isLt; simp only [Matrix.cons_val_zero] at *; omega⟩ : Fin 16)
    (ix2 (⟨(i 0).val % 256, Nat.mod_lt _ (by decide)⟩ : Fin 256) (i 1))

/-- The program's result: the second layer over the first layer's result. -/
def kout (x : Vec F S4096x256 .f32) (adj : Vec F S4096x4096 .f32) (W1 : Vec F S256x256 .f32) (s1 d1 : Vec F S256x1 .f32)
    (W2 : Vec F S256x256 .f32) (s2 d2 : Vec F S256x1 .f32) : Vec F S4096x256 .f32 :=
  klayer1 (klayer0 x adj W1 s1 d1) adj W2 s2 d2

end Cert.KernelIdeal.Hand

end
-- ==== Proof.KOutIdeal.lean ====
/-
  From blocks to the array, for each of the two layers. One layer's kernel call writes its result in sixteen blocks of 256
  rows; block t, written back after grid point t, is the body's value over the projected features H (whole, in scratch),
  the 256 rows of H and of the adjacency matrix that belong to the block, and the two attention vectors. The four whole
  operand windows have the constant block index (0, 0), so their blocks are the arrays; the adjacency window and the
  result window have block index (t, 0), so their blocks are rows 256·t … 256·t + 255. Row r of the result lies in block
  r / 256 at row r mod 256, the sixteen blocks cover the 4096 rows, and so the array ends holding the layer function of
  the five operand arrays.
-/
import proofs.«172533_g75539884802175_cont_sun_m_1234_3_alg».proof.Proof.KRegion0Ideal
import proofs.«172533_g75539884802175_cont_sun_m_1234_3_alg».proof.Proof.KRegion1Ideal
import proofs.«172533_g75539884802175_cont_sun_m_1234_3_alg».proof.Proof.KLayerIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

/-- Row 256·t + y₀ of an array assembled from sixteen blocks of 256 rows is row y₀ of block t. -/
theorem block_of_row {α : Type} (G : Fin 16 → (⟨2, ![256, 256]⟩ : Shape).Idx → α) (t : Fin 16)
    (y : (⟨2, ![256, 256]⟩ : Shape).Idx) (r : Fin 4096) (q : Fin 256)
    (hr : r.val = 256 * t.val + (y 0).val) (hq : q = y 1) :
    G (⟨r.val / 256, by have := r.isLt; omega⟩ : Fin 16) (ix2 (⟨r.val % 256, Nat.mod_lt _ (by decide)⟩ : Fin 256) q) = G t y := by
  have h0 : (y 0).val < 256 := idx2_lt0 y
  have e1 : (⟨r.val / 256, by have := r.isLt; omega⟩ : Fin 16) = t := Fin.ext (by show r.val / 256 = t.val; omega)
  have e2 : (⟨r.val % 256, Nat.mod_lt _ (by decide)⟩ : Fin 256) = y 0 := Fin.ext (by show r.val % 256 = (y 0).val; omega)
  rw [e1, e2, hq]
  exact congrArg (G t) (eq_ix2 y).symm

/-! ## The first layer -/

section Layer0

-- the core's buffer contents when the region is entered
variable (V : (c : Dev nD) → (b : Ref sig .tc) → Buf (Elt F) ((c : Thread nD τ).loc b))

/-- The printed index maps, decided over the grid's sixteen points: the four whole operands sit at block (0, 0), the
    adjacency rows and the result at block (t, 0), and the grid's one coordinate at point t is t. -/
theorem blockIdx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ (grid0.coords t 0).val = t.val :=
  (by decide +kernel : ∀ t : Fin grid0.N, _)

/-- A grid point as a block number. -/
abbrev blkNo0 (t : Fin cfg0.N) : Fin 16 := ⟨t.val, by have := t.isLt; have : cfg0.N = 16 := N_0; omega⟩

/-- The input window's one block is the input array. -/
theorem iblk0_0 (c : Dev nD) (t : Fin cfg0.N) : iblk0 V c 0 t = V c main_arg0 := by
  obtain ⟨e0, e1, -⟩ := blockIdx0 t
  funext y
  show V c main_arg0 (((cfg0.win 0).blk t).view.emb y) = V c main_arg0 y
  congr 1
  funext a; apply Fin.ext
  match a with
  | ⟨0, _⟩ => show win0_0.index t (0 : Fin 2) * 4096 + 1 * (y 0).val = (y 0).val; omega
  | ⟨1, _⟩ => show win0_0.index t (1 : Fin 2) * 256 + 1 * (y 1).val = (y 1).val; omega

/-- The weights window's one block is the weights array. -/
theorem iblk0_1 (c : Dev nD) (t : Fin cfg0.N) : iblk0 V c 1 t = V c main_arg2 := by
  obtain ⟨-, -, e0, e1, -⟩ := blockIdx0 t
  funext y
  show V c main_arg2 (((cfg0.win 1).blk t).view.emb y) = V c main_arg2 y
  congr 1
  funext a; apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The source attention vector's one block is the vector. -/
theorem iblk0_2 (c : Dev nD) (t : Fin cfg0.N) : iblk0 V c 2 t = V c main_arg3 := by
  obtain ⟨-, -, -, -, e0, e1, -⟩ := blockIdx0 t
  funext y
  show V c main_arg3 (((cfg0.win 2).blk t).view.emb y) = V c main_arg3 y
  congr 1
  funext a; apply Fin.ext
  match a with
  | ⟨0, _⟩ => show win0_2.index t (0 : Fin 2) * 256 + 1 * (y 0).val = (y 0).val; omega
  | ⟨1, _⟩ => show win0_2.index t (1 : Fin 2) * 1 + 1 * (y 1).val = (y 1).val; omega

/-- The destination attention vector's one block is the vector. -/
theorem iblk0_3 (c : Dev nD) (t : Fin cfg0.N) : iblk0 V c 3 t = V c main_arg4 := by
  obtain ⟨-, -, -, -, -, -, e0, e1, -⟩ := blockIdx0 t
  funext y
  show V c main_arg4 (((cfg0.win 3).blk t).view.emb y) = V c main_arg4 y
  congr 1
  funext a; apply Fin.ext
  match a with
  | ⟨0, _⟩ => show win0_3.index t (0 : Fin 2) * 256 + 1 * (y 0).val = (y 0).val; omega
  | ⟨1, _⟩ => show win0_3.index t (1 : Fin 2) * 1 + 1 * (y 1).val = (y 1).val; omega

/-- The adjacency window's block at point t is rows 256·t … 256·t + 255 of the adjacency matrix. -/
theorem iblk0_4 (c : Dev nD) (t : Fin cfg0.N) : iblk0 V c 4 t = rowsOf (V c main_arg1) (blkNo0 t) := by
  obtain ⟨-, -, -, -, -, -, -, -, e0, e1, -⟩ := blockIdx0 t
  funext y
  show V c main_arg1 (((cfg0.win 4).blk t).view.emb y) = V c main_arg1 _
  congr 1
  funext a; apply Fin.ext
  match a with
  | ⟨0, _⟩ => show win0_4.index t (0 : Fin 2) * 256 + 1 * (y 0).val = 256 * t.val + (y 0).val; omega
  | ⟨1, _⟩ => show win0_4.index t (1 : Fin 2) * 4096 + 1 * (y 1).val = (y 1).val; omega

/-- The rows of the scratch the body reads at point t are rows 256·t … 256·t + 255 of its contents. -/
theorem scratchRows0 (S : Vec F S4096x256 .f32) (t : Fin cfg0.N) :
    View.ld S (blockRect0 (grid0.coords t)) = rowsOf S (blkNo0 t) := by
  obtain ⟨-, -, -, -, -, -, -, -, -, -, -, -, e⟩ := blockIdx0 t
  funext y
  show S ((blockRect0 (grid0.coords t)).idx y) = S _
  congr 1
  funext a; apply Fin.ext
  match a with
  | ⟨0, _⟩ => show k0_off1 (grid0.coords t) (0 : Fin 2) + 1 * (y 0).val = 256 * t.val + (y 0).val
              rw [k0_off1_eq]; show 256 * (grid0.coords t 0).val + 1 * (y 0).val = _; omega
  | ⟨1, _⟩ => show k0_off1 (grid0.coords t) (1 : Fin 2) + 1 * (y 1).val = (y 1).val
              rw [k0_off1_eq]; show 0 + 1 * (y 1).val = _; omega

/-- The projected features the first point leaves in scratch are those of the input and weights arrays. -/
theorem feat0_eq (c : Dev nD) : feat0 V c = feats0 (V c main_arg0) (V c main_arg2) := by
  unfold feat0 feats0; rw [iblk0_0, iblk0_1]

/-- What the result's staging buffer holds after point t is block t of the layer. -/
theorem afterBlock0 (c : Dev nD) (t : Fin cfg0.N) :
    (dat0 V c).after 5 t = block0 (feats0 (V c main_arg0) (V c main_arg2)) (V c main_arg3) (V c main_arg4) (V c main_arg1) (blkNo0 t) := by
  rw [after0_5, feat0_eq, iblk0_2, iblk0_3, iblk0_4]
  unfold body0 block0
  rw [scratchRows0]

/-- What point t writes back is block t of the layer's result array, read through the result window's block. -/
theorem flushedBlock0 (c : Dev nD) (t : Fin cfg0.N) :
    (dat0 V c).flushed 5 t = ((cfg0.win 5).blk t).view.read (Elt F)
      (klayer0 (V c main_arg0) (V c main_arg1) (V c main_arg2) (V c main_arg3) (V c main_arg4)) := by
  show (cfg0.win 5).cut (grid0.coords t) ((dat0 V c).after 5 t) = _
  rw [afterBlock0]
  obtain ⟨-, -, -, -, -, -, -, -, -, -, e0, e1, -⟩ := blockIdx0 t
  funext y
  have h0 : (y 0).val < 256 := (y 0).isLt
  have hr : ((((cfg0.win 5).blk t).view.emb y) 0).val = 256 * (blkNo0 t).val + (y 0).val := by
    show win0_5.index t (0 : Fin 2) * 256 + 1 * (y 0).val = 256 * t.val + (y 0).val; omega
  have hq : ((((cfg0.win 5).blk t).view.emb y) 1).val = (y 1).val := by
    show win0_5.index t (1 : Fin 2) * 256 + 1 * (y 1).val = (y 1).val; omega
  exact (block_of_row (block0 (feats0 (V c main_arg0) (V c main_arg2)) (V c main_arg3) (V c main_arg4) (V c main_arg1))
    (blkNo0 t) y _ _ hr (Fin.ext hq)).symm

/-- A row of the result array is in point t's block iff it is one of rows 256·t … 256·t + 255. -/
theorem mem_block0 (t : Fin cfg0.N) (i : S4096x256.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_call0_v0).slice (win0_5.rect t)).set ↔ _
  rw [View.set_slice_whole, Rect.mem_set_unit]
  exact Iff.rfl

/-- Every index of the result array is in the block of the point its row divided by 256 names. -/
theorem covered0 (i : S4096x256.Idx) :
    ∃ t : Fin cfg0.N, (cfg0.win 5).flush t = true ∧ i ∈ ((cfg0.win 5).blk t).view.set := by
  have hN : cfg0.N = 16 := N_0
  have hi0 : (i 0).val < 4096 := (i 0).isLt
  have hi1 : (i 1).val < 256 := (i 1).isLt
  obtain ⟨t, ht⟩ : ∃ t : Fin cfg0.N, t.val = (i 0).val / 256 := ⟨⟨(i 0).val / 256, by omega⟩, rfl⟩
  obtain ⟨-, -, -, -, -, -, -, -, -, -, e0, e1, -⟩ := blockIdx0 t
  refine ⟨t, flush0_5 t, ?_⟩
  rw [mem_block0]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 256 ≤ (i 1).val ∧ (i 1).val < win0_5.index t (1 : Fin 2) * 256 + 256; omega

/-- THE FIRST LAYER'S RESULT ARRAY after its sixteen write-backs is the layer function of the five operand arrays. -/
theorem final0 (c : Dev nD) :
    (dat0 V c).arrAt 5 cfg0.N = klayer0 (V c main_arg0) (V c main_arg1) (V c main_arg2) (V c main_arg3) (V c main_arg4) :=
  (dat0 V c).arrAt_eq_of_cover 5 (klayer0 (V c main_arg0) (V c main_arg1) (V c main_arg2) (V c main_arg3) (V c main_arg4))
    (fun t _ => flushedBlock0 V c t) covered0

end Layer0

/-! ## The second layer: the same steps over its own windows, its input the first layer's result array -/

section Layer1

-- the core's buffer contents when the region is entered
variable (V : (c : Dev nD) → (b : Ref sig .tc) → Buf (Elt F) ((c : Thread nD τ).loc b))

/-- The printed index maps, decided over the grid's sixteen points: the four whole operands sit at block (0, 0), the
    adjacency rows and the result at block (t, 0), and the grid's one coordinate at point t is t. -/
theorem blockIdx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ (grid1.coords t 0).val = t.val :=
  (by decide +kernel : ∀ t : Fin grid1.N, _)

/-- A grid point as a block number. -/
abbrev blkNo1 (t : Fin cfg1.N) : Fin 16 := ⟨t.val, by have := t.isLt; have : cfg1.N = 16 := N_1; omega⟩

/-- The input window's one block is the input array (the first layer's result). -/
theorem iblk1_0 (c : Dev nD) (t : Fin cfg1.N) : iblk1 V c 0 t = V c main_call0_v0 := by
  obtain ⟨e0, e1, -⟩ := blockIdx1 t
  funext y
  show V c main_call0_v0 (((cfg1.win 0).blk t).view.emb y) = V c main_call0_v0 y
  congr 1
  funext a; apply Fin.ext
  match a with
  | ⟨0, _⟩ => show win1_0.index t (0 : Fin 2) * 4096 + 1 * (y 0).val = (y 0).val; omega
  | ⟨1, _⟩ => show win1_0.index t (1 : Fin 2) * 256 + 1 * (y 1).val = (y 1).val; omega

/-- The weights window's one block is the weights array. -/
theorem iblk1_1 (c : Dev nD) (t : Fin cfg1.N) : iblk1 V c 1 t = V c main_arg5 := by
  obtain ⟨-, -, e0, e1, -⟩ := blockIdx1 t
  funext y
  show V c main_arg5 (((cfg1.win 1).blk t).view.emb y) = V c main_arg5 y
  congr 1
  funext a; apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- The source attention vector's one block is the vector. -/
theorem iblk1_2 (c : Dev nD) (t : Fin cfg1.N) : iblk1 V c 2 t = V c main_arg6 := by
  obtain ⟨-, -, -, -, e0, e1, -⟩ := blockIdx1 t
  funext y
  show V c main_arg6 (((cfg1.win 2).blk t).view.emb y) = V c main_arg6 y
  congr 1
  funext a; apply Fin.ext
  match a with
  | ⟨0, _⟩ => show win1_2.index t (0 : Fin 2) * 256 + 1 * (y 0).val = (y 0).val; omega
  | ⟨1, _⟩ => show win1_2.index t (1 : Fin 2) * 1 + 1 * (y 1).val = (y 1).val; omega

/-- The destination attention vector's one block is the vector. -/
theorem iblk1_3 (c : Dev nD) (t : Fin cfg1.N) : iblk1 V c 3 t = V c main_arg7 := by
  obtain ⟨-, -, -, -, -, -, e0, e1, -⟩ := blockIdx1 t
  funext y
  show V c main_arg7 (((cfg1.win 3).blk t).view.emb y) = V c main_arg7 y
  congr 1
  funext a; apply Fin.ext
  match a with
  | ⟨0, _⟩ => show win1_3.index t (0 : Fin 2) * 256 + 1 * (y 0).val = (y 0).val; omega
  | ⟨1, _⟩ => show win1_3.index t (1 : Fin 2) * 1 + 1 * (y 1).val = (y 1).val; omega

/-- The adjacency window's block at point t is rows 256·t … 256·t + 255 of the adjacency matrix. -/
theorem iblk1_4 (c : Dev nD) (t : Fin cfg1.N) : iblk1 V c 4 t = rowsOf (V c main_arg1) (blkNo1 t) := by
  obtain ⟨-, -, -, -, -, -, -, -, e0, e1, -⟩ := blockIdx1 t
  funext y
  show V c main_arg1 (((cfg1.win 4).blk t).view.emb y) = V c main_arg1 _
  congr 1
  funext a; apply Fin.ext
  match a with
  | ⟨0, _⟩ => show win1_4.index t (0 : Fin 2) * 256 + 1 * (y 0).val = 256 * t.val + (y 0).val; omega
  | ⟨1, _⟩ => show win1_4.index t (1 : Fin 2) * 4096 + 1 * (y 1).val = (y 1).val; omega

/-- The rows of the scratch the body reads at point t are rows 256·t … 256·t + 255 of its contents. -/
theorem scratchRows1 (S : Vec F S4096x256 .f32) (t : Fin cfg1.N) :
    View.ld S (blockRect1 (grid1.coords t)) = rowsOf S (blkNo1 t) := by
  obtain ⟨-, -, -, -, -, -, -, -, -, -, -, -, e⟩ := blockIdx1 t
  funext y
  show S ((blockRect1 (grid1.coords t)).idx y) = S _
  congr 1
  funext a; apply Fin.ext
  match a with
  | ⟨0, _⟩ => show k1_off1 (grid1.coords t) (0 : Fin 2) + 1 * (y 0).val = 256 * t.val + (y 0).val
              rw [k1_off1_eq]; show 256 * (grid1.coords t 0).val + 1 * (y 0).val = _; omega
  | ⟨1, _⟩ => show k1_off1 (grid1.coords t) (1 : Fin 2) + 1 * (y 1).val = (y 1).val
              rw [k1_off1_eq]; show 0 + 1 * (y 1).val = _; omega

/-- The projected features the first point leaves in scratch are those of the input and weights arrays. -/
theorem feat1_eq (c : Dev nD) : feat1 V c = feats1 (V c main_call0_v0) (V c main_arg5) := by
  unfold feat1 feats1; rw [iblk1_0, iblk1_1]

/-- What the result's staging buffer holds after point t is block t of the layer. -/
theorem afterBlock1 (c : Dev nD) (t : Fin cfg1.N) :
    (dat1 V c).after 5 t = block1 (feats1 (V c main_call0_v0) (V c main_arg5)) (V c main_arg6) (V c main_arg7) (V c main_arg1) (blkNo1 t) := by
  rw [after1_5, feat1_eq, iblk1_2, iblk1_3, iblk1_4]
  unfold body1 block1
  rw [scratchRows1]

/-- What point t writes back is block t of the layer's result array, read through the result window's block. -/
theorem flushedBlock1 (c : Dev nD) (t : Fin cfg1.N) :
    (dat1 V c).flushed 5 t = ((cfg1.win 5).blk t).view.read (Elt F)
      (klayer1 (V c main_call0_v0) (V c main_arg1) (V c main_arg5) (V c main_arg6) (V c main_arg7)) := by
  show (cfg1.win 5).cut (grid1.coords t) ((dat1 V c).after 5 t) = _
  rw [afterBlock1]
  obtain ⟨-, -, -, -, -, -, -, -, -, -, e0, e1, -⟩ := blockIdx1 t
  funext y
  have h0 : (y 0).val < 256 := (y 0).isLt
  have hr : ((((cfg1.win 5).blk t).view.emb y) 0).val = 256 * (blkNo1 t).val + (y 0).val := by
    show win1_5.index t (0 : Fin 2) * 256 + 1 * (y 0).val = 256 * t.val + (y 0).val; omega
  have hq : ((((cfg1.win 5).blk t).view.emb y) 1).val = (y 1).val := by
    show win1_5.index t (1 : Fin 2) * 256 + 1 * (y 1).val = (y 1).val; omega
  exact (block_of_row (block1 (feats1 (V c main_call0_v0) (V c main_arg5)) (V c main_arg6) (V c main_arg7) (V c main_arg1))
    (blkNo1 t) y _ _ hr (Fin.ext hq)).symm

/-- A row of the result array is in point t's block iff it is one of rows 256·t … 256·t + 255. -/
theorem mem_block1 (t : Fin cfg1.N) (i : S4096x256.Idx) :
    i ∈ ((cfg1.win 5).blk t).view.set ↔ ∀ a : Fin 2, win1_5.index t a * S256x256.size a ≤ (i a).val
      ∧ (i a).val < win1_5.index t a * S256x256.size a + S256x256.size a := by
  show i ∈ ((View.whole main_v0).slice (win1_5.rect t)).set ↔ _
  rw [View.set_slice_whole, Rect.mem_set_unit]
  exact Iff.rfl

/-- Every index of the result array is in the block of the point its row divided by 256 names. -/
theorem covered1 (i : S4096x256.Idx) :
    ∃ t : Fin cfg1.N, (cfg1.win 5).flush t = true ∧ i ∈ ((cfg1.win 5).blk t).view.set := by
  have hN : cfg1.N = 16 := N_1
  have hi0 : (i 0).val < 4096 := (i 0).isLt
  have hi1 : (i 1).val < 256 := (i 1).isLt
  obtain ⟨t, ht⟩ : ∃ t : Fin cfg1.N, t.val = (i 0).val / 256 := ⟨⟨(i 0).val / 256, by omega⟩, rfl⟩
  obtain ⟨-, -, -, -, -, -, -, -, -, -, e0, e1, -⟩ := blockIdx1 t
  refine ⟨t, flush1_5 t, ?_⟩
  rw [mem_block1]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 256 ≤ (i 1).val ∧ (i 1).val < win1_5.index t (1 : Fin 2) * 256 + 256; omega

/-- THE SECOND LAYER'S RESULT ARRAY after its sixteen write-backs is the layer function of the five operand arrays. -/
theorem final1 (c : Dev nD) :
    (dat1 V c).arrAt 5 cfg1.N = klayer1 (V c main_call0_v0) (V c main_arg1) (V c main_arg5) (V c main_arg6) (V c main_arg7) :=
  (dat1 V c).arrAt_eq_of_cover 5 (klayer1 (V c main_call0_v0) (V c main_arg1) (V c main_arg5) (V c main_arg6) (V c main_arg7))
    (fun t _ => flushedBlock1 V c t) covered1

end Layer1

end Cert.KernelIdeal.Hand

end
-- ==== Proof.KValRunIdeal.lean ====
/-
  The idealized program's result as a function of its eight argument arrays: the second layer's array function over the
  first layer's, each read off its region's sixteen write-backs, the arguments each region reads being the launch
  memory's (no region writes an argument).
-/
import proofs.«172533_g75539884802175_cont_sun_m_1234_3_alg».proof.Proof.Gen.KernelIdeal.Launch
import proofs.«172533_g75539884802175_cont_sun_m_1234_3_alg».proof.Proof.Gen.KernelIdeal.Skeleton
import proofs.«172533_g75539884802175_cont_sun_m_1234_3_alg».proof.Proof.Gen.KernelIdeal.Points
import proofs.«172533_g75539884802175_cont_sun_m_1234_3_alg».proof.Proof.KRunIdeal
import proofs.«172533_g75539884802175_cont_sun_m_1234_3_alg».proof.Proof.KOutIdeal
import proofs.«172533_g75539884802175_cont_sun_m_1234_3_alg».proof.Proof.KLayerIdeal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The arguments the second region reads are the launch memory's. -/
theorem V1_main_arg1 (c : Dev nD) : V1 m ρ c main_arg1 = m ((c : Thread nD τ).loc main_arg1) := W1_main_arg1 m ρ c
theorem V1_main_arg5 (c : Dev nD) : V1 m ρ c main_arg5 = m ((c : Thread nD τ).loc main_arg5) := W1_main_arg5 m ρ c
theorem V1_main_arg6 (c : Dev nD) : V1 m ρ c main_arg6 = m ((c : Thread nD τ).loc main_arg6) := W1_main_arg6 m ρ c
theorem V1_main_arg7 (c : Dev nD) : V1 m ρ c main_arg7 = m ((c : Thread nD τ).loc main_arg7) := W1_main_arg7 m ρ c

/-- The result buffer's last contents: the two layers' array functions composed over the launch memory's arguments. -/
theorem result_eq (c : Dev nD) :
    W2 m ρ c (Proc.devRef .tc main_v0)
      = kout (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [W2_main_v0, final1 (V1 m ρ) c, V1_main_call0_v0, final0 (V0 m ρ) c, V1_main_arg1, V1_main_arg5, V1_main_arg6, V1_main_arg7]
  rfl

/-- THE RUN, READ: every weakly fair execution terminates, nothing faulting, with the result at the two layers' array
    function of the argument arrays and the arguments as launched. -/
theorem value_run : θ_run defs (onTc (τ := τ) (main (F := F))) ⟨m, fun _ => 0, ρ⟩ (fun r => ∀ c : Dev nD,
      r.2.mem ((c.tc : Thread nD τ).loc main_v0)
        = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v0 (by decide))).trans (result_eq m ρ c),
    (h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c),
    (h c _ (mem_uc main_arg7 (by decide))).trans (W2_main_arg7 m ρ c)⟩) (run_all m ρ)

end Cert.KernelIdeal.Hand

end
-- ==== Proof.Spec.lean ====
/-
  The dense single-head graph-attention layer over 4096 nodes and 256 features, entry by entry on the
  extended reals, in the two arrangements the two programs compute it in.

  With h = x·W (4096 × 256), a row n of logits is e[n,j] = mask(adj[n,j], leaky(⟨h[n,·], s⟩ + ⟨h[j,·], d⟩)),
  leaky v = v for v ≥ 0 and 0.2·v otherwise, mask keeping e where adj > 0 and putting -1e9 elsewhere; the weights
  are w[n,j] = exp(e[n,j] - max_j e[n,j]); the aggregate is the weighted mean of the rows of h, then elu.
  The kernel arrangement divides the weighted sum by the weights' total once per entry (`layerK`); the reference
  arrangement normalises each weight first (`layerR`). The inner product with d is taken with the factors in
  either order, the row maximum starts from -∞ (once or twice), the total starts from 0 or from nothing: the
  two spellings are kept apart so that each program's value can be read off against its own.
-/
import Idealize.ShloMosaic.PureOps.Ideal
import Idealize.ShloMosaic.Lib.ValueIdx

noncomputable section

namespace Cert.Gat

open Idealize.ShloMosaic Idealize.ShloMosaic.ValueIdx

abbrev SNxD : Shape := ⟨2, ![4096, 256]⟩
abbrev SNxN : Shape := ⟨2, ![4096, 4096]⟩
abbrev SDxD : Shape := ⟨2, ![256, 256]⟩
abbrev SDx1 : Shape := ⟨2, ![256, 1]⟩

/-- The five float literals of both programs, as the extended reals their words denote. -/
def zero : EReal := Ideal.ofBits .f32 0x00000000#32
def one : EReal := Ideal.ofBits .f32 0x3F800000#32
def slope : EReal := Ideal.ofBits .f32 0x3E4CCCCD#32
def negBig : EReal := Ideal.ofBits .f32 0xCE6E6B28#32
def negInf : EReal := Ideal.ofBits .f32 0xFF800000#32

/-- leaky_relu with slope 0.2. -/
def leaky (v : EReal) : EReal := Scalar.select (Ideal.cmp .oge v zero) v (slope * v)
/-- A logit is kept where the adjacency entry is positive and replaced by -1e9 elsewhere. -/
def masked (a v : EReal) : EReal := Scalar.select (Ideal.cmp .ogt a zero) v negBig
/-- The maximum of a row of 4096 logits, folded from -∞. -/
def rowMax (e : Fin 4096 → EReal) : EReal := (Finset.univ : Finset (Fin 4096)).fold max negInf e
/-- elu as the kernel spells it: v where v > 0, exp v - 1 elsewhere. -/
def eluK (v : EReal) : EReal := Scalar.select (Ideal.cmp .ogt v zero) v (Ideal.exp v - one)
/-- elu as jax.nn.elu spells it: v where v > 0, 1·expm1(0 where v > 0 else v) elsewhere. -/
def eluR (v : EReal) : EReal :=
  Scalar.select (Ideal.cmp .ogt v zero) v (one * (Ideal.exp (Scalar.select (Ideal.cmp .ogt v zero) zero v) - 1))

section Layer

variable (x : SNxD.Idx → EReal) (adj : SNxN.Idx → EReal) (W : SDxD.Idx → EReal) (s d : SDx1.Idx → EReal)

/-- The projected features h = x·W. -/
def feat (n : Fin 4096) (k : Fin 256) : EReal := ∑ a : Fin 256, x (ix2 n a) * W (ix2 a k)
/-- The source component ⟨h[n,·], s⟩ of row n's logits. -/
def srcT (n : Fin 4096) : EReal := ∑ a : Fin 256, feat x W n a * s (ix2 a (0 : Fin 1))
/-- The destination component ⟨h[j,·], d⟩, the kernel's order of the factors. -/
def dstK (j : Fin 4096) : EReal := ∑ a : Fin 256, d (ix2 a (0 : Fin 1)) * feat x W j a
/-- The same, the reference's order of the factors. -/
def dstR (j : Fin 4096) : EReal := ∑ a : Fin 256, feat x W j a * d (ix2 a (0 : Fin 1))
/-- Row n of masked logits, with either destination component. -/
def rowK (n : Fin 4096) : Fin 4096 → EReal := fun j => masked (adj (ix2 n j)) (leaky (srcT x W s n + dstK x W d j))
def rowR (n : Fin 4096) : Fin 4096 → EReal := fun j => masked (adj (ix2 n j)) (leaky (srcT x W s n + dstR x W d j))
/-- The unnormalised attention weights. -/
def wK (n j : Fin 4096) : EReal := Ideal.exp (rowK x adj W s d n j - rowMax (rowK x adj W s d n))
def wR (n j : Fin 4096) : EReal := Ideal.exp (rowR x adj W s d n j - max negInf (rowMax (rowR x adj W s d n)))
/-- The aggregate, the kernel's arrangement: the weighted sum of h's rows divided by the total weight. -/
def aggK (n : Fin 4096) (k : Fin 256) : EReal :=
  Ideal.div (∑ j : Fin 4096, wK x adj W s d n j * feat x W j k) (∑ j : Fin 4096, wK x adj W s d n j)
/-- The aggregate, the reference's arrangement: each weight divided by the total (started from 0) first. -/
def aggR (n : Fin 4096) (k : Fin 256) : EReal :=
  ∑ j : Fin 4096, Ideal.div (wR x adj W s d n j) (zero + ∑ j' : Fin 4096, wR x adj W s d n j') * feat x W j k
/-- One layer, the kernel's arrangement. -/
def layerK : SNxD.Idx → EReal := fun i => eluK (aggK x adj W s d (i 0) (i 1))
/-- One layer, the reference's arrangement. -/
def layerR : SNxD.Idx → EReal := fun i => eluR (aggR x adj W s d (i 0) (i 1))

end Layer

end Cert.Gat

end
-- ==== Proof.KValueIdeal.lean ====
/-
  The kernel's two layers, read entry by entry at the ideal values: each is the graph-attention layer
  of the specification in the kernel's arrangement (`Cert.Gat.layerK`). The body's arithmetic is read
  one operation at a time: the four matrix products as sums over their one contracted coordinate, the
  lane maximum and the lane sum of a block of 256 rows of 4096 logits as a fold of max and a sum over
  the row, the column and row broadcasts at an index; then block t's row p is row 256·t + p of the array.
-/
import proofs.«172533_g75539884802175_cont_sun_m_1234_3_alg».proof.Proof.KLayerIdeal
import proofs.«172533_g75539884802175_cont_sun_m_1234_3_alg».proof.Proof.Spec
import Idealize.ShloMosaic.PureOps.Ideal.Laws
import Idealize.ShloMosaic.Lib.ValueIdx
import Idealize.ShloMosaic.Lib.ValueLayout

noncomputable section

namespace Cert.KernelIdeal.HandValue

open Cert.KernelIdeal Cert.KernelIdeal.Gen
open Idealize.ShloMosaic Idealize.ShloMosaic.ValueIdx

/-! ## Layout operations at an index: the column forms -/

section Layout
variable {α : Type}

/-- A vector of `a` entries cast to a column `[a, 1]` reads, at `(p, u)`, the vector at `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The four matrix products at an index -/

theorem lhs_feat_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem lhs_feat_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_feat_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_feat_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The projection x·W at (n, k): the sum over the 256 input features. -/
theorem matmul_feat_apply (A : FVec Ideal S4096x256 .f32) (B : FVec Ideal S256x256 .f32) (n : Fin 4096) (k : Fin 256) :
    matmul dot_S4096x256_S256x256_S4096x256_1_0_0_1_n_n none A B (constant (F := Ideal) S4096x256 .f32 0x00000000#32) (ix2 n k)
      = ∑ a : Fin 256, A (ix2 n a) * B (ix2 a k) := by
  refine (Ideal.matmul_constant_zero_apply dot_S4096x256_S256x256_S4096x256_1_0_0_1_n_n none A B (ix2 n k)).trans ?_
  rw [← Equiv.sum_comp (contrEquiv1 dot_S4096x256_S256x256_S4096x256_1_0_0_1_n_n 256 rfl rfl).symm]
  refine Finset.sum_congr rfl fun c _ => ?_
  have hk := contrEquiv1_symm_val dot_S4096x256_S256x256_S4096x256_1_0_0_1_n_n 256 rfl rfl c
  have el : dot_S4096x256_S256x256_S4096x256_1_0_0_1_n_n.lhsIdx (ix2 n k)
      ((contrEquiv1 dot_S4096x256_S256x256_S4096x256_1_0_0_1_n_n 256 rfl rfl).symm c) = ix2 n c := funext fun a => Fin.ext (by
    match a with
    | ⟨0, _⟩ => exact lhs_feat_0 _ _
    | ⟨1, _⟩ => exact (lhs_feat_1 _ _).trans hk)
  have er : dot_S4096x256_S256x256_S4096x256_1_0_0_1_n_n.rhsIdx (ix2 n k)
      ((contrEquiv1 dot_S4096x256_S256x256_S4096x256_1_0_0_1_n_n 256 rfl rfl).symm c) = ix2 c k := funext fun a => Fin.ext (by
    match a with
    | ⟨0, _⟩ => exact (rhs_feat_0 _ _).trans hk
    | ⟨1, _⟩ => exact rhs_feat_1 _ _)
  rw [el, er]

theorem lhs_src_0 (i : S256x1.Idx) (q : dot_S256x256_S256x1_S256x1_1_0_0_1_n_n.contr.Idx) :
    (dot_S256x256_S256x1_S256x1_1_0_0_1_n_n.lhsIdx i q 0).val = (i 0).val := by
  unfold DotDims.lhsIdx
  rw [dif_neg (show ¬(0 : Fin S256x256.rank) ∈ dot_S256x256_S256x1_S256x1_1_0_0_1_n_n.lhsBatch by decide),
    dif_pos (show (0 : Fin S256x256.rank) ∈ dot_S256x256_S256x1_S256x1_1_0_0_1_n_n.lhsNonContracting by decide)]
  rfl
theorem lhs_src_1 (i : S256x1.Idx) (q : dot_S256x256_S256x1_S256x1_1_0_0_1_n_n.contr.Idx) :
    (dot_S256x256_S256x1_S256x1_1_0_0_1_n_n.lhsIdx i q 1).val = (q ⟨0, by decide⟩).val :=
  dot_S256x256_S256x1_S256x1_1_0_0_1_n_n.lhsIdx_val_of_single rfl i q
theorem rhs_src_0 (i : S256x1.Idx) (q : dot_S256x256_S256x1_S256x1_1_0_0_1_n_n.contr.Idx) :
    (dot_S256x256_S256x1_S256x1_1_0_0_1_n_n.rhsIdx i q 0).val = (q ⟨0, by decide⟩).val :=
  dot_S256x256_S256x1_S256x1_1_0_0_1_n_n.rhsIdx_val_of_single rfl i q
theorem rhs_src_1 (i : S256x1.Idx) (q : dot_S256x256_S256x1_S256x1_1_0_0_1_n_n.contr.Idx) :
    (dot_S256x256_S256x1_S256x1_1_0_0_1_n_n.rhsIdx i q 1).val = (i 1).val := by
  unfold DotDims.rhsIdx
  rw [dif_neg (show ¬(1 : Fin S256x1.rank) ∈ dot_S256x256_S256x1_S256x1_1_0_0_1_n_n.rhsBatch by decide),
    dif_pos (show (1 : Fin S256x1.rank) ∈ dot_S256x256_S256x1_S256x1_1_0_0_1_n_n.rhsNonContracting by decide)]
  rfl

/-- A block of rows of H against the source attention vector, at (p, u): the sum over the 256 features. -/
theorem matmul_src_apply (A : FVec Ideal S256x256 .f32) (B : FVec Ideal S256x1 .f32) (p : Fin 256) (u : Fin 1) :
    matmul dot_S256x256_S256x1_S256x1_1_0_0_1_n_n none A B (constant (F := Ideal) S256x1 .f32 0x00000000#32) (ix2 p u)
      = ∑ a : Fin 256, A (ix2 p a) * B (ix2 a u) := by
  refine (Ideal.matmul_constant_zero_apply dot_S256x256_S256x1_S256x1_1_0_0_1_n_n none A B (ix2 p u)).trans ?_
  rw [← Equiv.sum_comp (contrEquiv1 dot_S256x256_S256x1_S256x1_1_0_0_1_n_n 256 rfl rfl).symm]
  refine Finset.sum_congr rfl fun c _ => ?_
  have hk := contrEquiv1_symm_val dot_S256x256_S256x1_S256x1_1_0_0_1_n_n 256 rfl rfl c
  have el : dot_S256x256_S256x1_S256x1_1_0_0_1_n_n.lhsIdx (ix2 p u)
      ((contrEquiv1 dot_S256x256_S256x1_S256x1_1_0_0_1_n_n 256 rfl rfl).symm c) = ix2 p c := funext fun a => Fin.ext (by
    match a with
    | ⟨0, _⟩ => exact lhs_src_0 _ _
    | ⟨1, _⟩ => exact (lhs_src_1 _ _).trans hk)
  have er : dot_S256x256_S256x1_S256x1_1_0_0_1_n_n.rhsIdx (ix2 p u)
      ((contrEquiv1 dot_S256x256_S256x1_S256x1_1_0_0_1_n_n 256 rfl rfl).symm c) = ix2 c u := funext fun a => Fin.ext (by
    match a with
    | ⟨0, _⟩ => exact (rhs_src_0 _ _).trans hk
    | ⟨1, _⟩ => exact rhs_src_1 _ _)
  rw [el, er]

theorem lhs_dst_0 (i : S1x4096.Idx) (q : dot_S256x1_S4096x256_S1x4096_0_1_1_0_n_n.contr.Idx) :
    (dot_S256x1_S4096x256_S1x4096_0_1_1_0_n_n.lhsIdx i q 0).val = (q ⟨0, by decide⟩).val :=
  dot_S256x1_S4096x256_S1x4096_0_1_1_0_n_n.lhsIdx_val_of_single rfl i q
theorem lhs_dst_1 (i : S1x4096.Idx) (q : dot_S256x1_S4096x256_S1x4096_0_1_1_0_n_n.contr.Idx) :
    (dot_S256x1_S4096x256_S1x4096_0_1_1_0_n_n.lhsIdx i q 1).val = (i 0).val := by
  unfold DotDims.lhsIdx
  rw [dif_neg (show ¬(1 : Fin S256x1.rank) ∈ dot_S256x1_S4096x256_S1x4096_0_1_1_0_n_n.lhsBatch by decide),
    dif_pos (show (1 : Fin S256x1.rank) ∈ dot_S256x1_S4096x256_S1x4096_0_1_1_0_n_n.lhsNonContracting by decide)]
  rfl
theorem rhs_dst_0 (i : S1x4096.Idx) (q : dot_S256x1_S4096x256_S1x4096_0_1_1_0_n_n.contr.Idx) :
    (dot_S256x1_S4096x256_S1x4096_0_1_1_0_n_n.rhsIdx i q 0).val = (i 1).val := by
  unfold DotDims.rhsIdx
  rw [dif_neg (show ¬(0 : Fin S4096x256.rank) ∈ dot_S256x1_S4096x256_S1x4096_0_1_1_0_n_n.rhsBatch by decide),
    dif_pos (show (0 : Fin S4096x256.rank) ∈ dot_S256x1_S4096x256_S1x4096_0_1_1_0_n_n.rhsNonContracting by decide)]
  rfl
theorem rhs_dst_1 (i : S1x4096.Idx) (q : dot_S256x1_S4096x256_S1x4096_0_1_1_0_n_n.contr.Idx) :
    (dot_S256x1_S4096x256_S1x4096_0_1_1_0_n_n.rhsIdx i q 1).val = (q ⟨0, by decide⟩).val :=
  dot_S256x1_S4096x256_S1x4096_0_1_1_0_n_n.rhsIdx_val_of_single rfl i q

/-- The destination attention vector, contracted on its own axis 0, against every row of H, at (u, j): the sum over
    the 256 features of d's entry times H's entry in row j. -/
theorem matmul_dst_apply (A : FVec Ideal S256x1 .f32) (B : FVec Ideal S4096x256 .f32) (u : Fin 1) (j : Fin 4096) :
    matmul dot_S256x1_S4096x256_S1x4096_0_1_1_0_n_n none A B (constant (F := Ideal) S1x4096 .f32 0x00000000#32) (ix2 u j)
      = ∑ a : Fin 256, A (ix2 a u) * B (ix2 j a) := by
  refine (Ideal.matmul_constant_zero_apply dot_S256x1_S4096x256_S1x4096_0_1_1_0_n_n none A B (ix2 u j)).trans ?_
  rw [← Equiv.sum_comp (contrEquiv1 dot_S256x1_S4096x256_S1x4096_0_1_1_0_n_n 256 rfl rfl).symm]
  refine Finset.sum_congr rfl fun c _ => ?_
  have hk := contrEquiv1_symm_val dot_S256x1_S4096x256_S1x4096_0_1_1_0_n_n 256 rfl rfl c
  have el : dot_S256x1_S4096x256_S1x4096_0_1_1_0_n_n.lhsIdx (ix2 u j)
      ((contrEquiv1 dot_S256x1_S4096x256_S1x4096_0_1_1_0_n_n 256 rfl rfl).symm c) = ix2 c u := funext fun a => Fin.ext (by
    match a with
    | ⟨0, _⟩ => exact (lhs_dst_0 _ _).trans hk
    | ⟨1, _⟩ => exact lhs_dst_1 _ _)
  have er : dot_S256x1_S4096x256_S1x4096_0_1_1_0_n_n.rhsIdx (ix2 u j)
      ((contrEquiv1 dot_S256x1_S4096x256_S1x4096_0_1_1_0_n_n 256 rfl rfl).symm c) = ix2 j c := funext fun a => Fin.ext (by
    match a with
    | ⟨0, _⟩ => exact rhs_dst_0 _ _
    | ⟨1, _⟩ => exact (rhs_dst_1 _ _).trans hk)
  rw [el, er]

theorem lhs_agg_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide),
    dif_pos (show (0 : Fin S256x4096.rank) ∈ dot_S256x4096_S4096x256_S256x256_1_0_0_1_n_n.lhsNonContracting by decide)]
  rfl
theorem lhs_agg_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_agg_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_agg_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide),
    dif_pos (show (1 : Fin S4096x256.rank) ∈ dot_S256x4096_S4096x256_S256x256_1_0_0_1_n_n.rhsNonContracting by decide)]
  rfl

/-- A block of 256 rows of weights against H, at (p, q): the sum over the 4096 source nodes. -/
theorem matmul_agg_apply (A : FVec Ideal S256x4096 .f32) (B : FVec Ideal S4096x256 .f32) (p q : Fin 256) :
    matmul dot_S256x4096_S4096x256_S256x256_1_0_0_1_n_n none A B (constant (F := Ideal) S256x256 .f32 0x00000000#32) (ix2 p q)
      = ∑ j : Fin 4096, A (ix2 p j) * B (ix2 j q) := by
  refine (Ideal.matmul_constant_zero_apply dot_S256x4096_S4096x256_S256x256_1_0_0_1_n_n none A B (ix2 p q)).trans ?_
  rw [← Equiv.sum_comp (contrEquiv1 dot_S256x4096_S4096x256_S256x256_1_0_0_1_n_n 4096 rfl rfl).symm]
  refine Finset.sum_congr rfl fun c _ => ?_
  have hk := contrEquiv1_symm_val dot_S256x4096_S4096x256_S256x256_1_0_0_1_n_n 4096 rfl rfl c
  have el : dot_S256x4096_S4096x256_S256x256_1_0_0_1_n_n.lhsIdx (ix2 p q)
      ((contrEquiv1 dot_S256x4096_S4096x256_S256x256_1_0_0_1_n_n 4096 rfl rfl).symm c) = ix2 p c := funext fun a => Fin.ext (by
    match a with
    | ⟨0, _⟩ => exact lhs_agg_0 _ _
    | ⟨1, _⟩ => exact (lhs_agg_1 _ _).trans hk)
  have er : dot_S256x4096_S4096x256_S256x256_1_0_0_1_n_n.rhsIdx (ix2 p q)
      ((contrEquiv1 dot_S256x4096_S4096x256_S256x256_1_0_0_1_n_n 4096 rfl rfl).symm c) = ix2 c q := funext fun a => Fin.ext (by
    match a with
    | ⟨0, _⟩ => exact (rhs_agg_0 _ _).trans hk
    | ⟨1, _⟩ => exact rhs_agg_1 _ _)
  rw [el, er]

/-! ## The lane maximum and the lane sum of a block of rows -/

/-- The index of row p with lane coordinate j put back. -/
theorem lift_lane (h : S256x4096.Reduces [1] S256) (p : Fin 256) (j : Fin 4096) : h.lift (ix1 p) j = ix2 p j :=
  funext fun c => Fin.ext (by
    match c with
    | ⟨0, _⟩ => rfl
    | ⟨1, _⟩ => rfl)

/-- The maximum over the lanes of row p, from -∞: the fold of max over the row's 4096 entries. -/
theorem lane_max_apply (v : FVec Ideal S256x4096 .f32) (h : S256x4096.Reduces [1] S256) (hφ : FKind.Formats .f32)
    (hacc : (0xFF800000#32 : BitVec 32) = 0xFF800000#32) (p : Fin 256) :
    multiReduction .maximumf [1] S256 v 0xFF800000#32 h hφ hacc (ix1 p)
      = (Finset.univ : Finset (Fin 4096)).fold max (Ideal.ofBits .f32 0xFF800000#32) (fun j => v (ix2 p j)) := by
  refine (Ideal.multiReduction_maximumf_single v 0xFF800000#32 h hφ hacc (ix1 p)).trans ?_
  exact congrArg (fun f : Fin 4096 → EReal => (Finset.univ : Finset (Fin 4096)).fold max (Ideal.ofBits .f32 0xFF800000#32) f)
    (funext fun j => congrArg v (lift_lane h p j))

/-- The sum over the lanes of row p. -/
theorem lane_sum_apply (v : FVec Ideal S256x4096 .f32) (h : S256x4096.Reduces [1] S256) (hφ : FKind.Formats .f32)
    (hacc : (0x00000000#32 : BitVec 32) = 0x00000000#32) (p : Fin 256) :
    multiReduction .add [1] S256 v 0x00000000#32 h hφ hacc (ix1 p) = ∑ j : Fin 4096, v (ix2 p j) := by
  refine (Ideal.multiReduction_add_single v 0x00000000#32 h hφ hacc (ix1 p)).trans ?_
  exact Finset.sum_congr rfl fun j _ => congrArg v (lift_lane h p j)

/-! ## The body's payloads at an index -/

/-- An exponential at an index is the exponential of the element. -/
theorem exp_apply {s : Shape} {φ : FTy} (a : FVec Ideal s φ) (i : s.Idx) : exp a i = Ideal.exp (a i) := rfl

/-- The projected features, layer 0: entry (n, k) of x·W. -/
theorem pay2_apply (x : FVec Ideal S4096x256 .f32) (W : FVec Ideal S256x256 .f32) (n : Fin 4096) (k : Fin 256) :
    k0_pay2 (F := Ideal) x W (ix2 n k) = ∑ a : Fin 256, x (ix2 n a) * W (ix2 a k) := by
  unfold k0_pay2
  simp only [shapeCast_self, matmul_feat_apply]

/-- The projected features, layer 1: the same, its operand passed through an identity cast first. -/
theorem pay2'_apply (x : FVec Ideal S4096x256 .f32) (W : FVec Ideal S256x256 .f32) (n : Fin 4096) (k : Fin 256) :
    k1_pay2 (F := Ideal) x W (ix2 n k) = ∑ a : Fin 256, x (ix2 n a) * W (ix2 a k) := by
  unfold k1_pay2
  simp only [shapeCast_self, matmul_feat_apply]

/-- Row p of a block's masked logits: over the scratch contents H, the block's own rows Hb of H, the two attention
    vectors and the block's adjacency rows A. -/
def blockRow (H : FVec Ideal S4096x256 .f32) (Hb : FVec Ideal S256x256 .f32) (s d : FVec Ideal S256x1 .f32)
    (A : FVec Ideal S256x4096 .f32) (p : Fin 256) : Fin 4096 → EReal := fun j =>
  Cert.Gat.masked (A (ix2 p j)) (Cert.Gat.leaky ((∑ a : Fin 256, Hb (ix2 p a) * s (ix2 a (0 : Fin 1)))
    + ∑ a : Fin 256, d (ix2 a (0 : Fin 1)) * H (ix2 j a)))

/-- The block's unnormalised weights: the exponential of a logit less its row's maximum. -/
def blockW (H : FVec Ideal S4096x256 .f32) (Hb : FVec Ideal S256x256 .f32) (s d : FVec Ideal S256x1 .f32)
    (A : FVec Ideal S256x4096 .f32) (p : Fin 256) (j : Fin 4096) : EReal :=
  Ideal.exp (blockRow H Hb s d A p j - Cert.Gat.rowMax (blockRow H Hb s d A p))

/-- The block's aggregate at (p, q): the weighted sum of column q of H divided by the total weight of row p. -/
theorem pay3_apply (H : FVec Ideal S4096x256 .f32) (Hb : FVec Ideal S256x256 .f32) (s d : FVec Ideal S256x1 .f32)
    (A : FVec Ideal S256x4096 .f32) (p q : Fin 256) :
    k0_pay3 (F := Ideal) H Hb s d A (ix2 p q)
      = Ideal.div (∑ j : Fin 4096, blockW H Hb s d A p j * H (ix2 j q)) (∑ j : Fin 4096, blockW H Hb s d A p j) := by
  unfold k0_pay3
  simp only [divf_apply, matmul_agg_apply, broadcastTo_a1_ab_apply, shapeCast_a_a1_apply]
  rw [lane_sum_apply]
  simp only [exp_apply, subf_apply, broadcastTo_a1_ab_apply, shapeCast_a_a1_apply]
  rw [lane_max_apply]
  simp only [select_apply, cmpf_apply, broadcast_apply, mulf_apply, addf_apply, broadcastTo_a1_ab_apply,
    broadcastTo_1b_ab_apply, matmul_src_apply, matmul_dst_apply]
  rfl

/-- The stored value of a block at (p, q): elu, the kernel's spelling, of the block's aggregate there. -/
theorem block0_apply (H : FVec Ideal S4096x256 .f32) (s d : FVec Ideal S256x1 .f32) (adj : FVec Ideal S4096x4096 .f32)
    (t : Fin 16) (p q : Fin 256) :
    Hand.block0 (F := Ideal) H s d adj t (ix2 p q)
      = Cert.Gat.eluK (k0_pay3 (F := Ideal) H (Hand.rowsOf H t) s d (Hand.rowsOf adj t) (ix2 p q)) := rfl

/-- The second layer's block is the first layer's: its payloads are the same terms. -/
theorem block1_eq (H : FVec Ideal S4096x256 .f32) (s d : FVec Ideal S256x1 .f32) (adj : FVec Ideal S4096x4096 .f32) (t : Fin 16) :
    Hand.block1 (F := Ideal) H s d adj t = Hand.block0 (F := Ideal) H s d adj t := rfl

/-! ## From a block's rows to the array's rows -/

/-- Row n mod 256 of block n / 256 of an array of 4096 rows is row n of the array. -/
theorem rowsOf_apply {α : Type} {C : Nat} (A : (⟨2, ![4096, C]⟩ : Shape).Idx → α) (n : Fin 4096) (c : Fin C)
    (h16 : n.val / 256 < 16) (h256 : n.val % 256 < 256) :
    Hand.rowsOf A ⟨n.val / 256, h16⟩ (ix2 (⟨n.val % 256, h256⟩ : Fin 256) c) = A (ix2 n c) := by
  have e : (⟨256 * (n.val / 256) + n.val % 256, by omega⟩ : Fin 4096) = n := Fin.ext (Nat.div_add_mod n.val 256)
  exact congrArg (fun m : Fin 4096 => A (ix2 m c)) e

/-- Over scratch contents H that hold the projected features, row n mod 256 of block n / 256 of the masked logits is
    row n of the specification's. -/
theorem blockRow_eq (H : FVec Ideal S4096x256 .f32) (x : FVec Ideal S4096x256 .f32) (adj : FVec Ideal S4096x4096 .f32)
    (W : FVec Ideal S256x256 .f32) (s d : FVec Ideal S256x1 .f32)
    (hH : ∀ (n : Fin 4096) (k : Fin 256), H (ix2 n k) = Cert.Gat.feat x W n k)
    (n : Fin 4096) (h16 : n.val / 256 < 16) (h256 : n.val % 256 < 256) :
    blockRow H (Hand.rowsOf H ⟨n.val / 256, h16⟩) s d (Hand.rowsOf adj ⟨n.val / 256, h16⟩) ⟨n.val % 256, h256⟩
      = Cert.Gat.rowK x adj W s d n := by
  funext j
  unfold blockRow Cert.Gat.rowK Cert.Gat.srcT Cert.Gat.dstK
  simp only [rowsOf_apply, hH]

/-- So the block's aggregate there is the specification's aggregate of row n. -/
theorem pay3_eq_aggK (H : FVec Ideal S4096x256 .f32) (x : FVec Ideal S4096x256 .f32) (adj : FVec Ideal S4096x4096 .f32)
    (W : FVec Ideal S256x256 .f32) (s d : FVec Ideal S256x1 .f32)
    (hH : ∀ (n : Fin 4096) (k : Fin 256), H (ix2 n k) = Cert.Gat.feat x W n k)
    (n : Fin 4096) (k : Fin 256) (h16 : n.val / 256 < 16) (h256 : n.val % 256 < 256) :
    k0_pay3 (F := Ideal) H (Hand.rowsOf H ⟨n.val / 256, h16⟩) s d (Hand.rowsOf adj ⟨n.val / 256, h16⟩) (ix2 (⟨n.val % 256, h256⟩ : Fin 256) k)
      = Cert.Gat.aggK x adj W s d n k := by
  rw [pay3_apply]
  unfold blockW Cert.Gat.aggK Cert.Gat.wK
  rw [blockRow_eq H x adj W s d hH n h16 h256]
  simp only [hH]

/-! ## The two layers -/

/-- Both layers, over whatever the first grid point leaves in scratch, as long as it is the projected features. -/
theorem layer_of_feats (H : FVec Ideal S4096x256 .f32) (x : FVec Ideal S4096x256 .f32) (adj : FVec Ideal S4096x4096 .f32)
    (W : FVec Ideal S256x256 .f32) (s d : FVec Ideal S256x1 .f32)
    (hH : ∀ (n : Fin 4096) (k : Fin 256), H (ix2 n k) = Cert.Gat.feat x W n k) (n : Fin 4096) (k : Fin 256)
    (h16 : n.val / 256 < 16) (h256 : n.val % 256 < 256) :
    Hand.block0 (F := Ideal) H s d adj ⟨n.val / 256, h16⟩ (ix2 (⟨n.val % 256, h256⟩ : Fin 256) k)
      = Cert.Gat.layerK x adj W s d (ix2 n k) := by
  rw [block0_apply, pay3_eq_aggK H x adj W s d hH n k h16 h256]
  rfl

theorem klayer0_eq (x : Vec Ideal S4096x256 .f32) (adj : Vec Ideal S4096x4096 .f32) (W : Vec Ideal S256x256 .f32)
    (s d : Vec Ideal S256x1 .f32) :
    Cert.KernelIdeal.Hand.klayer0 (F := Ideal) x adj W s d = Cert.Gat.layerK x adj W s d := by
  funext i
  obtain ⟨n, k, rfl⟩ : ∃ (n : Fin 4096) (k : Fin 256), i = ix2 n k := ⟨i 0, i 1, eq_ix2 i⟩
  exact layer_of_feats (Hand.feats0 (F := Ideal) x W) x adj W s d (fun n k => pay2_apply x W n k) n k _ _

theorem klayer1_eq (x : Vec Ideal S4096x256 .f32) (adj : Vec Ideal S4096x4096 .f32) (W : Vec Ideal S256x256 .f32)
    (s d : Vec Ideal S256x1 .f32) :
    Cert.KernelIdeal.Hand.klayer1 (F := Ideal) x adj W s d = Cert.Gat.layerK x adj W s d := by
  funext i
  obtain ⟨n, k, rfl⟩ : ∃ (n : Fin 4096) (k : Fin 256), i = ix2 n k := ⟨i 0, i 1, eq_ix2 i⟩
  show Hand.block1 (F := Ideal) (Hand.feats1 (F := Ideal) x W) s d adj _ _ = _
  rw [block1_eq]
  exact layer_of_feats (Hand.feats1 (F := Ideal) x W) x adj W s d (fun n k => pay2'_apply x W n k) n k _ _

end Cert.KernelIdeal.HandValue

end
-- ==== Proof.RLayer.lean ====
/-
  One layer of the reference as a whole-array function of its five operand arrays: the host operations of
  @main's first (and, over other operands, second) half composed in order — h = x·W, the two logit components,
  their outer sum, leaky_relu, the adjacency mask, the row softmax (maximum, exponential, total, quotient),
  the product with h and elu — each operation spelled as @main and its outlined functions spell it.
-/
import proofs.«172533_g75539884802175_cont_sun_m_1234_3_alg».proof.Proof.Gen.ReferenceIdeal

noncomputable section

namespace Cert.ReferenceIdeal.Hand

open Cert.ReferenceIdeal Cert.ReferenceIdeal.Facts₀
open Idealize.ShloMosaic

variable {F : FTy → Type} [FloatOps F]

/-- @leaky_relu over a logit array and the slope as a rank-0 array. -/
def leakyRelu (e : FVec F S4096x4096 .f32) (sl : FVec F S_ .f32) : FVec F S4096x4096 .f32 :=
  select (cmpf .oge e (broadcastInDim S4096x4096 ![] bcast_S_S4096x4096 (constant S_ .f32 0x00000000#32)))
    e (mulf (broadcastInDim S4096x4096 ![] bcast_S_S4096x4096 (id sl)) e)

/-- @elu over an aggregate array. -/
def eluHost (a : FVec F S4096x256 .f32) : FVec F S4096x256 .f32 :=
  select (cmpf .ogt a (broadcastInDim S4096x256 ![] bcast_S_S4096x256 (constant S_ .f32 0x00000000#32)))
    a (mulf (broadcastInDim S4096x256 ![] bcast_S_S4096x256 (constant S_ .f32 0x3F800000#32))
      (Host.expm1 (select (cmpf .ogt a (broadcastInDim S4096x256 ![] bcast_S_S4096x256 (constant S_ .f32 0x00000000#32)))
        (broadcastInDim S4096x256 ![] bcast_S_S4096x256 (id (constant S_ .f32 0x00000000#32))) a)))

/-- The projected features. -/
def rfeat (x : FVec F S4096x256 .f32) (W : FVec F S256x256 .f32) : FVec F S4096x256 .f32 :=
  Host.dotGeneral dot_S4096x256_S256x256_S4096x256_1_0_0_1_n_n none x W

/-- The masked logits. -/
def rlogits (h : FVec F S4096x256 .f32) (adj : FVec F S4096x4096 .f32) (s d : FVec F S256x1 .f32) : FVec F S4096x4096 .f32 :=
  select (cmpf .ogt adj (broadcastInDim S4096x4096 ![] bcast_S_S4096x4096 (constant S_ .f32 0x00000000#32)))
    (leakyRelu
      (addf (broadcastInDim S4096x4096 ![0, 1] bcast_S4096x1_S4096x4096_0_1 (Host.dotGeneral dot_S4096x256_S256x1_S4096x1_1_0_0_1_n_n none h s))
        (broadcastInDim S4096x4096 ![0, 1] bcast_S1x4096_S4096x4096_0_1
          (transpose S1x4096 [1, 0] (Host.dotGeneral dot_S4096x256_S256x1_S4096x1_1_0_0_1_n_n none h d) transposes_S4096x1_S1x4096_1_0)))
      (constant S_ .f32 0x3E4CCCCD#32))
    (broadcastInDim S4096x4096 ![] bcast_S_S4096x4096 (constant S_ .f32 0xCE6E6B28#32))

/-- The unnormalised attention weights: exp of the logits less their row maximum. -/
def rweights (e : FVec F S4096x4096 .f32) : FVec F S4096x4096 .f32 :=
  Host.exp (subf e
    (broadcastInDim S4096x4096 ![0, 1] bcast_S4096x1_S4096x4096_0_1
      (broadcastInDim S4096x1 ![0] bcast_S4096_S4096x1_0
        (maximumf (broadcastInDim S4096 ![] bcast_S_S4096 (constant S_ .f32 0xFF800000#32))
          (Host.reduce FloatOps.maximumf e (constant S_ .f32 0xFF800000#32) reducesTo_S4096x4096_S4096_d1 h_S_)))))

/-- The normalised attention weights. -/
def ralpha (p : FVec F S4096x4096 .f32) : FVec F S4096x4096 .f32 :=
  Host.divf p
    (broadcastInDim S4096x4096 ![0, 1] bcast_S4096x1_S4096x4096_0_1
      (broadcastInDim S4096x1 ![0] bcast_S4096_S4096x1_0
        (Host.reduceAdd p (constant S_ .f32 0x00000000#32) reducesTo_S4096x4096_S4096_d1 h_S_)))

/-- One layer. -/
def rlayer (x : FVec F S4096x256 .f32) (adj : FVec F S4096x4096 .f32) (W : FVec F S256x256 .f32) (s d : FVec F S256x1 .f32) : FVec F S4096x256 .f32 :=
  eluHost (Host.dotGeneral dot_S4096x4096_S4096x256_S4096x256_1_0_0_1_n_n none
    (ralpha (rweights (rlogits (rfeat x W) adj s d))) (rfeat x W))

/-- The program's result: the second layer over the first layer's result. -/
def rout (x : FVec F S4096x256 .f32) (adj : FVec F S4096x4096 .f32) (W1 : FVec F S256x256 .f32) (s1 d1 : FVec F S256x1 .f32)
    (W2 : FVec F S256x256 .f32) (s2 d2 : FVec F S256x1 .f32) : FVec F S4096x256 .f32 :=
  rlayer (rlayer x adj W1 s1 d1) adj W2 s2 d2

end Cert.ReferenceIdeal.Hand

end
-- ==== Proof.RefRun.lean ====
/-
  The reference program's run. @main is a straight line of host operations once its calls are unfolded: each
  call of @leaky_relu, @_where_0 and @elu stands for the callee's own operations over the call's buffers (and
  @leaky_relu's and @elu's inner calls of @_where, @_where_1, @_where_2 likewise). The line is cut where the
  first layer's result is complete: the first 51 operations compute one layer from the arguments, the last 51
  compute the same layer from that result and the second set of weights. Each half read at its result buffer is
  `rlayer` of the contents of its five operand buffers, and leaves every argument buffer as it was; the two
  composed are `rout`.
-/
import proofs.«172533_g75539884802175_cont_sun_m_1234_3_alg».proof.Proof.RLayer
import Idealize.ShloMosaic.Lib.StableHlo.Run
import Idealize.ShloMosaic.Lib.Pipeline.Frame

noncomputable section

namespace Cert.ReferenceIdeal.Hand

open Cert.ReferenceIdeal Cert.ReferenceIdeal.Facts₀
open Idealize.ShloMosaic Idealize.ShloMosaic.TcCoe Idealize.SL.Sem Idealize.ShloMosaic.StableHlo

variable {F : FTy → Type} [FloatOps F]

/-- The first layer: @main's statements 1 … 30, the calls unfolded (51 operations). -/
abbrev opsA : List (HloOp τ sig (Elt F)) :=
  [ binary main_arg0 main_arg2 main_v0 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    binary main_v0 main_arg3 main_v1 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    binary main_v0 main_arg4 main_v2 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_v2 main_v3 ((transpose S1x4096 [1, 0] · transposes_S4096x1_S1x4096_1_0) : (⟨S4096x1, .f32⟩ : BufTy).Contents (Elt F) → (⟨S1x4096, .f32⟩ : BufTy).Contents (Elt F)),
    unary main_v1 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S4096x4096 ![] bcast_S_S4096x4096),
    TRef.binary (TRef.of (T := ⟨S4096x4096, .f32⟩) main_v6) main_call0.v0 main_call0.v1 (cmpf .oge),
    TRef.unary (TRef.of (T := ⟨S_, .f32⟩) main_cst) main_call0.v2 id,
    TRef.unary main_call0.v2 main_call0.v3 (broadcastInDim S4096x4096 ![] bcast_S_S4096x4096),
    TRef.binary main_call0.v3 (TRef.of (T := ⟨S4096x4096, .f32⟩) main_v6) main_call0.v4 mulf,
    TRef.ternary main_call0.v1 (TRef.of (T := ⟨S4096x4096, .f32⟩) main_v6) main_call0.v4 main_call0.call0.v0 select,
    nullary main_cst_0 (constant S_ .f32 0x00000000#32),
    unary main_cst_0 main_v8 (broadcastInDim S4096x4096 ![] bcast_S_S4096x4096 : (⟨S_, .f32⟩ : BufTy).Contents (Elt F) → (⟨S4096x4096, .f32⟩ : BufTy).Contents (Elt F)),
    binary main_arg1 main_v8 main_v9 (cmpf .ogt : (⟨S4096x4096, .f32⟩ : BufTy).Contents (Elt F) → (⟨S4096x4096, .f32⟩ : BufTy).Contents (Elt F) → (⟨S4096x4096, .i1⟩ : BufTy).Contents (Elt F)),
    nullary main_cst_1 (constant S_ .f32 0xCE6E6B28#32),
    TRef.unary (TRef.of (T := ⟨S_, .f32⟩) main_cst_1) main_call1.v0 (broadcastInDim S4096x4096 ![] bcast_S_S4096x4096),
    TRef.ternary (TRef.of (T := ⟨S4096x4096, .i1⟩) main_v9) (TRef.of (T := ⟨S4096x4096, .f32⟩) main_v7) main_call1.v0 main_call1.v1 select,
    nullary main_cst_2 (constant S_ .f32 0xFF800000#32),
    binary main_v10 main_cst_2 main_v11 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v12 (broadcastInDim S4096 ![] bcast_S_S4096 : (⟨S_, .f32⟩ : BufTy).Contents (Elt F) → (⟨S4096, .f32⟩ : BufTy).Contents (Elt F)),
    binary main_v12 main_v11 main_v13 (maximumf : (⟨S4096, .f32⟩ : BufTy).Contents (Elt F) → (⟨S4096, .f32⟩ : BufTy).Contents (Elt F) → (⟨S4096, .f32⟩ : BufTy).Contents (Elt F)),
    unary main_v13 main_v14 (broadcastInDim S4096x1 ![0] bcast_S4096_S4096x1_0 : (⟨S4096, .f32⟩ : BufTy).Contents (Elt F) → (⟨S4096x1, .f32⟩ : BufTy).Contents (Elt F)),
    unary main_v14 main_v15 (broadcastInDim S4096x4096 ![0, 1] bcast_S4096x1_S4096x4096_0_1 : (⟨S4096x1, .f32⟩ : BufTy).Contents (Elt F) → (⟨S4096x4096, .f32⟩ : BufTy).Contents (Elt F)),
    binary main_v10 main_v15 main_v16 (subf : (⟨S4096x4096, .f32⟩ : BufTy).Contents (Elt F) → (⟨S4096x4096, .f32⟩ : BufTy).Contents (Elt F) → (⟨S4096x4096, .f32⟩ : BufTy).Contents (Elt F)),
    unary main_v16 main_v17 (Host.exp : (⟨S4096x4096, .f32⟩ : BufTy).Contents (Elt F) → (⟨S4096x4096, .f32⟩ : BufTy).Contents (Elt F)),
    nullary main_cst_4 (constant S_ .f32 0x00000000#32),
    binary main_v17 main_cst_4 main_v18 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v18 main_v19 (broadcastInDim S4096x1 ![0] bcast_S4096_S4096x1_0 : (⟨S4096, .f32⟩ : BufTy).Contents (Elt F) → (⟨S4096x1, .f32⟩ : BufTy).Contents (Elt F)),
    unary main_v19 main_v20 (broadcastInDim S4096x4096 ![0, 1] bcast_S4096x1_S4096x4096_0_1 : (⟨S4096x1, .f32⟩ : BufTy).Contents (Elt F) → (⟨S4096x4096, .f32⟩ : BufTy).Contents (Elt F)),
    binary main_v17 main_v20 main_v21 (Host.divf : (⟨S4096x4096, .f32⟩ : BufTy).Contents (Elt F) → (⟨S4096x4096, .f32⟩ : BufTy).Contents (Elt F) → (⟨S4096x4096, .f32⟩ : BufTy).Contents (Elt F)),
    binary main_v21 main_v0 main_v22 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    TRef.nullary main_call2.cst (constant S_ .f32 0x00000000#32),
    TRef.unary main_call2.cst main_call2.v0 (broadcastInDim S4096x256 ![] bcast_S_S4096x256),
    TRef.binary (TRef.of (T := ⟨S4096x256, .f32⟩) main_v22) main_call2.v0 main_call2.v1 (cmpf .ogt),
    TRef.nullary main_call2.cst_0 (constant S_ .f32 0x00000000#32),
    TRef.unary main_call2.cst_0 main_call2.v2 (broadcastInDim S4096x256 ![] bcast_S_S4096x256),
    TRef.binary (TRef.of (T := ⟨S4096x256, .f32⟩) main_v22) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S4096x256 ![] bcast_S_S4096x256),
    TRef.ternary main_call2.v3 main_call2.call0.v1 (TRef.of (T := ⟨S4096x256, .f32⟩) main_v22) main_call2.call0.v2 select,
    TRef.unary main_call2.call0.v2 main_call2.v5 Host.expm1,
    TRef.nullary main_call2.cst_2 (constant S_ .f32 0x3F800000#32),
    TRef.unary main_call2.cst_2 main_call2.v6 (broadcastInDim S4096x256 ![] bcast_S_S4096x256),
    TRef.binary main_call2.v6 main_call2.v5 main_call2.v7 mulf,
    TRef.ternary main_call2.v1 (TRef.of (T := ⟨S4096x256, .f32⟩) main_v22) main_call2.v7 main_call2.call1.v0 select ]

/-- The second layer: @main's statements 31 … 60, the calls unfolded (51 operations). -/
abbrev opsB : List (HloOp τ sig (Elt F)) :=
  [ binary main_v23 main_arg5 main_v24 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    binary main_v24 main_arg6 main_v25 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    binary main_v24 main_arg7 main_v26 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_v26 main_v27 ((transpose S1x4096 [1, 0] · transposes_S4096x1_S1x4096_1_0) : (⟨S4096x1, .f32⟩ : BufTy).Contents (Elt F) → (⟨S1x4096, .f32⟩ : BufTy).Contents (Elt F)),
    unary main_v25 main_v28 (broadcastInDim S4096x4096 ![0, 1] bcast_S4096x1_S4096x4096_0_1 : (⟨S4096x1, .f32⟩ : BufTy).Contents (Elt F) → (⟨S4096x4096, .f32⟩ : BufTy).Contents (Elt F)),
    unary main_v27 main_v29 (broadcastInDim S4096x4096 ![0, 1] bcast_S1x4096_S4096x4096_0_1 : (⟨S1x4096, .f32⟩ : BufTy).Contents (Elt F) → (⟨S4096x4096, .f32⟩ : BufTy).Contents (Elt F)),
    binary main_v28 main_v29 main_v30 (addf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x3E4CCCCD#32),
    TRef.nullary main_call3.cst (constant S_ .f32 0x00000000#32),
    TRef.unary main_call3.cst main_call3.v0 (broadcastInDim S4096x4096 ![] bcast_S_S4096x4096),
    TRef.binary (TRef.of (T := ⟨S4096x4096, .f32⟩) main_v30) main_call3.v0 main_call3.v1 (cmpf .oge),
    TRef.unary (TRef.of (T := ⟨S_, .f32⟩) main_cst_5) main_call3.v2 id,
    TRef.unary main_call3.v2 main_call3.v3 (broadcastInDim S4096x4096 ![] bcast_S_S4096x4096),
    TRef.binary main_call3.v3 (TRef.of (T := ⟨S4096x4096, .f32⟩) main_v30) main_call3.v4 mulf,
    TRef.ternary main_call3.v1 (TRef.of (T := ⟨S4096x4096, .f32⟩) main_v30) main_call3.v4 main_call3.call0.v0 select,
    nullary main_cst_6 (constant S_ .f32 0x00000000#32),
    unary main_cst_6 main_v32 (broadcastInDim S4096x4096 ![] bcast_S_S4096x4096 : (⟨S_, .f32⟩ : BufTy).Contents (Elt F) → (⟨S4096x4096, .f32⟩ : BufTy).Contents (Elt F)),
    binary main_arg1 main_v32 main_v33 (cmpf .ogt : (⟨S4096x4096, .f32⟩ : BufTy).Contents (Elt F) → (⟨S4096x4096, .f32⟩ : BufTy).Contents (Elt F) → (⟨S4096x4096, .i1⟩ : BufTy).Contents (Elt F)),
    nullary main_cst_7 (constant S_ .f32 0xCE6E6B28#32),
    TRef.unary (TRef.of (T := ⟨S_, .f32⟩) main_cst_7) main_call4.v0 (broadcastInDim S4096x4096 ![] bcast_S_S4096x4096),
    TRef.ternary (TRef.of (T := ⟨S4096x4096, .i1⟩) main_v33) (TRef.of (T := ⟨S4096x4096, .f32⟩) main_v31) main_call4.v0 main_call4.v1 select,
    nullary main_cst_8 (constant S_ .f32 0xFF800000#32),
    binary main_v34 main_cst_8 main_v35 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_9 (constant S_ .f32 0xFF800000#32),
    unary main_cst_9 main_v36 (broadcastInDim S4096 ![] bcast_S_S4096 : (⟨S_, .f32⟩ : BufTy).Contents (Elt F) → (⟨S4096, .f32⟩ : BufTy).Contents (Elt F)),
    binary main_v36 main_v35 main_v37 (maximumf : (⟨S4096, .f32⟩ : BufTy).Contents (Elt F) → (⟨S4096, .f32⟩ : BufTy).Contents (Elt F) → (⟨S4096, .f32⟩ : BufTy).Contents (Elt F)),
    unary main_v37 main_v38 (broadcastInDim S4096x1 ![0] bcast_S4096_S4096x1_0 : (⟨S4096, .f32⟩ : BufTy).Contents (Elt F) → (⟨S4096x1, .f32⟩ : BufTy).Contents (Elt F)),
    unary main_v38 main_v39 (broadcastInDim S4096x4096 ![0, 1] bcast_S4096x1_S4096x4096_0_1 : (⟨S4096x1, .f32⟩ : BufTy).Contents (Elt F) → (⟨S4096x4096, .f32⟩ : BufTy).Contents (Elt F)),
    binary main_v34 main_v39 main_v40 (subf : (⟨S4096x4096, .f32⟩ : BufTy).Contents (Elt F) → (⟨S4096x4096, .f32⟩ : BufTy).Contents (Elt F) → (⟨S4096x4096, .f32⟩ : BufTy).Contents (Elt F)),
    unary main_v40 main_v41 (Host.exp : (⟨S4096x4096, .f32⟩ : BufTy).Contents (Elt F) → (⟨S4096x4096, .f32⟩ : BufTy).Contents (Elt F)),
    nullary main_cst_10 (constant S_ .f32 0x00000000#32),
    binary main_v41 main_cst_10 main_v42 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v42 main_v43 (broadcastInDim S4096x1 ![0] bcast_S4096_S4096x1_0 : (⟨S4096, .f32⟩ : BufTy).Contents (Elt F) → (⟨S4096x1, .f32⟩ : BufTy).Contents (Elt F)),
    unary main_v43 main_v44 (broadcastInDim S4096x4096 ![0, 1] bcast_S4096x1_S4096x4096_0_1 : (⟨S4096x1, .f32⟩ : BufTy).Contents (Elt F) → (⟨S4096x4096, .f32⟩ : BufTy).Contents (Elt F)),
    binary main_v41 main_v44 main_v45 (Host.divf : (⟨S4096x4096, .f32⟩ : BufTy).Contents (Elt F) → (⟨S4096x4096, .f32⟩ : BufTy).Contents (Elt F) → (⟨S4096x4096, .f32⟩ : BufTy).Contents (Elt F)),
    binary main_v45 main_v24 main_v46 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    TRef.nullary main_call5.cst (constant S_ .f32 0x00000000#32),
    TRef.unary main_call5.cst main_call5.v0 (broadcastInDim S4096x256 ![] bcast_S_S4096x256),
    TRef.binary (TRef.of (T := ⟨S4096x256, .f32⟩) main_v46) main_call5.v0 main_call5.v1 (cmpf .ogt),
    TRef.nullary main_call5.cst_0 (constant S_ .f32 0x00000000#32),
    TRef.unary main_call5.cst_0 main_call5.v2 (broadcastInDim S4096x256 ![] bcast_S_S4096x256),
    TRef.binary (TRef.of (T := ⟨S4096x256, .f32⟩) main_v46) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S4096x256 ![] bcast_S_S4096x256),
    TRef.ternary main_call5.v3 main_call5.call0.v1 (TRef.of (T := ⟨S4096x256, .f32⟩) main_v46) main_call5.call0.v2 select,
    TRef.unary main_call5.call0.v2 main_call5.v5 Host.expm1,
    TRef.nullary main_call5.cst_2 (constant S_ .f32 0x3F800000#32),
    TRef.unary main_call5.cst_2 main_call5.v6 (broadcastInDim S4096x256 ![] bcast_S_S4096x256),
    TRef.binary main_call5.v6 main_call5.v5 main_call5.v7 mulf,
    TRef.ternary main_call5.v1 (TRef.of (T := ⟨S4096x256, .f32⟩) main_v46) main_call5.v7 main_call5.call1.v0 select ]

/-- The whole line: the first layer's operations, then the second's. -/
abbrev ops : List (HloOp τ sig (Elt F)) := opsA ++ opsB

set_option maxRecDepth 8192 in
set_option maxHeartbeats 4000000 in
/-- @main is that line: the functions unfold at their calls, the records at their fields, and sequencing a call's
    line before the rest of @main is sequencing its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation of the first half touches TensorCore buffers only. -/
theorem opsA_sub : (opsA : List (HloOp τ sig (Elt F))).Forall fun op => op.bufs ⊆ tcRefs τ sig :=
  ⟨binary_bufs_sub .., binary_bufs_sub .., binary_bufs_sub .., unary_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    nullary_bufs_sub .., unary_bufs_sub .., binary_bufs_sub .., nullary_bufs_sub .., unary_bufs_sub .., ternary_bufs_sub ..,
    nullary_bufs_sub .., binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub .., binary_bufs_sub ..,
    binary_bufs_sub ..,
    nullary_bufs_sub .., unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub .., binary_bufs_sub ..,
    ternary_bufs_sub ..⟩

/-- Every operation of the second half touches TensorCore buffers only. -/
theorem opsB_sub : (opsB : List (HloOp τ sig (Elt F))).Forall fun op => op.bufs ⊆ tcRefs τ sig :=
  ⟨binary_bufs_sub .., binary_bufs_sub .., binary_bufs_sub .., unary_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    nullary_bufs_sub .., unary_bufs_sub .., binary_bufs_sub .., nullary_bufs_sub .., unary_bufs_sub .., ternary_bufs_sub ..,
    nullary_bufs_sub .., binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub .., binary_bufs_sub ..,
    binary_bufs_sub ..,
    nullary_bufs_sub .., unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub .., binary_bufs_sub ..,
    ternary_bufs_sub ..⟩

theorem ops_sub : (ops : List (HloOp τ sig (Elt F))).Forall fun op => op.bufs ⊆ tcRefs τ sig :=
  List.forall_iff_forall_mem.mpr fun op h =>
    (List.mem_append.mp h).elim (List.forall_iff_forall_mem.mp opsA_sub op) (List.forall_iff_forall_mem.mp opsB_sub op)

/-- Every operation of the first half determines what it writes. -/
theorem opsA_fresh : ∀ op ∈ (opsA : List (HloOp τ sig (Elt F))), op.fresh = ∅ := by
  intro _ h; (repeat (cases h with | head => rfl | tail _ h => ?_)); exact nomatch h

/-- Every operation of the second half determines what it writes. -/
theorem opsB_fresh : ∀ op ∈ (opsB : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  fun op h => (List.mem_append.mp h).elim (opsA_fresh op) (opsB_fresh op)

/-! ## Each half read at a buffer -/

/-- The first half read at its result buffer: one layer of the contents of the five buffers it reads. -/
theorem afterA_out (V : Valuation τ sig (Elt F)) :
    after opsA V (main_v23 : DevRef τ sig)
      = rlayer (V (main_arg0 : DevRef τ sig)) (V (main_arg1 : DevRef τ sig)) (V (main_arg2 : DevRef τ sig))
          (V (main_arg3 : DevRef τ sig)) (V (main_arg4 : DevRef τ sig)) := by
  after_results_simp
  rfl

/-- The first half writes no argument buffer. -/
theorem afterA_args (V : Valuation τ sig (Elt F)) :
    after opsA V (main_arg0 : DevRef τ sig) = V (main_arg0 : DevRef τ sig)
      ∧ after opsA V (main_arg1 : DevRef τ sig) = V (main_arg1 : DevRef τ sig)
      ∧ after opsA V (main_arg2 : DevRef τ sig) = V (main_arg2 : DevRef τ sig)
      ∧ after opsA V (main_arg3 : DevRef τ sig) = V (main_arg3 : DevRef τ sig)
      ∧ after opsA V (main_arg4 : DevRef τ sig) = V (main_arg4 : DevRef τ sig)
      ∧ after opsA V (main_arg5 : DevRef τ sig) = V (main_arg5 : DevRef τ sig)
      ∧ after opsA V (main_arg6 : DevRef τ sig) = V (main_arg6 : DevRef τ sig)
      ∧ after opsA V (main_arg7 : DevRef τ sig) = V (main_arg7 : DevRef τ sig) :=
  ⟨by after_results_simp, by after_results_simp, by after_results_simp, by after_results_simp,
    by after_results_simp, by after_results_simp, by after_results_simp, by after_results_simp⟩

/-- The second half read at its result buffer: one layer of the contents of the five buffers it reads, the first
    of them the first half's result buffer. -/
theorem afterB_out (W : Valuation τ sig (Elt F)) :
    after opsB W (main_v47 : DevRef τ sig)
      = rlayer (W (main_v23 : DevRef τ sig)) (W (main_arg1 : DevRef τ sig)) (W (main_arg5 : DevRef τ sig))
          (W (main_arg6 : DevRef τ sig)) (W (main_arg7 : DevRef τ sig)) := by
  after_results_simp
  rfl

/-- The second half writes no argument buffer. -/
theorem afterB_args (W : Valuation τ sig (Elt F)) :
    after opsB W (main_arg0 : DevRef τ sig) = W (main_arg0 : DevRef τ sig)
      ∧ after opsB W (main_arg1 : DevRef τ sig) = W (main_arg1 : DevRef τ sig)
      ∧ after opsB W (main_arg2 : DevRef τ sig) = W (main_arg2 : DevRef τ sig)
      ∧ after opsB W (main_arg3 : DevRef τ sig) = W (main_arg3 : DevRef τ sig)
      ∧ after opsB W (main_arg4 : DevRef τ sig) = W (main_arg4 : DevRef τ sig)
      ∧ after opsB W (main_arg5 : DevRef τ sig) = W (main_arg5 : DevRef τ sig)
      ∧ after opsB W (main_arg6 : DevRef τ sig) = W (main_arg6 : DevRef τ sig)
      ∧ after opsB W (main_arg7 : DevRef τ sig) = W (main_arg7 : DevRef τ sig) :=
  ⟨by after_results_simp, by after_results_simp, by after_results_simp, by after_results_simp,
    by after_results_simp, by after_results_simp, by after_results_simp, by after_results_simp⟩

/-! ## The whole line read at a buffer -/

/-- The line read at the program's result buffer: the second layer over the first layer's result. -/
theorem after_out (V : Valuation τ sig (Elt F)) :
    after ops V (main_v47 : DevRef τ sig)
      = rout (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  obtain ⟨-, h1, -, -, -, h5, h6, h7⟩ := afterA_args V
  rw [ops, after_append, afterB_out, afterA_out, h1, h5, h6, h7, rout]

/-- The line writes no argument buffer. -/
theorem after_args (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig)
      ∧ after ops V (main_arg5 : DevRef τ sig) = V (main_arg5 : DevRef τ sig)
      ∧ after ops V (main_arg6 : DevRef τ sig) = V (main_arg6 : DevRef τ sig)
      ∧ after ops V (main_arg7 : DevRef τ sig) = V (main_arg7 : DevRef τ sig) := by
  obtain ⟨a0, a1, a2, a3, a4, a5, a6, a7⟩ := afterA_args V
  obtain ⟨b0, b1, b2, b3, b4, b5, b6, b7⟩ := afterB_args (after opsA V)
  simp only [ops, after_append]
  exact ⟨b0.trans a0, b1.trans a1, b2.trans a2, b3.trans a3, b4.trans a4, b5.trans a5, b6.trans a6, b7.trans a7⟩

/-! ## The run -/

/-- On every device, for any float values, from any memory with zero counters: every weakly fair execution of
    @main terminates with the result buffer at `rout` of the eight arguments' launch contents and the
    arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v47) = rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      have ⟨a0, a1, a2, a3, a4, a5, a6, a7⟩ := after_args (launchContents m c)
      ⟨(h c main_v47).trans (after_out (launchContents m c)),
        (h c main_arg0).trans a0, (h c main_arg1).trans a1, (h c main_arg2).trans a2, (h c main_arg3).trans a3,
        (h c main_arg4).trans a4, (h c main_arg5).trans a5, (h c main_arg6).trans a6, (h c main_arg7).trans a7⟩)
    (run_seq scopedRefs_eq scopedSems_eq defs main (fun _ => ops) main_eq (fun _ => ops_sub) m ρ (fun _ => ops_fresh))

end Cert.ReferenceIdeal.Hand

end
-- ==== Proof.RValue.lean ====
/-
  One layer of the reference read entry by entry. Each host operation of the layer is read at an index: the three
  matrix products as sums over the contracted coordinate, the broadcasts and the transpose as re-indexings, the row
  maximum as the fold of max from -∞ over the row, the row total as 0 plus the sum over the row, and the comparisons,
  selects, exponentials and the quotient elementwise. Composed in the layer's order they give, at entry (n, k), exactly
  the expression of the specification's reference arrangement: elu of the sum over j of (w[n,j] / (0 + Σ w[n,·])) · h[j,k].
  No law of arithmetic is needed: the two sides are the same expression, operation by operation.
-/
import proofs.«172533_g75539884802175_cont_sun_m_1234_3_alg».proof.Proof.RLayer
import proofs.«172533_g75539884802175_cont_sun_m_1234_3_alg».proof.Proof.Spec
import Idealize.ShloMosaic.Lib.StackMember
import Idealize.ShloMosaic.Lib.Pipeline.Value
import Idealize.ShloMosaic.Lib.ValueLayout
import Idealize.ShloMosaic.PureOps.Ideal.Laws

noncomputable section

namespace Cert.ReferenceIdeal.HandValue

open Idealize.ShloMosaic Idealize.ShloMosaic.ValueIdx
open Cert.ReferenceIdeal Cert.ReferenceIdeal.Facts₀ Cert.ReferenceIdeal.Hand

/-! ## The layout operations of one layer, each read at an index -/

/-- A scalar spread over the 4096 × 4096 array reads the scalar everywhere. -/
theorem splatNN_apply (c : S_.Idx → EReal) (i : S4096x4096.Idx) :
    broadcastInDim S4096x4096 ![] bcast_S_S4096x4096 c i = c ix0 :=
  broadcastInDim_apply _ _ c i ix0 (fun a => a.elim0)

/-- A scalar spread over the 4096 × 256 array reads the scalar everywhere. -/
theorem splatND_apply (c : S_.Idx → EReal) (i : S4096x256.Idx) :
    broadcastInDim S4096x256 ![] bcast_S_S4096x256 c i = c ix0 :=
  broadcastInDim_apply _ _ c i ix0 (fun a => a.elim0)

/-- A scalar spread over the length-4096 vector reads the scalar everywhere. -/
theorem splatN_apply (c : S_.Idx → EReal) (i : S4096.Idx) :
    broadcastInDim S4096 ![] bcast_S_S4096 c i = c ix0 :=
  broadcastInDim_apply _ _ c i ix0 (fun a => a.elim0)

/-- A column repeated along each row: entry (n, j) is the column's entry n. -/
theorem colNN_apply (v : S4096x1.Idx → EReal) (n j : Fin 4096) :
    broadcastInDim S4096x4096 ![0, 1] bcast_S4096x1_S4096x4096_0_1 v (ix2 n j) = v (ix2 n (0 : Fin 1)) :=
  broadcastInDim_apply _ _ v (ix2 n j) (ix2 n (0 : Fin 1)) (fun a => match a with | ⟨0, _⟩ => rfl | ⟨1, _⟩ => rfl)

/-- A row repeated down each column: entry (n, j) is the row's entry j. -/
theorem rowNN_apply (v : S1x4096.Idx → EReal) (n j : Fin 4096) :
    broadcastInDim S4096x4096 ![0, 1] bcast_S1x4096_S4096x4096_0_1 v (ix2 n j) = v (ix2 (0 : Fin 1) j) :=
  broadcastInDim_apply _ _ v (ix2 n j) (ix2 (0 : Fin 1) j) (fun a => match a with | ⟨0, _⟩ => rfl | ⟨1, _⟩ => rfl)

/-- A vector stood up as a column: entry (n, 0) is the vector's entry n. -/
theorem vecCol_apply (v : S4096.Idx → EReal) (n : Fin 4096) :
    broadcastInDim S4096x1 ![0] bcast_S4096_S4096x1_0 v (ix2 n (0 : Fin 1)) = v (ix1 n) :=
  broadcastInDim_apply _ _ v (ix2 n (0 : Fin 1)) (ix1 n) (fun a => match a with | ⟨0, _⟩ => rfl)

/-- A column laid down as a row: entry (0, j) is the column's entry j. -/
theorem colRow_apply (v : S4096x1.Idx → EReal) (j : Fin 4096) :
    transpose S1x4096 [1, 0] v transposes_S4096x1_S1x4096_1_0 (ix2 (0 : Fin 1) j) = v (ix2 j (0 : Fin 1)) :=
  transpose_ix2_apply v _ (0 : Fin 1) j

/-! ## The elementwise host operations at an index -/

theorem hostExp_apply {s : Shape} (x : FVec Ideal s .f32) (i : s.Idx) : Host.exp x i = Ideal.exp (x i) := rfl
theorem hostExpm1_apply {s : Shape} (x : FVec Ideal s .f32) (i : s.Idx) : Host.expm1 x i = Ideal.exp (x i) - 1 := rfl
theorem hostDivf_apply {s : Shape} (x y : FVec Ideal s .f32) (i : s.Idx) : Host.divf x y i = Ideal.div (x i) (y i) := rfl

/-! ## The three products: each record is the plain rows-by-columns product -/

theorem dot_xW_eq : dot_S4096x256_S256x256_S4096x256_1_0_0_1_n_n = DotDims.plain 4096 256 256 := rfl
theorem dot_hv_eq : dot_S4096x256_S256x1_S4096x1_1_0_0_1_n_n = DotDims.plain 4096 256 1 := rfl
theorem dot_ah_eq : dot_S4096x4096_S4096x256_S4096x256_1_0_0_1_n_n = DotDims.plain 4096 4096 256 := rfl

/-- The projected features at (n, k): the sum over a of x[n,a] · W[a,k]. -/
theorem rfeat_apply (x : FVec Ideal S4096x256 .f32) (W : FVec Ideal S256x256 .f32) (n : Fin 4096) (k : Fin 256) :
    rfeat (F := Ideal) x W (ix2 n k) = Cert.Gat.feat x W n k := by
  unfold rfeat Cert.Gat.feat
  rw [dot_xW_eq]
  exact StackMember.dotGeneral_plain_apply none x W n k

/-- The features against a 256 × 1 column at (n, 0): the inner product of row n with the column. -/
theorem colDot_apply (h : FVec Ideal S4096x256 .f32) (v : FVec Ideal S256x1 .f32) (n : Fin 4096) :
    Host.dotGeneral (F := Ideal) dot_S4096x256_S256x1_S4096x1_1_0_0_1_n_n none h v (ix2 n (0 : Fin 1))
      = ∑ a : Fin 256, h (ix2 n a) * v (ix2 a (0 : Fin 1)) := by
  rw [dot_hv_eq]
  exact StackMember.dotGeneral_plain_apply none h v n (0 : Fin 1)

/-- The weights against the features at (n, k): the sum over j of α[n,j] · h[j,k]. -/
theorem aggDot_apply (al : FVec Ideal S4096x4096 .f32) (h : FVec Ideal S4096x256 .f32) (n : Fin 4096) (k : Fin 256) :
    Host.dotGeneral (F := Ideal) dot_S4096x4096_S4096x256_S4096x256_1_0_0_1_n_n none al h (ix2 n k)
      = ∑ j : Fin 4096, al (ix2 n j) * h (ix2 j k) := by
  rw [dot_ah_eq]
  exact StackMember.dotGeneral_plain_apply none al h n k

/-! ## The two row reductions -/

theorem reduces_row : S4096x4096.Reduces [1] S4096 := by decide

/-- Row n's entries are reached by putting the column coordinate back on axis 1. -/
theorem lift_row (n k : Fin 4096) : reduces_row.lift (ix1 n) k = ix2 n k := by
  funext c
  apply Fin.ext
  match c with
  | ⟨0, _⟩ => rfl
  | ⟨1, _⟩ => rfl

/-- The row maximum from -∞ at n is the fold of max over row n. -/
theorem rowMaxHost_apply (e : FVec Ideal S4096x4096 .f32) (n : Fin 4096) :
    Host.reduce FloatOps.maximumf e (constant (F := Ideal) S_ .f32 0xFF800000#32) reducesTo_S4096x4096_S4096_d1 h_S_ (ix1 n)
      = Cert.Gat.rowMax (fun j => e (ix2 n j)) := by
  refine (Host.reduce_eq_fold_single FloatOps.maximumf e _ reducesTo_S4096x4096_S4096_d1 reduces_row h_S_ (ix1 n)).trans ?_
  have hl : (e ∘ reduces_row.lift (ix1 n)) = fun j : Fin 4096 => e (ix2 n j) :=
    funext fun k => congrArg e (lift_row n k)
  exact congrArg (fun f : Fin 4096 → EReal => Finset.fold max Cert.Gat.negInf f Finset.univ) hl

/-- The row total from 0 at n is 0 plus the sum over row n. -/
theorem rowSumHost_apply (p : FVec Ideal S4096x4096 .f32) (n : Fin 4096) :
    Host.reduceAdd p (constant (F := Ideal) S_ .f32 0x00000000#32) reducesTo_S4096x4096_S4096_d1 h_S_ (ix1 n)
      = Cert.Gat.zero + ∑ j : Fin 4096, p (ix2 n j) := by
  refine (Ideal.hostReduceAdd_single reducesTo_S4096x4096_S4096_d1 reduces_row p _ (ix1 n)).trans ?_
  exact congrArg (fun t => Cert.Gat.zero + t) (Finset.sum_congr rfl fun k _ => congrArg p (lift_row n k))

/-! ## Each part of the layer read at an index -/

/-- leaky_relu with the slope 0.2 as a scalar array. -/
theorem leakyRelu_apply (e : FVec Ideal S4096x4096 .f32) (i : S4096x4096.Idx) :
    leakyRelu (F := Ideal) e (constant S_ .f32 0x3E4CCCCD#32) i = Cert.Gat.leaky (e i) := by
  unfold leakyRelu Cert.Gat.leaky
  rw [select_apply, cmpf_apply, mulf_apply, splatNN_apply, splatNN_apply]
  rfl

/-- The masked logits at (n, j), over any feature array h. -/
theorem rlogits_apply (h : FVec Ideal S4096x256 .f32) (adj : FVec Ideal S4096x4096 .f32) (s d : FVec Ideal S256x1 .f32)
    (n j : Fin 4096) :
    rlogits (F := Ideal) h adj s d (ix2 n j)
      = Cert.Gat.masked (adj (ix2 n j)) (Cert.Gat.leaky
          ((∑ a : Fin 256, h (ix2 n a) * s (ix2 a (0 : Fin 1))) + ∑ a : Fin 256, h (ix2 j a) * d (ix2 a (0 : Fin 1)))) := by
  unfold rlogits Cert.Gat.masked
  rw [select_apply, cmpf_apply, splatNN_apply, splatNN_apply, leakyRelu_apply, addf_apply, colNN_apply, rowNN_apply,
    colRow_apply, colDot_apply, colDot_apply]
  rfl

/-- Over the projected features the masked logits are the specification's row. -/
theorem rlogits_rfeat (x : FVec Ideal S4096x256 .f32) (adj : FVec Ideal S4096x4096 .f32) (W : FVec Ideal S256x256 .f32)
    (s d : FVec Ideal S256x1 .f32) (n j : Fin 4096) :
    rlogits (F := Ideal) (rfeat x W) adj s d (ix2 n j) = Cert.Gat.rowR x adj W s d n j := by
  rw [rlogits_apply]
  unfold Cert.Gat.rowR Cert.Gat.srcT Cert.Gat.dstR
  simp only [rfeat_apply]

/-- The unnormalised weights at (n, j), over logits known entry by entry. -/
theorem rweights_apply (e : FVec Ideal S4096x4096 .f32) (r : Fin 4096 → Fin 4096 → EReal)
    (he : ∀ n j, e (ix2 n j) = r n j) (n j : Fin 4096) :
    rweights (F := Ideal) e (ix2 n j) = Ideal.exp (r n j - max Cert.Gat.negInf (Cert.Gat.rowMax (r n))) := by
  unfold rweights
  rw [hostExp_apply, subf_apply, colNN_apply, vecCol_apply, maximumf_apply, splatN_apply, rowMaxHost_apply, he n j,
    show (fun j' => e (ix2 n j')) = r n from funext (he n)]
  rfl

/-- The normalised weights at (n, j), over weights known entry by entry. -/
theorem ralpha_apply (p : FVec Ideal S4096x4096 .f32) (w : Fin 4096 → Fin 4096 → EReal)
    (hp : ∀ n j, p (ix2 n j) = w n j) (n j : Fin 4096) :
    ralpha (F := Ideal) p (ix2 n j) = Ideal.div (w n j) (Cert.Gat.zero + ∑ j' : Fin 4096, w n j') := by
  unfold ralpha
  rw [hostDivf_apply, colNN_apply, vecCol_apply, rowSumHost_apply, hp n j,
    show (fun j' => p (ix2 n j')) = w n from funext (hp n)]

/-- elu at an index. -/
theorem eluHost_apply (a : FVec Ideal S4096x256 .f32) (i : S4096x256.Idx) :
    eluHost (F := Ideal) a i = Cert.Gat.eluR (a i) := by
  unfold eluHost Cert.Gat.eluR
  rw [select_apply, cmpf_apply, mulf_apply, hostExpm1_apply, select_apply, cmpf_apply, splatND_apply, splatND_apply,
    splatND_apply]
  rfl

/-! ## The layer -/

/-- One layer of the reference is the specification's reference arrangement, entry by entry. -/
theorem rlayer_eq (x : FVec Ideal S4096x256 .f32) (adj : FVec Ideal S4096x4096 .f32) (W : FVec Ideal S256x256 .f32)
    (s d : FVec Ideal S256x1 .f32) :
    Cert.ReferenceIdeal.Hand.rlayer (F := Ideal) x adj W s d = Cert.Gat.layerR x adj W s d := by
  funext i
  obtain ⟨n, k, rfl⟩ : ∃ (n : Fin 4096) (k : Fin 256), i = ix2 n k := ⟨i 0, i 1, eq_ix2 i⟩
  have hW : ∀ n j, rweights (F := Ideal) (rlogits (rfeat x W) adj s d) (ix2 n j) = Cert.Gat.wR x adj W s d n j :=
    fun n j => rweights_apply _ (Cert.Gat.rowR x adj W s d) (rlogits_rfeat x adj W s d) n j
  have hA := ralpha_apply _ (Cert.Gat.wR x adj W s d) hW
  unfold rlayer
  rw [eluHost_apply, aggDot_apply]
  show Cert.Gat.eluR _ = Cert.Gat.eluR (Cert.Gat.aggR x adj W s d n k)
  unfold Cert.Gat.aggR
  exact congrArg Cert.Gat.eluR (Finset.sum_congr rfl fun j _ => by rw [hA n j, rfeat_apply])

end Cert.ReferenceIdeal.HandValue

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.AllReal.lean ====
/-
  "Every entry is a real number": the finiteness the layer's algebra needs of its float operands, stated once
  for arrays of extended reals of any shape.
-/
import proofs.«172533_g75539884802175_cont_sun_m_1234_3_alg».proof.Proof.LibERealSage

namespace Cert.Gat

open Idealize.ShloMosaic

/-- Every entry of the array is a real number (neither infinity). -/
def AllReal {S : Shape} (x : S.Idx → EReal) : Prop := ∀ i, Cert.LibERealSage.IsReal (x i)

end Cert.Gat
-- ==== Proof.LibSoftmaxMerge.lean ====
/-
  Softmax merge algebra on the extended reals.

  A softmax over a finite key set can be computed blockwise: each block S carries its
  maximum (top σ S), its shifted denominator den σ S (top σ S) = ∑_{j∈S} exp (σ j - top σ S)
  and its shifted numerator num σ ν S (top σ S) = ∑_{j∈S} exp (σ j - top σ S) * ν j.
  Two blocks are joined by rescaling each to the common maximum; this file proves that the
  joined state is the state of the union, for real-valued scores and values, with the
  extended-real exponential Ideal.exp (exp ⊥ = 0, exp ⊤ = ⊤, exp ↑r = ↑(Real.exp r)).

  Method throughout: choose real witnesses for the scores and values, prove the identity in
  ℝ (Real.exp_add, distributivity of finite sums), and push the coercion ℝ → EReal
  through sums, products and differences.
-/
import Idealize.ShloMosaic.PureOps.Ideal
import Mathlib.Data.EReal.Basic
import Mathlib.Data.EReal.Operations
import Mathlib.Analysis.SpecialFunctions.Exp
import Mathlib.Algebra.BigOperators.Group.Finset.Basic
import Mathlib.Algebra.BigOperators.Ring.Finset
import Mathlib.Data.Finset.Lattice.Fold

open Idealize.ShloMosaic
open scoped BigOperators

namespace Cert.Hand.SoftmaxMerge

/-! ### The three quantities of a block -/

/-- The maximum score of a block (⊥ for the empty block). -/
noncomputable def top {J : Type*} (σ : J → EReal) (S : Finset J) : EReal := S.sup σ

/-- The denominator of a block, shifted by M: ∑_{j∈S} exp (σ j - M). -/
noncomputable def den {J : Type*} (σ : J → EReal) (S : Finset J) (M : EReal) : EReal :=
  ∑ j ∈ S, Ideal.exp (σ j - M)

/-- The numerator of a block, shifted by M: ∑_{j∈S} exp (σ j - M) * ν j. -/
noncomputable def num {J : Type*} (σ ν : J → EReal) (S : Finset J) (M : EReal) : EReal :=
  ∑ j ∈ S, Ideal.exp (σ j - M) * ν j

/-! ### Coercion helpers -/

/-- The coercion ℝ → EReal commutes with finite sums. -/
theorem coe_sum {J : Type*} [DecidableEq J] (S : Finset J) (f : J → ℝ) :
    ((∑ j ∈ S, f j : ℝ) : EReal) = ∑ j ∈ S, (f j : EReal) := by
  induction S using Finset.induction_on with
  | empty => simp
  | insert a s ha ih => rw [Finset.sum_insert ha, Finset.sum_insert ha, EReal.coe_add, ih]

/-- The coercion ℝ → EReal commutes with max. -/
theorem coe_max (a b : ℝ) : ((max a b : ℝ) : EReal) = max (a : EReal) (b : EReal) :=
  EReal.coe_strictMono.monotone.map_max

/-- exp of a difference of two reals, at the extended reals. -/
theorem exp_coe_sub (a b : ℝ) :
    Ideal.exp ((a : EReal) - (b : EReal)) = ((Real.exp (a - b) : ℝ) : EReal) := by
  rw [← EReal.coe_sub, Ideal.exp_coe]

/-- A real-valued family is the coercion of a real family. -/
theorem exists_real_fun {J : Type*} (σ : J → EReal) (hσ : ∀ j, ∃ r : ℝ, σ j = (r : EReal)) :
    ∃ s : J → ℝ, σ = fun j => (s j : EReal) := by
  choose s hs using hσ
  exact ⟨s, funext hs⟩

/-- The denominator of a real-valued block at a real shift, as a real sum. -/
theorem den_coe {J : Type*} [DecidableEq J] (s : J → ℝ) (S : Finset J) (M : ℝ) :
    den (fun j => (s j : EReal)) S (M : EReal)
      = ((∑ j ∈ S, Real.exp (s j - M) : ℝ) : EReal) := by
  unfold den
  rw [coe_sum]
  exact Finset.sum_congr rfl (fun j _ => exp_coe_sub (s j) M)

/-- The numerator of a real-valued block at a real shift, as a real sum. -/
theorem num_coe {J : Type*} [DecidableEq J] (s v : J → ℝ) (S : Finset J) (M : ℝ) :
    num (fun j => (s j : EReal)) (fun j => (v j : EReal)) S (M : EReal)
      = ((∑ j ∈ S, Real.exp (s j - M) * v j : ℝ) : EReal) := by
  unfold num
  rw [coe_sum]
  refine Finset.sum_congr rfl (fun j _ => ?_)
  rw [exp_coe_sub, ← EReal.coe_mul]

/-! ### (A) The maximum -/

/-- The maximum of a nonempty real-valued block is real. -/
theorem top_real {J : Type*} [DecidableEq J] (σ : J → EReal)
    (hσ : ∀ j, ∃ r : ℝ, σ j = (r : EReal)) (S : Finset J) (hS : S.Nonempty) :
    ∃ r : ℝ, top σ S = (r : EReal) := by
  obtain ⟨i, _, hi⟩ := Finset.exists_mem_eq_sup S hS σ
  obtain ⟨r, hr⟩ := hσ i
  exact ⟨r, by rw [top, hi, hr]⟩

/-- The maximum of a union is the larger of the two maxima. -/
theorem top_union {J : Type*} [DecidableEq J] (σ : J → EReal) (S T : Finset J) :
    top σ (S ∪ T) = max (top σ S) (top σ T) := by
  unfold top
  exact Finset.sup_union

/-- The maximum of the empty block is ⊥. -/
theorem top_empty {J : Type*} (σ : J → EReal) : top σ (∅ : Finset J) = ⊥ := by
  unfold top
  exact Finset.sup_empty

/-! ### (B) Denominator and numerator are real at a real shift -/

/-- The denominator of a real-valued block at a real shift is real. -/
theorem den_real {J : Type*} [DecidableEq J] (σ : J → EReal)
    (hσ : ∀ j, ∃ r : ℝ, σ j = (r : EReal)) (S : Finset J) (M : ℝ) :
    ∃ r : ℝ, den σ S (M : EReal) = (r : EReal) := by
  obtain ⟨s, rfl⟩ := exists_real_fun σ hσ
  exact ⟨_, den_coe s S M⟩

/-- The numerator of a real-valued block at a real shift is real. -/
theorem num_real {J : Type*} [DecidableEq J] (σ ν : J → EReal)
    (hσ : ∀ j, ∃ r : ℝ, σ j = (r : EReal)) (hν : ∀ j, ∃ r : ℝ, ν j = (r : EReal))
    (S : Finset J) (M : ℝ) :
    ∃ r : ℝ, num σ ν S (M : EReal) = (r : EReal) := by
  obtain ⟨s, rfl⟩ := exists_real_fun σ hσ
  obtain ⟨v, rfl⟩ := exists_real_fun ν hν
  exact ⟨_, num_coe s v S M⟩

/-! ### Rescaling a block and splitting a union -/

/-- Rescaling a denominator from the real shift a to the real shift c:
    (∑ exp (σ j - a)) * exp (a - c) = ∑ exp (σ j - c). -/
theorem den_rescale {J : Type*} [DecidableEq J] (σ : J → EReal)
    (hσ : ∀ j, ∃ r : ℝ, σ j = (r : EReal)) (S : Finset J) (a c : ℝ) :
    den σ S (a : EReal) * Ideal.exp ((a : EReal) - (c : EReal)) = den σ S (c : EReal) := by
  obtain ⟨s, rfl⟩ := exists_real_fun σ hσ
  rw [den_coe, den_coe, exp_coe_sub, ← EReal.coe_mul, Finset.sum_mul]
  congr 1
  refine Finset.sum_congr rfl (fun j _ => ?_)
  rw [← Real.exp_add]
  congr 1
  ring

/-- Rescaling a numerator from the real shift a to the real shift c:
    (∑ exp (σ j - a) * ν j) * exp (a - c) = ∑ exp (σ j - c) * ν j. -/
theorem num_rescale {J : Type*} [DecidableEq J] (σ ν : J → EReal)
    (hσ : ∀ j, ∃ r : ℝ, σ j = (r : EReal)) (hν : ∀ j, ∃ r : ℝ, ν j = (r : EReal))
    (S : Finset J) (a c : ℝ) :
    num σ ν S (a : EReal) * Ideal.exp ((a : EReal) - (c : EReal)) = num σ ν S (c : EReal) := by
  obtain ⟨s, rfl⟩ := exists_real_fun σ hσ
  obtain ⟨v, rfl⟩ := exists_real_fun ν hν
  rw [num_coe, num_coe, exp_coe_sub, ← EReal.coe_mul, Finset.sum_mul]
  congr 1
  refine Finset.sum_congr rfl (fun j _ => ?_)
  have h : Real.exp (s j - c) = Real.exp (s j - a) * Real.exp (a - c) := by
    rw [← Real.exp_add]
    congr 1
    ring
  rw [h]
  ring

/-- The denominator of a disjoint union, at one common shift, is the sum of the two. -/
theorem den_union {J : Type*} [DecidableEq J] (σ : J → EReal) (S T : Finset J)
    (hST : Disjoint S T) (M : EReal) :
    den σ S M + den σ T M = den σ (S ∪ T) M := by
  unfold den
  exact (Finset.sum_union hST).symm

/-- The numerator of a disjoint union, at one common shift, is the sum of the two. -/
theorem num_union {J : Type*} [DecidableEq J] (σ ν : J → EReal) (S T : Finset J)
    (hST : Disjoint S T) (M : EReal) :
    num σ ν S M + num σ ν T M = num σ ν (S ∪ T) M := by
  unfold num
  exact (Finset.sum_union hST).symm

/-- The denominator of the empty block is 0. -/
theorem den_empty {J : Type*} (σ : J → EReal) (M : EReal) : den σ (∅ : Finset J) M = 0 := by
  unfold den
  exact Finset.sum_empty

/-- The numerator of the empty block is 0. -/
theorem num_empty {J : Type*} (σ ν : J → EReal) (M : EReal) :
    num σ ν (∅ : Finset J) M = 0 := by
  unfold num
  exact Finset.sum_empty

/-! ### (C) Merge of two partial results -/

/-- Tree merge of denominators: each block rescaled from its own maximum to the common
    maximum, then added, is the denominator of the union at the common maximum. -/
theorem den_merge {J : Type*} [DecidableEq J] (σ : J → EReal)
    (hσ : ∀ j, ∃ r : ℝ, σ j = (r : EReal)) (S T : Finset J)
    (hS : S.Nonempty) (hT : T.Nonempty) (hST : Disjoint S T) :
    den σ S (top σ S) * Ideal.exp (top σ S - max (top σ S) (top σ T))
        + den σ T (top σ T) * Ideal.exp (top σ T - max (top σ S) (top σ T))
      = den σ (S ∪ T) (max (top σ S) (top σ T)) := by
  obtain ⟨a, ha⟩ := top_real σ hσ S hS
  obtain ⟨b, hb⟩ := top_real σ hσ T hT
  rw [ha, hb, ← coe_max, den_rescale σ hσ S, den_rescale σ hσ T, den_union σ S T hST]

/-- Tree merge of numerators: each block rescaled from its own maximum to the common
    maximum, then added, is the numerator of the union at the common maximum. -/
theorem num_merge {J : Type*} [DecidableEq J] (σ ν : J → EReal)
    (hσ : ∀ j, ∃ r : ℝ, σ j = (r : EReal)) (hν : ∀ j, ∃ r : ℝ, ν j = (r : EReal))
    (S T : Finset J) (hS : S.Nonempty) (hT : T.Nonempty) (hST : Disjoint S T) :
    num σ ν S (top σ S) * Ideal.exp (top σ S - max (top σ S) (top σ T))
        + num σ ν T (top σ T) * Ideal.exp (top σ T - max (top σ S) (top σ T))
      = num σ ν (S ∪ T) (max (top σ S) (top σ T)) := by
  obtain ⟨a, ha⟩ := top_real σ hσ S hS
  obtain ⟨b, hb⟩ := top_real σ hσ T hT
  rw [ha, hb, ← coe_max, num_rescale σ ν hσ hν S, num_rescale σ ν hσ hν T,
    num_union σ ν S T hST]

/-- Merge of denominators at arbitrary real shifts a, b (one per block) and c (common). -/
theorem den_merge_at {J : Type*} [DecidableEq J] (σ : J → EReal)
    (hσ : ∀ j, ∃ r : ℝ, σ j = (r : EReal)) (S T : Finset J) (hST : Disjoint S T)
    (a b c : ℝ) :
    den σ S (a : EReal) * Ideal.exp ((a : EReal) - (c : EReal))
        + den σ T (b : EReal) * Ideal.exp ((b : EReal) - (c : EReal))
      = den σ (S ∪ T) (c : EReal) := by
  rw [den_rescale σ hσ S, den_rescale σ hσ T, den_union σ S T hST]

/-- Merge of numerators at arbitrary real shifts a, b (one per block) and c (common). -/
theorem num_merge_at {J : Type*} [DecidableEq J] (σ ν : J → EReal)
    (hσ : ∀ j, ∃ r : ℝ, σ j = (r : EReal)) (hν : ∀ j, ∃ r : ℝ, ν j = (r : EReal))
    (S T : Finset J) (hST : Disjoint S T) (a b c : ℝ) :
    num σ ν S (a : EReal) * Ideal.exp ((a : EReal) - (c : EReal))
        + num σ ν T (b : EReal) * Ideal.exp ((b : EReal) - (c : EReal))
      = num σ ν (S ∪ T) (c : EReal) := by
  rw [num_rescale σ ν hσ hν S, num_rescale σ ν hσ hν T, num_union σ ν S T hST]

/-! ### (D) One step of the sequential pass -/

/-- Online step for the denominator: the running state rescaled from the old maximum to the
    new one, plus the new block taken directly at the new maximum. -/
theorem den_online {J : Type*} [DecidableEq J] (σ : J → EReal)
    (hσ : ∀ j, ∃ r : ℝ, σ j = (r : EReal)) (S T : Finset J)
    (hS : S.Nonempty) (hT : T.Nonempty) (hST : Disjoint S T) :
    den σ S (top σ S) * Ideal.exp (top σ S - max (top σ S) (top σ T))
        + den σ T (max (top σ S) (top σ T))
      = den σ (S ∪ T) (max (top σ S) (top σ T)) := by
  obtain ⟨a, ha⟩ := top_real σ hσ S hS
  obtain ⟨b, hb⟩ := top_real σ hσ T hT
  rw [ha, hb, ← coe_max, den_rescale σ hσ S, den_union σ S T hST]

/-- Online step for the numerator: the running state rescaled from the old maximum to the
    new one, plus the new block taken directly at the new maximum. -/
theorem num_online {J : Type*} [DecidableEq J] (σ ν : J → EReal)
    (hσ : ∀ j, ∃ r : ℝ, σ j = (r : EReal)) (hν : ∀ j, ∃ r : ℝ, ν j = (r : EReal))
    (S T : Finset J) (hS : S.Nonempty) (hT : T.Nonempty) (hST : Disjoint S T) :
    num σ ν S (top σ S) * Ideal.exp (top σ S - max (top σ S) (top σ T))
        + num σ ν T (max (top σ S) (top σ T))
      = num σ ν (S ∪ T) (max (top σ S) (top σ T)) := by
  obtain ⟨a, ha⟩ := top_real σ hσ S hS
  obtain ⟨b, hb⟩ := top_real σ hσ T hT
  rw [ha, hb, ← coe_max, num_rescale σ ν hσ hν S, num_union σ ν S T hST]

/-! ### (E) The first step, from the empty state (⊥, 0, 0) -/

/-- From the empty state the new maximum is the block's own maximum. -/
theorem top_first {J : Type*} (σ : J → EReal) (T : Finset J) :
    max (⊥ : EReal) (top σ T) = top σ T :=
  max_bot_left _

/-- In the extended reals ⊥ - m = ⊥, so the rescaling factor of the empty state is
    exp ⊥ = 0. -/
theorem exp_bot_sub (m : EReal) : Ideal.exp ((⊥ : EReal) - m) = 0 := by
  rw [EReal.bot_sub, Ideal.exp_bot]

/-- First online step for the denominator: the empty state contributes nothing. -/
theorem den_first {J : Type*} (σ : J → EReal) (T : Finset J) :
    (0 : EReal) * Ideal.exp ((⊥ : EReal) - max (⊥ : EReal) (top σ T))
        + den σ T (max (⊥ : EReal) (top σ T))
      = den σ T (top σ T) := by
  rw [top_first, zero_mul, zero_add]

/-- First online step for the numerator: the empty state contributes nothing. -/
theorem num_first {J : Type*} (σ ν : J → EReal) (T : Finset J) :
    (0 : EReal) * Ideal.exp ((⊥ : EReal) - max (⊥ : EReal) (top σ T))
        + num σ ν T (max (⊥ : EReal) (top σ T))
      = num σ ν T (top σ T) := by
  rw [top_first, zero_mul, zero_add]

/-! ### (F) Pulling a real scale out of a contraction -/

/-- A real factor on the left operand of a finite contraction comes out of the sum
    (over any finite index set). -/
theorem scale_out_finset {D : Type*} [DecidableEq D] (a b : D → EReal)
    (ha : ∀ d, ∃ r : ℝ, a d = (r : EReal)) (hb : ∀ d, ∃ r : ℝ, b d = (r : EReal))
    (S : Finset D) (κ : ℝ) :
    ∑ d ∈ S, (a d * (κ : EReal)) * b d = (∑ d ∈ S, a d * b d) * (κ : EReal) := by
  obtain ⟨x, rfl⟩ := exists_real_fun a ha
  obtain ⟨y, rfl⟩ := exists_real_fun b hb
  have h1 : ∀ d, ((x d : EReal) * (κ : EReal)) * (y d : EReal) = ((x d * κ * y d : ℝ) : EReal) := by
    intro d
    rw [EReal.coe_mul, EReal.coe_mul]
  have h2 : ∀ d, (x d : EReal) * (y d : EReal) = ((x d * y d : ℝ) : EReal) := by
    intro d
    rw [EReal.coe_mul]
  rw [Finset.sum_congr rfl (fun d _ => h1 d), Finset.sum_congr rfl (fun d _ => h2 d),
    ← coe_sum, ← coe_sum, ← EReal.coe_mul, Finset.sum_mul]
  congr 1
  refine Finset.sum_congr rfl (fun d _ => ?_)
  ring

/-- A real factor on the left operand of a contraction over a finite type comes out of
    the sum. -/
theorem scale_out {D : Type*} [Fintype D] [DecidableEq D] (a b : D → EReal)
    (ha : ∀ d, ∃ r : ℝ, a d = (r : EReal)) (hb : ∀ d, ∃ r : ℝ, b d = (r : EReal)) (κ : ℝ) :
    ∑ d, (a d * (κ : EReal)) * b d = (∑ d, a d * b d) * (κ : EReal) :=
  scale_out_finset a b ha hb Finset.univ κ

/-- The same with the scale given as a real-valued extended real. -/
theorem scale_out' {D : Type*} [Fintype D] [DecidableEq D] (a b : D → EReal)
    (ha : ∀ d, ∃ r : ℝ, a d = (r : EReal)) (hb : ∀ d, ∃ r : ℝ, b d = (r : EReal))
    (κ : EReal) (hκ : ∃ r : ℝ, κ = (r : EReal)) :
    ∑ d, (a d * κ) * b d = (∑ d, a d * b d) * κ := by
  obtain ⟨k, rfl⟩ := hκ
  exact scale_out a b ha hb k

/-- The same with the real factor on the right operand. -/
theorem scale_out_right {D : Type*} [Fintype D] [DecidableEq D] (a b : D → EReal)
    (ha : ∀ d, ∃ r : ℝ, a d = (r : EReal)) (hb : ∀ d, ∃ r : ℝ, b d = (r : EReal)) (κ : ℝ) :
    ∑ d, a d * (b d * (κ : EReal)) = (∑ d, a d * b d) * (κ : EReal) := by
  rw [← scale_out a b ha hb κ]
  refine Finset.sum_congr rfl (fun d _ => ?_)
  rw [← mul_assoc, mul_right_comm]

end Cert.Hand.SoftmaxMerge

/-- info: 'Cert.Hand.SoftmaxMerge.den_merge' depends on axioms: [propext, Classical.choice, Quot.sound] -/
#guard_msgs in #print axioms Cert.Hand.SoftmaxMerge.den_merge

/-- info: 'Cert.Hand.SoftmaxMerge.num_merge' depends on axioms: [propext, Classical.choice, Quot.sound] -/
#guard_msgs in #print axioms Cert.Hand.SoftmaxMerge.num_merge

/-- info: 'Cert.Hand.SoftmaxMerge.den_online' depends on axioms: [propext, Classical.choice, Quot.sound] -/
#guard_msgs in #print axioms Cert.Hand.SoftmaxMerge.den_online

/-- info: 'Cert.Hand.SoftmaxMerge.num_online' depends on axioms: [propext, Classical.choice, Quot.sound] -/
#guard_msgs in #print axioms Cert.Hand.SoftmaxMerge.num_online

/-- info: 'Cert.Hand.SoftmaxMerge.den_first' depends on axioms: [propext, Classical.choice, Quot.sound] -/
#guard_msgs in #print axioms Cert.Hand.SoftmaxMerge.den_first

/-- info: 'Cert.Hand.SoftmaxMerge.num_first' depends on axioms: [propext, Classical.choice, Quot.sound] -/
#guard_msgs in #print axioms Cert.Hand.SoftmaxMerge.num_first

/-- info: 'Cert.Hand.SoftmaxMerge.scale_out' depends on axioms: [propext, Classical.choice, Quot.sound] -/
#guard_msgs in #print axioms Cert.Hand.SoftmaxMerge.scale_out

/-- info: 'Cert.Hand.SoftmaxMerge.scale_out_right' depends on axioms: [propext, Classical.choice, Quot.sound] -/
#guard_msgs in #print axioms Cert.Hand.SoftmaxMerge.scale_out_right

/-- info: 'Cert.Hand.SoftmaxMerge.den_merge_at' depends on axioms: [propext, Classical.choice, Quot.sound] -/
#guard_msgs in #print axioms Cert.Hand.SoftmaxMerge.den_merge_at

/-- info: 'Cert.Hand.SoftmaxMerge.num_merge_at' depends on axioms: [propext, Classical.choice, Quot.sound] -/
#guard_msgs in #print axioms Cert.Hand.SoftmaxMerge.num_merge_at
-- ==== Proof.Algebra.lean ====
/-
  The two arrangements of the dense graph-attention layer agree when every entry of the features, the
  weight matrix and the two attention vectors is a real number, and the common value is real.

  The road: every intermediate quantity (the projected features, the two components of a logit, the masked
  logits, the row maximum, the weights exp(e - m), their total) is a real number; the destination component
  is the same sum with commuted factors; the maximum folded from -∞ twice is the maximum folded once; the
  total of the weights is a positive real, so dividing the weighted sum by it is multiplying by its
  reciprocal, and a real factor moves through a finite sum of products of reals; the two spellings of elu
  agree at every extended real because the word 0x3F800000 denotes 1.
-/
import Mathlib.Data.Finset.Lattice.Fold
import Mathlib.Algebra.Order.BigOperators.Group.Finset
import Mathlib.Analysis.Complex.Exponential
import proofs.«172533_g75539884802175_cont_sun_m_1234_3_alg».proof.Proof.Spec
import proofs.«172533_g75539884802175_cont_sun_m_1234_3_alg».proof.Proof.AllReal
import proofs.«172533_g75539884802175_cont_sun_m_1234_3_alg».proof.Proof.LibERealSage
import proofs.«172533_g75539884802175_cont_sun_m_1234_3_alg».proof.Proof.LibSoftmaxMerge

noncomputable section

namespace Cert.Gat

open Idealize.ShloMosaic Idealize.ShloMosaic.ValueIdx
open Cert.LibERealSage

/-! ### The five literals -/

/-- The word 0x00000000 denotes 0. -/
theorem zero_eq : zero = 0 := Ideal.ofBits_zero_f32

/-- The word 0x3F800000 denotes 1. -/
theorem one_eq : one = 1 := by
  unfold one
  simp [Ideal.ofBits, Ideal.ieee, -EReal.coe_mul]
  norm_num

/-- The word 0xFF800000 denotes -∞. -/
theorem negInf_eq : negInf = ⊥ := by
  unfold negInf
  simp [Ideal.ofBits, Ideal.ieee]

/-- The slope of leaky_relu, 13421773 / 2^26, is a real number. -/
theorem isReal_slope : IsReal slope := by
  unfold slope
  simp [Ideal.ofBits, Ideal.ieee, -EReal.coe_mul]
  exact isReal_coe _

/-- The masking value, -(15625000 · 2^6) = -10^9, is a real number. -/
theorem isReal_negBig : IsReal negBig := by
  unfold negBig
  simp [Ideal.ofBits, Ideal.ieee, -EReal.coe_mul]
  exact isReal_neg (isReal_coe _)

/-! ### Selection, leaky_relu, the mask -/

/-- A selection between two real numbers is a real number, whatever the condition. -/
theorem isReal_select (c : BitVec 1) {a b : EReal} (ha : IsReal a) (hb : IsReal b) :
    IsReal (Scalar.select c a b) := by
  unfold Scalar.select
  split
  · exact ha
  · exact hb

/-- leaky_relu of a real number is v or slope · v, a real number. -/
theorem isReal_leaky {v : EReal} (hv : IsReal v) : IsReal (leaky v) :=
  isReal_select _ hv (isReal_mul isReal_slope hv)

/-- A masked real logit is the logit or -10^9, a real number, whatever the adjacency entry. -/
theorem isReal_masked (a : EReal) {v : EReal} (hv : IsReal v) : IsReal (masked a v) :=
  isReal_select _ hv isReal_negBig

/-! ### The row maximum -/

/-- Folding max from -∞ over a finite set is the supremum over the set. -/
theorem fold_max_bot_eq_sup {ι : Type*} (S : Finset ι) (e : ι → EReal) :
    S.fold max (⊥ : EReal) e = S.sup e := rfl

/-- The maximum of a row of 4096 real logits is one of them, hence a real number. -/
theorem isReal_rowMax {e : Fin 4096 → EReal} (he : ∀ j, IsReal (e j)) : IsReal (rowMax e) := by
  unfold rowMax
  rw [negInf_eq, fold_max_bot_eq_sup]
  obtain ⟨i, _, hi⟩ :=
    Finset.exists_mem_eq_sup Finset.univ ⟨(0 : Fin 4096), Finset.mem_univ _⟩ e
  rw [hi]
  exact he i

/-! ### The normalisation law, over any nonempty finite index type -/

section Normalise

variable {J : Type*} [Fintype J] [DecidableEq J] [Nonempty J]

/-- The total of positive real weights is a nonzero real number. -/
theorem total_real (w : J → EReal) (hw : ∀ j, ∃ u : ℝ, 0 < u ∧ w j = (u : EReal)) :
    ∃ Z : ℝ, Z ≠ 0 ∧ ∑ j, w j = (Z : EReal) := by
  choose u hu hwu using hw
  refine ⟨∑ j, u j, ne_of_gt (Finset.sum_pos (fun j _ => hu j) Finset.univ_nonempty), ?_⟩
  rw [Cert.Hand.SoftmaxMerge.coe_sum]
  exact Finset.sum_congr rfl (fun j _ => hwu j)

/-- (Σ_j w_j · h_j) / z = Σ_j (w_j / (0 + z)) · h_j for positive real weights with total z and real h:
    division by the nonzero real z is the product with 1/z, and a real factor moves through the sum. -/
theorem div_sum_eq_sum_div (w h : J → EReal) (hw : ∀ j, ∃ u : ℝ, 0 < u ∧ w j = (u : EReal))
    (hh : ∀ j, IsReal (h j)) :
    Ideal.div (∑ j, w j * h j) (∑ j, w j)
      = ∑ j, Ideal.div (w j) (zero + ∑ j', w j') * h j := by
  obtain ⟨Z, hZ0, hZ⟩ := total_real w hw
  rw [zero_eq, zero_add, hZ, Ideal.div_coe hZ0]
  simp only [Ideal.div_coe hZ0]
  exact (Cert.Hand.SoftmaxMerge.scale_out' w h (fun j => ⟨(hw j).choose, (hw j).choose_spec.2⟩) hh _
    ⟨_, rfl⟩).symm

/-- The normalised aggregate of real rows is a real number. -/
theorem isReal_sum_div (w h : J → EReal) (hw : ∀ j, ∃ u : ℝ, 0 < u ∧ w j = (u : EReal))
    (hh : ∀ j, IsReal (h j)) :
    IsReal (∑ j, Ideal.div (w j) (zero + ∑ j', w j') * h j) := by
  obtain ⟨Z, hZ0, hZ⟩ := total_real w hw
  rw [zero_eq, zero_add, hZ]
  exact isReal_sum_univ _ (fun j =>
    isReal_mul (isReal_div ⟨(hw j).choose, (hw j).choose_spec.2⟩ hZ0) (hh j))

end Normalise

/-! ### The two spellings of elu -/

/-- The two spellings agree at every extended real: where v > 0 both give v, elsewhere the inner
    selection gives v back and 1 · (exp v - 1) = exp v - 1. -/
theorem eluK_eq_eluR (v : EReal) : eluK v = eluR v := by
  unfold eluK eluR Scalar.select
  by_cases h : Ideal.cmp .ogt v zero = 1
  · simp only [if_pos h]
  · simp only [if_neg h, one_eq, one_mul]

/-- elu of a real number is v or exp v - 1, a real number. -/
theorem isReal_eluR {v : EReal} (hv : IsReal v) : IsReal (eluR v) := by
  unfold eluR
  refine isReal_select _ hv ?_
  obtain ⟨r, hr⟩ := isReal_select (Ideal.cmp .ogt v zero) (zero_eq ▸ isReal_zero) hv
  rw [hr, Ideal.exp_coe, one_eq, one_mul]
  exact ⟨Real.exp r - 1, by rw [EReal.coe_sub, EReal.coe_one]⟩

/-! ### The layer -/

section Layer

variable {x : SNxD.Idx → EReal} {adj : SNxN.Idx → EReal} {W : SDxD.Idx → EReal}
  {s d : SDx1.Idx → EReal}

/-- An entry of h = x·W is a sum of 256 products of reals. -/
theorem isReal_feat (hx : AllReal x) (hW : AllReal W) (n : Fin 4096) (k : Fin 256) :
    IsReal (feat x W n k) :=
  isReal_sum_univ _ (fun a => isReal_mul (hx (ix2 n a)) (hW (ix2 a k)))

/-- The source component of a logit is real. -/
theorem isReal_srcT (hx : AllReal x) (hW : AllReal W) (hs : AllReal s) (n : Fin 4096) :
    IsReal (srcT x W s n) :=
  isReal_sum_univ _ (fun a => isReal_mul (isReal_feat hx hW n a) (hs (ix2 a (0 : Fin 1))))

/-- The destination component does not depend on the order of its factors. -/
theorem dstK_eq_dstR (j : Fin 4096) : dstK x W d j = dstR x W d j :=
  Finset.sum_congr rfl (fun _ _ => mul_comm _ _)

/-- The destination component of a logit is real. -/
theorem isReal_dstR (hx : AllReal x) (hW : AllReal W) (hd : AllReal d) (j : Fin 4096) :
    IsReal (dstR x W d j) :=
  isReal_sum_univ _ (fun a => isReal_mul (isReal_feat hx hW j a) (hd (ix2 a (0 : Fin 1))))

/-- The two rows of masked logits are the same row. -/
theorem rowK_eq_rowR (n : Fin 4096) : rowK x adj W s d n = rowR x adj W s d n := by
  funext j
  show masked _ (leaky (_ + dstK x W d j)) = masked _ (leaky (_ + dstR x W d j))
  rw [dstK_eq_dstR]

/-- Every masked logit is real. -/
theorem isReal_rowR (hx : AllReal x) (hW : AllReal W) (hs : AllReal s) (hd : AllReal d)
    (n j : Fin 4096) : IsReal (rowR x adj W s d n j) :=
  isReal_masked _ (isReal_leaky (isReal_add (isReal_srcT hx hW hs n) (isReal_dstR hx hW hd j)))

/-- The two weights are the same: the rows agree, and max -∞ m = m. -/
theorem wK_eq_wR (n j : Fin 4096) : wK x adj W s d n j = wR x adj W s d n j := by
  unfold wK wR
  rw [rowK_eq_rowR, negInf_eq, max_bot_left]

/-- A weight is exp of a difference of two reals, a positive real number. -/
theorem wR_pos_real (hx : AllReal x) (hW : AllReal W) (hs : AllReal s) (hd : AllReal d)
    (n j : Fin 4096) : ∃ u : ℝ, 0 < u ∧ wR x adj W s d n j = (u : EReal) := by
  obtain ⟨a, ha⟩ := isReal_rowR (adj := adj) hx hW hs hd n j
  obtain ⟨m, hm⟩ := isReal_rowMax (fun j' => isReal_rowR (adj := adj) hx hW hs hd n j')
  refine ⟨Real.exp (a - m), Real.exp_pos _, ?_⟩
  unfold wR
  rw [negInf_eq, max_bot_left, ha, hm]
  exact Cert.Hand.SoftmaxMerge.exp_coe_sub a m

/-- The two aggregates agree. -/
theorem aggK_eq_aggR (hx : AllReal x) (hW : AllReal W) (hs : AllReal s) (hd : AllReal d)
    (n : Fin 4096) (k : Fin 256) : aggK x adj W s d n k = aggR x adj W s d n k := by
  unfold aggK aggR
  simp only [wK_eq_wR]
  exact div_sum_eq_sum_div _ _ (fun j => wR_pos_real hx hW hs hd n j)
    (fun j => isReal_feat hx hW j k)

/-- The aggregate is real. -/
theorem isReal_aggR (hx : AllReal x) (hW : AllReal W) (hs : AllReal s) (hd : AllReal d)
    (n : Fin 4096) (k : Fin 256) : IsReal (aggR x adj W s d n k) :=
  isReal_sum_div _ _ (fun j => wR_pos_real hx hW hs hd n j) (fun j => isReal_feat hx hW j k)

/-- On real features, weight matrix and attention vectors the two arrangements of the layer agree,
    whatever the adjacency holds. -/
theorem layerK_eq_layerR (hx : AllReal x) (hW : AllReal W) (hs : AllReal s) (hd : AllReal d) :
    layerK x adj W s d = layerR x adj W s d := by
  funext i
  exact (congrArg eluK (aggK_eq_aggR hx hW hs hd (i 0) (i 1))).trans (eluK_eq_eluR _)

/-- On real operands every entry of the layer is a real number. -/
theorem allReal_layerR (hx : AllReal x) (hW : AllReal W) (hs : AllReal s) (hd : AllReal d) :
    AllReal (layerR x adj W s d) :=
  fun i => isReal_eluR (isReal_aggR hx hW hs hd (i 0) (i 1))

end Layer

end Cert.Gat

end
-- ==== Proof.Finite.lean ====
/-
  The precondition read back: the printed predicate is, for each of the eight float arguments, the conjunction over
  all entries of "|x| < +∞", and the eight results are and-ed. When the predicate is one, every entry of every
  argument is therefore a real number: over the extended reals |x| = max x (-x) is +∞ exactly at the two
  infinities, so |x| < +∞ leaves the images of real numbers only.
-/
import proofs.«172533_g75539884802175_cont_sun_m_1234_3_alg».proof.Defs
import proofs.«172533_g75539884802175_cont_sun_m_1234_3_alg».proof.Proof.Gen.Pre_finite_inputs
import proofs.«172533_g75539884802175_cont_sun_m_1234_3_alg».proof.Proof.AllReal
import Idealize.ShloMosaic.Lib.ReduceAll
import Idealize.ShloMosaic.Lib.ValueIdx

namespace Cert.Gat.Finite

open Idealize.ShloMosaic Idealize.SL.Sem
open Cert.LibERealSage (IsReal)

/-- The bit pattern 0x7F800000 of an f32 denotes +∞. -/
theorem inf_bits : Ideal.ofBits .f32 0x7F800000#32 = (⊤ : EReal) := by
  simp [Ideal.ofBits, Ideal.ieee]

/-- One entry: if the comparison |x| < +∞ answers one, x is a real number. At either infinity
    max x (-x) = +∞, which is not below +∞. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change Ideal.cmp .olt (max x (-x)) (Ideal.ofBits .f32 0x7F800000#32) = 1#1 at h
  rw [inf_bits] at h
  induction x using EReal.rec with
  | bot => simp [Ideal.cmp] at h
  | coe r => exact ⟨r, rfl⟩
  | top => simp [Ideal.cmp] at h

/-- The rank-0 shape has one index. -/
instance subsingleton_scalarIdx : Subsingleton Cert.Pre_finite_inputs.S_.Idx :=
  ⟨fun _ _ => funext fun d => d.elim0⟩

/-- One argument: if the conjunction over all entries of "|a i| < +∞" is one, every entry of a is real. -/
theorem allReal_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
        (cmpf .olt (Host.absf a)
          (broadcastInDim S ![] hb (constant Cert.Pre_finite_inputs.S_ .f32 0x7F800000#32)))
        (constantI Cert.Pre_finite_inputs.S_ 1 1#1) hr hu j = 1#1) :
    Cert.Gat.AllReal (S := S) a :=
  fun i => isReal_of_abs_lt_inf (a i) (Host.reduce_andi_all _ _ hr hu j e i)

section Predicate

variable [Cert.Pre_finite_inputs.Facts]

/-- The whole predicate, over the eight arguments as variables: when it is one, every entry of the seven float
    operands the layers compute with is real (the adjacency, the second argument, is left aside). The predicate
    is the left-nested conjunction of the eight per-argument conjunctions. -/
theorem allReal_of_fn
    (a0 : FVec Ideal Cert.Pre_finite_inputs.S4096x256 .f32) (a1 : FVec Ideal Cert.Pre_finite_inputs.S4096x4096 .f32)
    (a2 : FVec Ideal Cert.Pre_finite_inputs.S256x256 .f32) (a3 : FVec Ideal Cert.Pre_finite_inputs.S256x1 .f32)
    (a4 : FVec Ideal Cert.Pre_finite_inputs.S256x1 .f32) (a5 : FVec Ideal Cert.Pre_finite_inputs.S256x256 .f32)
    (a6 : FVec Ideal Cert.Pre_finite_inputs.S256x1 .f32) (a7 : FVec Ideal Cert.Pre_finite_inputs.S256x1 .f32)
    (h : Cert.Pre_finite_inputs.fn (F := Ideal) a0 a1 a2 a3 a4 a5 a6 a7 = (fun _ => 1#1)) :
    Cert.Gat.AllReal a0 ∧ Cert.Gat.AllReal a2 ∧ Cert.Gat.AllReal a3 ∧ Cert.Gat.AllReal a4
      ∧ Cert.Gat.AllReal a5 ∧ Cert.Gat.AllReal a6 ∧ Cert.Gat.AllReal a7 := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨h0, -⟩, h2⟩, h3⟩, h4⟩, h5⟩, h6⟩, h7⟩ := e
  exact ⟨allReal_of_all a0 _ _ _ _ h0, allReal_of_all a2 _ _ _ _ h2, allReal_of_all a3 _ _ _ _ h3,
    allReal_of_all a4 _ _ _ _ h4, allReal_of_all a5 _ _ _ _ h5, allReal_of_all a6 _ _ _ _ h6,
    allReal_of_all a7 _ _ _ _ h7⟩

end Predicate

/-- The precondition of the idealized kernel, read at the launch memory: on every device the seven float
    operands of the two layers hold real numbers only. -/
theorem allReal_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Gat.AllReal (S := Cert.KernelIdeal.S4096x256)
        (m ((c.tc : Thread Cert.KernelIdeal.nD Cert.KernelIdeal.τ).loc Cert.KernelIdeal.main_arg0))
    ∧ Cert.Gat.AllReal (S := Cert.KernelIdeal.S256x256)
        (m ((c.tc : Thread Cert.KernelIdeal.nD Cert.KernelIdeal.τ).loc Cert.KernelIdeal.main_arg2))
    ∧ Cert.Gat.AllReal (S := Cert.KernelIdeal.S256x1)
        (m ((c.tc : Thread Cert.KernelIdeal.nD Cert.KernelIdeal.τ).loc Cert.KernelIdeal.main_arg3))
    ∧ Cert.Gat.AllReal (S := Cert.KernelIdeal.S256x1)
        (m ((c.tc : Thread Cert.KernelIdeal.nD Cert.KernelIdeal.τ).loc Cert.KernelIdeal.main_arg4))
    ∧ Cert.Gat.AllReal (S := Cert.KernelIdeal.S256x256)
        (m ((c.tc : Thread Cert.KernelIdeal.nD Cert.KernelIdeal.τ).loc Cert.KernelIdeal.main_arg5))
    ∧ Cert.Gat.AllReal (S := Cert.KernelIdeal.S256x1)
        (m ((c.tc : Thread Cert.KernelIdeal.nD Cert.KernelIdeal.τ).loc Cert.KernelIdeal.main_arg6))
    ∧ Cert.Gat.AllReal (S := Cert.KernelIdeal.S256x1)
        (m ((c.tc : Thread Cert.KernelIdeal.nD Cert.KernelIdeal.τ).loc Cert.KernelIdeal.main_arg7)) :=
  allReal_of_fn
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (h c)

end Cert.Gat.Finite
-- ==== Proof.lean ====
/-
  Two stacked dense graph-attention layers over 4096 nodes and 256 features: the fused kernel against its jnp reference,
  equal over the extended reals under finite inputs.

  One layer, with h = x·W: a row n of logits e[n,j] = leaky_0.2(⟨h[n,·], a_src⟩ + ⟨h[j,·], a_dst⟩), kept where the adjacency
  entry is positive and -1e9 elsewhere; weights w[n,j] = exp(e[n,j] - max_j e[n,j]); result elu of the weighted mean of h's
  rows. The kernel streams 256 destination rows per grid point, keeps h in scratch from the first point on, and divides the
  weighted SUM by the weights' total once per entry; the reference normalises each weight first. With every entry of
  x, W, a_src, a_dst real the total is a real ≥ 1, so (Σ_j w_j·h_jk)/z = Σ_j (w_j/z)·h_jk (z⁻¹ real, distributivity over a
  finite sum of reals), the two elu spellings agree (expm1 v = exp v - 1), and a layer's result is real again, which is what
  the second layer needs of its input. The word-level kernel and its idealization are the same text (no rewrite applied),
  so each frame is the same run read at its instance.
-/
import proofs.«172533_g75539884802175_cont_sun_m_1234_3_alg».proof.Defs
import proofs.«172533_g75539884802175_cont_sun_m_1234_3_alg».proof.Proof.Gen.Kernel
import proofs.«172533_g75539884802175_cont_sun_m_1234_3_alg».proof.Proof.Gen.Kernel.Skeleton
import proofs.«172533_g75539884802175_cont_sun_m_1234_3_alg».proof.Proof.Gen.Kernel.Launch
import proofs.«172533_g75539884802175_cont_sun_m_1234_3_alg».proof.Proof.Gen.Kernel.Regions
import proofs.«172533_g75539884802175_cont_sun_m_1234_3_alg».proof.Proof.Gen.Kernel.Points
import proofs.«172533_g75539884802175_cont_sun_m_1234_3_alg».proof.Proof.Gen.KernelIdeal
import proofs.«172533_g75539884802175_cont_sun_m_1234_3_alg».proof.Proof.Gen.KernelIdeal.Skeleton
import proofs.«172533_g75539884802175_cont_sun_m_1234_3_alg».proof.Proof.Gen.KernelIdeal.Launch
import proofs.«172533_g75539884802175_cont_sun_m_1234_3_alg».proof.Proof.Gen.KernelIdeal.Regions
import proofs.«172533_g75539884802175_cont_sun_m_1234_3_alg».proof.Proof.Gen.KernelIdeal.Points
import proofs.«172533_g75539884802175_cont_sun_m_1234_3_alg».proof.Proof.Gen.ReferenceIdeal
import proofs.«172533_g75539884802175_cont_sun_m_1234_3_alg».proof.Proof.Gen.Pre_finite_inputs
import proofs.«172533_g75539884802175_cont_sun_m_1234_3_alg».proof.Proof.KRunBits
import proofs.«172533_g75539884802175_cont_sun_m_1234_3_alg».proof.Proof.KValRunIdeal
import proofs.«172533_g75539884802175_cont_sun_m_1234_3_alg».proof.Proof.KValueIdeal
import proofs.«172533_g75539884802175_cont_sun_m_1234_3_alg».proof.Proof.RefRun
import proofs.«172533_g75539884802175_cont_sun_m_1234_3_alg».proof.Proof.RValue
import proofs.«172533_g75539884802175_cont_sun_m_1234_3_alg».proof.Proof.Algebra
import proofs.«172533_g75539884802175_cont_sun_m_1234_3_alg».proof.Proof.Finite
import Idealize.ShloMosaic.Adequacy
import Idealize.ShloMosaic.Init

noncomputable section

namespace Cert.Proof

open Idealize.ShloMosaic Idealize.SL.Sem

/-- The word-level kernel runs to the end, faults nowhere and leaves its eight arguments as launched. -/
theorem frame_k : Cert.frame_Kernel := fun m g _ => Cert.Kernel.Hand.frame_run m g
/-- So does its idealization. -/
theorem frame_ki : Cert.frame_KernelIdeal := fun m g _ => Cert.KernelIdeal.Hand.frame_run m g
/-- The reference is a host program: its run, with the result dropped. -/
theorem frame_ri : Cert.frame_ReferenceIdeal := fun m g _ =>
  (θ_run Cert.ReferenceIdeal.defs _ _).mono (fun _ h c => (h c).2) (Cert.ReferenceIdeal.Hand.run (F := Ideal) m g)

open Cert.Gat in
/-- Both layers: for real x, W₁, a_src₁, a_dst₁, W₂, a_src₂, a_dst₂ the kernel's array function is the reference's — each
    layer's two arrangements agree on real operands, and the first layer's result is real again. -/
theorem kout_eq_rout (x : Cert.Gat.SNxD.Idx → EReal) (adj : Cert.Gat.SNxN.Idx → EReal) (W1 : Cert.Gat.SDxD.Idx → EReal) (s1 d1 : Cert.Gat.SDx1.Idx → EReal)
    (W2 : Cert.Gat.SDxD.Idx → EReal) (s2 d2 : Cert.Gat.SDx1.Idx → EReal)
    (hx : AllReal x) (hW1 : AllReal W1) (hs1 : AllReal s1) (hd1 : AllReal d1) (hW2 : AllReal W2) (hs2 : AllReal s2) (hd2 : AllReal d2) :
    Cert.KernelIdeal.Hand.kout (F := Ideal) x adj W1 s1 d1 W2 s2 d2 = Cert.ReferenceIdeal.Hand.rout (F := Ideal) x adj W1 s1 d1 W2 s2 d2 := by
  unfold Cert.KernelIdeal.Hand.kout Cert.ReferenceIdeal.Hand.rout
  rw [Cert.KernelIdeal.HandValue.klayer1_eq, Cert.KernelIdeal.HandValue.klayer0_eq, Cert.ReferenceIdeal.HandValue.rlayer_eq, Cert.ReferenceIdeal.HandValue.rlayer_eq,
    layerK_eq_layerR hx hW1 hs1 hd1]
  exact layerK_eq_layerR (allReal_layerR hx hW1 hs1 hd1) hW2 hs2 hd2

/-- From memories agreeing on the arguments, under finite inputs, both idealized programs end with the same result. -/
theorem algebraic : Cert.algebraic_KernelIdeal_ReferenceIdeal := by
  intro m g m' g' hpre hagree
  refine ⟨fun c => Cert.KernelIdeal.Hand.kout (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.value_run m g, ?_⟩
  refine (θ_run Cert.ReferenceIdeal.defs _ _).mono (fun _ h c => ⟨(h c).1.trans ?_, (h c).2⟩)
    (Cert.ReferenceIdeal.Hand.run (F := Ideal) m' g')
  obtain ⟨a0, a1, a2, a3, a4, a5, a6, a7⟩ := hagree c
  rw [a0, a1, a2, a3, a4, a5, a6, a7]
  obtain ⟨r0, r2, r3, r4, r5, r6, r7⟩ := Cert.Gat.Finite.allReal_of_pre m hpre c
  exact (kout_eq_rout _ _ _ _ _ _ _ _ r0 r2 r3 r4 r5 r6 r7).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
